-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x3x1024x1024 : Shape := ⟨4, ![16, 3, 1024, 1024]⟩
abbrev S_ : Shape := ⟨0, ![]⟩

class Facts : Prop where
  bcast_S_S16x3x1024x1024 : S_.BroadcastsInDim S16x3x1024x1024 (![] : Fin 0 → Fin S16x3x1024x1024.rank)
  reducesTo_S16x3x1024x1024_S_d0_1_2_3 : S16x3x1024x1024.ReducesTo [0, 1, 2, 3] S_
  h_S_ : 0 < S_.numel

variable [Facts]

def fn {F : FTy → Type} [FloatOps F] (main_arg0 : FVec F S16x3x1024x1024 .f32) (main_arg1 : FVec F S16x3x1024x1024 .f32) : IVec S_ 1 :=
  let main_v0 : FVec F S16x3x1024x1024 .f32 := Host.absf main_arg0
  let main_cst : FVec F S_ .f32 := constant S_ .f32 0x7F800000#32
  let main_v1 : FVec F S16x3x1024x1024 .f32 := broadcastInDim S16x3x1024x1024 ![] bcast_S_S16x3x1024x1024 main_cst
  let main_v2 : IVec S16x3x1024x1024 1 := cmpf .olt main_v0 main_v1
  let main_c : IVec S_ 1 := constantI S_ 1 1#1
  let main_v3 : IVec S_ 1 := (fun x v => Host.reduce IntOp.andi x v reducesTo_S16x3x1024x1024_S_d0_1_2_3 h_S_) main_v2 main_c
  let main_v4 : FVec F S16x3x1024x1024 .f32 := Host.absf main_arg1
  let main_cst_0 : FVec F S_ .f32 := constant S_ .f32 0x7F800000#32
  let main_v5 : FVec F S16x3x1024x1024 .f32 := broadcastInDim S16x3x1024x1024 ![] bcast_S_S16x3x1024x1024 main_cst_0
  let main_v6 : IVec S16x3x1024x1024 1 := cmpf .olt main_v4 main_v5
  let main_c_1 : IVec S_ 1 := constantI S_ 1 1#1
  let main_v7 : IVec S_ 1 := (fun x v => Host.reduce IntOp.andi x v reducesTo_S16x3x1024x1024_S_d0_1_2_3 h_S_) main_v6 main_c_1
  let main_v8 : IVec S_ 1 := andi main_v3 main_v7
  main_v8
-- ==== Kernel.lean ====
abbrev S16x3x1024x1024 : Shape := ⟨4, ![16, 3, 1024, 1024]⟩
abbrev S16x1x128 : Shape := ⟨3, ![16, 1, 128]⟩
abbrev S1x3x256x1024 : Shape := ⟨4, ![1, 3, 256, 1024]⟩
abbrev S1x1x128 : Shape := ⟨3, ![1, 1, 128]⟩
abbrev S1x128 : Shape := ⟨2, ![1, 128]⟩
abbrev S3x256x1024 : Shape := ⟨3, ![3, 256, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1x10 : Shape := ⟨2, ![1, 10]⟩
abbrev S1x118 : Shape := ⟨2, ![1, 118]⟩
abbrev S16x128 : Shape := ⟨2, ![16, 128]⟩
abbrev S16x1 : Shape := ⟨2, ![16, 1]⟩
abbrev S16 : Shape := ⟨1, ![16]⟩
abbrev S16x3 : Shape := ⟨2, ![16, 3]⟩
abbrev S_ : Shape := ⟨0, ![]⟩

abbrev nBuf : Space → Nat
  | .hbm => 85
  | .vmem => 7
  | .smem => 0
  | _ => 0

abbrev bufTy : (tb : Table) → Fin (tcTables nBuf tb) → BufTy
  | .hbm, ⟨0, _⟩ => ⟨S16x3x1024x1024, .f32⟩
  | .hbm, ⟨1, _⟩ => ⟨S16x3x1024x1024, .f32⟩
  | .hbm, ⟨2, _⟩ => ⟨S16x1x128, .f32⟩
  | .hbm, ⟨3, _⟩ => ⟨S16x128, .f32⟩
  | .hbm, ⟨4, _⟩ => ⟨S16x1, .f32⟩
  | .hbm, ⟨5, _⟩ => ⟨S16, .f32⟩
  | .hbm, ⟨6, _⟩ => ⟨S16x1, .f32⟩
  | .hbm, ⟨7, _⟩ => ⟨S16, .f32⟩
  | .hbm, ⟨8, _⟩ => ⟨S16x1, .f32⟩
  | .hbm, ⟨9, _⟩ => ⟨S16, .f32⟩
  | .hbm, ⟨10, _⟩ => ⟨S16x1, .f32⟩
  | .hbm, ⟨11, _⟩ => ⟨S16, .f32⟩
  | .hbm, ⟨12, _⟩ => ⟨S16x3, .f32⟩
  | .hbm, ⟨13, _⟩ => ⟨S16x3, .f32⟩
  | .hbm, ⟨14, _⟩ => ⟨S_, .f32⟩
  | .hbm, ⟨15, _⟩ => ⟨S16, .f32⟩
  | .hbm, ⟨16, _⟩ => ⟨S16, .i1⟩
  | .hbm, ⟨17, _⟩ => ⟨S_, .f32⟩
  | .hbm, ⟨18, _⟩ => ⟨S16, .f32⟩
  | .hbm, ⟨19, _⟩ => ⟨S16, .i1⟩
  | .hbm, ⟨20, _⟩ => ⟨S16, .i1⟩
  | .hbm, ⟨21, _⟩ => ⟨S_, .f32⟩
  | .hbm, ⟨22, _⟩ => ⟨S16, .f32⟩
  | .hbm, ⟨23, _⟩ => ⟨S16, .f32⟩
  | .hbm, ⟨24, _⟩ => ⟨S_, .f32⟩
  | .hbm, ⟨25, _⟩ => ⟨S16, .f32⟩
  | .hbm, ⟨26, _⟩ => ⟨S16, .f32⟩
  | .hbm, ⟨27, _⟩ => ⟨S_, .f32⟩
  | .hbm, ⟨28, _⟩ => ⟨S16, .f32⟩
  | .hbm, ⟨29, _⟩ => ⟨S16, .f32⟩
  | .hbm, ⟨30, _⟩ => ⟨S16, .f32⟩
  | .hbm, ⟨31, _⟩ => ⟨S_, .f32⟩
  | .hbm, ⟨32, _⟩ => ⟨S16, .f32⟩
  | .hbm, ⟨33, _⟩ => ⟨S16, .f32⟩
  | .hbm, ⟨34, _⟩ => ⟨S16, .f32⟩
  | .hbm, ⟨35, _⟩ => ⟨S16x1, .f32⟩
  | .hbm, ⟨36, _⟩ => ⟨S16x3, .f32⟩
  | .hbm, ⟨37, _⟩ => ⟨S16x3, .f32⟩
  | .hbm, ⟨38, _⟩ => ⟨S16x1, .f32⟩
  | .hbm, ⟨39, _⟩ => ⟨S16x3, .f32⟩
  | .hbm, ⟨40, _⟩ => ⟨S16x3, .f32⟩
  | .hbm, ⟨41, _⟩ => ⟨S16x3, .f32⟩
  | .hbm, ⟨42, _⟩ => ⟨S16x3, .f32⟩
  | .hbm, ⟨43, _⟩ => ⟨S_, .f32⟩
  | .hbm, ⟨44, _⟩ => ⟨S16, .f32⟩
  | .hbm, ⟨45, _⟩ => ⟨S_, .f32⟩
  | .hbm, ⟨46, _⟩ => ⟨S16, .f32⟩
  | .hbm, ⟨47, _⟩ => ⟨S16, .f32⟩
  | .hbm, ⟨48, _⟩ => ⟨S_, .f32⟩
  | .hbm, ⟨49, _⟩ => ⟨S16, .f32⟩
  | .hbm, ⟨50, _⟩ => ⟨S16, .f32⟩
  | .hbm, ⟨51, _⟩ => ⟨S16, .f32⟩
  | .hbm, ⟨52, _⟩ => ⟨S16, .f32⟩
  | .hbm, ⟨53, _⟩ => ⟨S16, .f32⟩
  | .hbm, ⟨54, _⟩ => ⟨S16, .f32⟩
  | .hbm, ⟨55, _⟩ => ⟨S16, .f32⟩
  | .hbm, ⟨56, _⟩ => ⟨S_, .f32⟩
  | .hbm, ⟨57, _⟩ => ⟨S_, .f32⟩
  | .hbm, ⟨58, _⟩ => ⟨S16, .f32⟩
  | .hbm, ⟨59, _⟩ => ⟨S16, .f32⟩
  | .hbm, ⟨60, _⟩ => ⟨S_, .f32⟩
  | .hbm, ⟨61, _⟩ => ⟨S_, .f32⟩
  | .hbm, ⟨62, _⟩ => ⟨S16, .f32⟩
  | .hbm, ⟨63, _⟩ => ⟨S16, .f32⟩
  | .hbm, ⟨64, _⟩ => ⟨S16, .f32⟩
  | .hbm, ⟨65, _⟩ => ⟨S_, .f32⟩
  | .hbm, ⟨66, _⟩ => ⟨S_, .f32⟩
  | .hbm, ⟨67, _⟩ => ⟨S16, .f32⟩
  | .hbm, ⟨68, _⟩ => ⟨S16, .f32⟩
  | .hbm, ⟨69, _⟩ => ⟨S16, .f32⟩
  | .hbm, ⟨70, _⟩ => ⟨S_, .f32⟩
  | .hbm, ⟨71, _⟩ => ⟨S16, .f32⟩
  | .hbm, ⟨72, _⟩ => ⟨S16, .i1⟩
  | .hbm, ⟨73, _⟩ => ⟨S_, .f32⟩
  | .hbm, ⟨74, _⟩ => ⟨S16, .f32⟩
  | .hbm, ⟨75, _⟩ => ⟨S16, .f32⟩
  | .hbm, ⟨76, _⟩ => ⟨S16, .f32⟩
  | .hbm, ⟨77, _⟩ => ⟨S_, .f32⟩
  | .hbm, ⟨78, _⟩ => ⟨S_, .f32⟩
  | .hbm, ⟨79, _⟩ => ⟨S16, .f32⟩
  | .hbm, ⟨80, _⟩ => ⟨S16, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .local _ .vmem, ⟨0, _⟩ => ⟨S1x3x256x1024, .f32⟩
  | .local _ .vmem, ⟨1, _⟩ => ⟨S1x3x256x1024, .f32⟩
  | .local _ .vmem, ⟨2, _⟩ => ⟨S1x3x256x1024, .f32⟩
  | .local _ .vmem, ⟨3, _⟩ => ⟨S1x3x256x1024, .f32⟩
  | .local _ .vmem, ⟨4, _⟩ => ⟨S1x1x128, .f32⟩
  | .local _ .vmem, ⟨5, _⟩ => ⟨S1x1x128, .f32⟩
  | .local _ .vmem, ⟨6, _⟩ => ⟨S1x128, .f32⟩
  | _, _ => ⟨S16x3x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_1 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_cst_3 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_4 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_5 : Ref sig .tc := ⟨.hbm, 43, rfl⟩
abbrev main_v35 : Ref sig .tc := ⟨.hbm, 44, rfl⟩
abbrev main_cst_6 : Ref sig .tc := ⟨.hbm, 45, rfl⟩
abbrev main_v36 : Ref sig .tc := ⟨.hbm, 46, rfl⟩
abbrev main_v37 : Ref sig .tc := ⟨.hbm, 47, rfl⟩
abbrev main_cst_7 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_8 : Ref sig .tc := ⟨.hbm, 56, rfl⟩
abbrev main_call0_v0 : Ref sig .tc := ⟨.hbm, 57, rfl⟩
abbrev main_call0_v1 : Ref sig .tc := ⟨.hbm, 58, rfl⟩
abbrev main_v45 : Ref sig .tc := ⟨.hbm, 59, rfl⟩
abbrev main_cst_9 : Ref sig .tc := ⟨.hbm, 60, rfl⟩
abbrev main_call1_v0 : Ref sig .tc := ⟨.hbm, 61, rfl⟩
abbrev main_call1_v1 : Ref sig .tc := ⟨.hbm, 62, rfl⟩
abbrev main_v46 : Ref sig .tc := ⟨.hbm, 63, rfl⟩
abbrev main_v47 : Ref sig .tc := ⟨.hbm, 64, rfl⟩
abbrev main_cst_10 : Ref sig .tc := ⟨.hbm, 65, rfl⟩
abbrev main_call2_v0 : Ref sig .tc := ⟨.hbm, 66, rfl⟩
abbrev main_call2_v1 : Ref sig .tc := ⟨.hbm, 67, rfl⟩
abbrev main_v48 : Ref sig .tc := ⟨.hbm, 68, rfl⟩
abbrev main_v49 : Ref sig .tc := ⟨.hbm, 69, rfl⟩
abbrev main_cst_11 : Ref sig .tc := ⟨.hbm, 70, rfl⟩
abbrev main_v50 : Ref sig .tc := ⟨.hbm, 71, rfl⟩
abbrev main_v51 : Ref sig .tc := ⟨.hbm, 72, rfl⟩
abbrev main_cst_12 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_13 : Ref sig .tc := ⟨.hbm, 77, rfl⟩
abbrev main_call3_v0 : Ref sig .tc := ⟨.hbm, 78, rfl⟩
abbrev main_call3_v1 : Ref sig .tc := ⟨.hbm, 79, rfl⟩
abbrev main_v55 : Ref sig .tc := ⟨.hbm, 80, rfl⟩
abbrev main_cst_14 : Ref sig .tc := ⟨.hbm, 81, rfl⟩
abbrev main_v56 : Ref sig .tc := ⟨.hbm, 82, rfl⟩
abbrev main_cst_15 : Ref sig .tc := ⟨.hbm, 83, rfl⟩
abbrev main_v57 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v189 : BitVec 1 := Scalar.cmpi .eq arg1 c3_i32
  let v190 : BitVec 32 := Scalar.extui v189
  let c0_i32_69 : BitVec 32 := 0#32
  let v191 : BitVec 1 := Scalar.cmpi .ne v190 c0_i32_69
  v191

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x3x256x1024_S1x3x256x1024_0_0_0_0 : ∀ a, (![0, 0, 0, 0] : Fin 4 → Nat) a + S1x3x256x1024.size a ≤ S1x3x256x1024.size a
  h_S1x3x256x1024 : 0 < S1x3x256x1024.numel
  shapeCasts_S1x3x256x1024_S3x256x1024 : S1x3x256x1024.ShapeCasts S3x256x1024
  slices_S3x256x1024_o0_0_0_S1x256x1024 : S3x256x1024.Slices ![0, 0, 0] S1x256x1024
  shapeCasts_S1x256x1024_S256x1024 : S1x256x1024.ShapeCasts S256x1024
  slices_S3x256x1024_o1_0_0_S1x256x1024 : S3x256x1024.Slices ![1, 0, 0] S1x256x1024
  slices_S3x256x1024_o2_0_0_S1x256x1024 : S3x256x1024.Slices ![2, 0, 0] S1x256x1024
  natLt_1_32 : 1 < 32
  reduces_S256x1024_S256 : S256x1024.Reduces [1] S256
  shapeCasts_S256_S256x1 : S256.ShapeCasts S256x1
  reduces_S256x1_S1 : S256x1.Reduces [0] S1
  shapeCasts_S1_S1x1 : S1.ShapeCasts S1x1
  concatenates_S1x1_S1x1_S1x1_S1x1_S1x1_S1x1_S1x1_S1x1_S1x1_S1x1_S1x10_d1 : Shape.Concatenates [S1x1, S1x1, S1x1, S1x1, S1x1, S1x1, S1x1, S1x1, S1x1, S1x1] S1x10 1
  concatenates_S1x10_S1x118_S1x128_d1 : Shape.Concatenates [S1x10, S1x118] S1x128 1
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  shapeCasts_S16x1x128_S16x128 : S16x1x128.ShapeCasts S16x128
  slices_S16x128_S16x1_0_0 : S16x128.Slices ![0, 0] S16x1
  shapeCasts_S16x1_S16 : S16x1.ShapeCasts S16
  slices_S16x128_S16x1_0_1 : S16x128.Slices ![0, 1] S16x1
  slices_S16x128_S16x1_0_2 : S16x128.Slices ![0, 2] S16x1
  slices_S16x128_S16x1_0_3 : S16x128.Slices ![0, 3] S16x1
  slices_S16x128_S16x3_0_4 : S16x128.Slices ![0, 4] S16x3
  slices_S16x128_S16x3_0_7 : S16x128.Slices ![0, 7] S16x3
  bcast_S_S16 : S_.BroadcastsInDim S16 (![] : Fin 0 → Fin S16.rank)
  bcast_S16_S16x1_0 : S16.BroadcastsInDim S16x1 (![0] : Fin 1 → Fin S16x1.rank)
  bcast_S16x1_S16x3_0_1 : S16x1.BroadcastsInDim S16x3 (![0, 1] : Fin 2 → Fin S16x3.rank)
  reducesTo_S16x3_S16_d1 : S16x3.ReducesTo [1] S16
  h_S_ : 0 < S_.numel
  reducesTo_S16_S_d0 : S16.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x256x1024.size a ≤ S16x3x1024x1024.size a
  hwx0_0 : ∀ i : grid0.Coords, EltTy.bits .f32 = 32 ∨ (Rect.block (s := S16x3x1024x1024) S1x3x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x256x1024.size a ≤ S16x3x1024x1024.size a
  hwx0_1 : ∀ i : grid0.Coords, EltTy.bits .f32 = 32 ∨ (Rect.block (s := S16x3x1024x1024) S1x3x256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S16x1x128.size a
  hwx0_2 : ∀ i : grid0.Coords, EltTy.bits .f32 = 32 ∨ (Rect.block (s := S16x1x128) S1x1x128.size (cc0_transform_2 i) (hinb0_2 i)).WholeWords (EltTy.packing .f32)

variable [Facts₀]

abbrev win0_0 : Pipeline.Window sig grid0 :=
  Pipeline.Window.ofSpec (Memref.whole main_arg0) S1x3x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x3x256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16x3x1024x1024 : Shape := ⟨4, ![16, 3, 1024, 1024]⟩
abbrev S_ : Shape := ⟨0, ![]⟩
abbrev S16x1024x1024 : Shape := ⟨3, ![16, 1024, 1024]⟩
abbrev S16x1x1024x1024 : Shape := ⟨4, ![16, 1, 1024, 1024]⟩
abbrev S16 : Shape := ⟨1, ![16]⟩
abbrev S16x3 : Shape := ⟨2, ![16, 3]⟩
abbrev S16x1 : Shape := ⟨2, ![16, 1]⟩

abbrev nBuf : Space → Nat
  | .hbm => 138
  | .vmem => 0
  | .smem => 0
  | _ => 0

abbrev hbmTy0_0 (i : Nat) : BufTy := match i % 128 with
  | 0 => ⟨S16x3x1024x1024, .f32⟩
  | 1 => ⟨S16x3x1024x1024, .f32⟩
  | 2 => ⟨S_, .f32⟩
  | 3 => ⟨S16x3x1024x1024, .f32⟩
  | 4 => ⟨S16x3x1024x1024, .i1⟩
  | 5 => ⟨S_, .i1⟩
  | 6 => ⟨S16x1024x1024, .i1⟩
  | 7 => ⟨S_, .f32⟩
  | 8 => ⟨S16x3x1024x1024, .f32⟩
  | 9 => ⟨S16x3x1024x1024, .i1⟩
  | 10 => ⟨S_, .i1⟩
  | 11 => ⟨S16x1024x1024, .i1⟩
  | 12 => ⟨S16x1x1024x1024, .i1⟩
  | 13 => ⟨S16x1x1024x1024, .f32⟩
  | 14 => ⟨S16x1x1024x1024, .i1⟩
  | 15 => ⟨S16x1x1024x1024, .f32⟩
  | 16 => ⟨S16x1024x1024, .i32⟩
  | 17 => ⟨S_, .i32⟩
  | 18 => ⟨S16, .i32⟩
  | 19 => ⟨S16, .f32⟩
  | 20 => ⟨S16x1024x1024, .i32⟩
  | 21 => ⟨S_, .i32⟩
  | 22 => ⟨S16, .i32⟩
  | 23 => ⟨S16, .f32⟩
  | 24 => ⟨S_, .f32⟩
  | 25 => ⟨S16, .f32⟩
  | 26 => ⟨S16, .i1⟩
  | 27 => ⟨S_, .f32⟩
  | 28 => ⟨S16, .f32⟩
  | 29 => ⟨S16, .i1⟩
  | 30 => ⟨S16, .i1⟩
  | 31 => ⟨S_, .f32⟩
  | 32 => ⟨S16, .f32⟩
  | 33 => ⟨S16, .f32⟩
  | 34 => ⟨S_, .f32⟩
  | 35 => ⟨S16, .f32⟩
  | 36 => ⟨S16, .f32⟩
  | 37 => ⟨S16x3x1024x1024, .f32⟩
  | 38 => ⟨S_, .f32⟩
  | 39 => ⟨S16x3x1024x1024, .f32⟩
  | 40 => ⟨S16x3x1024x1024, .i1⟩
  | 41 => ⟨S_, .f32⟩
  | 42 => ⟨S16x3x1024x1024, .f32⟩
  | 43 => ⟨S16x3x1024x1024, .f32⟩
  | 44 => ⟨S16x3x1024x1024, .f32⟩
  | 45 => ⟨S_, .f32⟩
  | 46 => ⟨S16x3x1024x1024, .f32⟩
  | 47 => ⟨S16x3x1024x1024, .f32⟩
  | 48 => ⟨S16x3x1024x1024, .f32⟩
  | 49 => ⟨S16x3x1024x1024, .f32⟩
  | 50 => ⟨S16x3x1024x1024, .f32⟩
  | 51 => ⟨S_, .f32⟩
  | 52 => ⟨S16, .f32⟩
  | 53 => ⟨S_, .f32⟩
  | 54 => ⟨S16, .f32⟩
  | 55 => ⟨S16, .f32⟩
  | 56 => ⟨S16, .f32⟩
  | 57 => ⟨S_, .f32⟩
  | 58 => ⟨S16x3x1024x1024, .f32⟩
  | 59 => ⟨S16x3x1024x1024, .f32⟩
  | 60 => ⟨S16x3x1024x1024, .f32⟩
  | 61 => ⟨S_, .f32⟩
  | 62 => ⟨S16x3x1024x1024, .f32⟩
  | 63 => ⟨S16x3x1024x1024, .i1⟩
  | 64 => ⟨S_, .f32⟩
  | 65 => ⟨S16x3x1024x1024, .f32⟩
  | 66 => ⟨S16x3x1024x1024, .f32⟩
  | 67 => ⟨S16x3x1024x1024, .f32⟩
  | 68 => ⟨S_, .f32⟩
  | 69 => ⟨S16x3x1024x1024, .f32⟩
  | 70 => ⟨S16x3x1024x1024, .f32⟩
  | 71 => ⟨S16x3x1024x1024, .f32⟩
  | 72 => ⟨S16x3x1024x1024, .f32⟩
  | 73 => ⟨S16x3x1024x1024, .f32⟩
  | 74 => ⟨S_, .f32⟩
  | 75 => ⟨S16, .f32⟩
  | 76 => ⟨S_, .f32⟩
  | 77 => ⟨S16, .f32⟩
  | 78 => ⟨S16, .f32⟩
  | 79 => ⟨S16, .f32⟩
  | 80 => ⟨S16x3x1024x1024, .f32⟩
  | 81 => ⟨S16x3x1024x1024, .f32⟩
  | 82 => ⟨S_, .f32⟩
  | 83 => ⟨S16x3, .f32⟩
  | 84 => ⟨S16x1, .f32⟩
  | 85 => ⟨S16x3, .f32⟩
  | 86 => ⟨S16x3, .f32⟩
  | 87 => ⟨S16x3x1024x1024, .f32⟩
  | 88 => ⟨S16x3x1024x1024, .f32⟩
  | 89 => ⟨S_, .f32⟩
  | 90 => ⟨S16x3, .f32⟩
  | 91 => ⟨S16x1, .f32⟩
  | 92 => ⟨S16x3, .f32⟩
  | 93 => ⟨S16x3, .f32⟩
  | 94 => ⟨S16x3, .f32⟩
  | 95 => ⟨S16x3, .f32⟩
  | 96 => ⟨S_, .f32⟩
  | 97 => ⟨S16, .f32⟩
  | 98 => ⟨S_, .f32⟩
  | 99 => ⟨S16, .f32⟩
  | 100 => ⟨S16, .f32⟩
  | 101 => ⟨S_, .f32⟩
  | 102 => ⟨S16, .f32⟩
  | 103 => ⟨S16, .f32⟩
  | 104 => ⟨S16, .f32⟩
  | 105 => ⟨S16, .f32⟩
  | 106 => ⟨S16, .f32⟩
  | 107 => ⟨S16, .f32⟩
  | 108 => ⟨S16, .f32⟩
  | 109 => ⟨S_, .f32⟩
  | 110 => ⟨S_, .f32⟩
  | 111 => ⟨S16, .f32⟩
  | 112 => ⟨S16, .f32⟩
  | 113 => ⟨S_, .f32⟩
  | 114 => ⟨S_, .f32⟩
  | 115 => ⟨S16, .f32⟩
  | 116 => ⟨S16, .f32⟩
  | 117 => ⟨S16, .f32⟩
  | 118 => ⟨S_, .f32⟩
  | 119 => ⟨S_, .f32⟩
  | 120 => ⟨S16, .f32⟩
  | 121 => ⟨S16, .f32⟩
  | 122 => ⟨S16, .f32⟩
  | 123 => ⟨S_, .f32⟩
  | 124 => ⟨S16, .f32⟩
  | 125 => ⟨S16, .i1⟩
  | 126 => ⟨S_, .f32⟩
  | 127 => ⟨S16, .f32⟩
  | _ => ⟨S16x3x1024x1024, .f32⟩

abbrev hbmTy0_1 (i : Nat) : BufTy := match i % 128 with
  | 0 => ⟨S16, .f32⟩
  | 1 => ⟨S16, .f32⟩
  | 2 => ⟨S_, .f32⟩
  | 3 => ⟨S_, .f32⟩
  | 4 => ⟨S16, .f32⟩
  | 5 => ⟨S16, .f32⟩
  | 6 => ⟨S_, .f32⟩
  | 7 => ⟨S_, .f32⟩
  | 8 => ⟨S_, .f32⟩
  | 9 => ⟨S_, .f32⟩
  | _ => ⟨S16x3x1024x1024, .f32⟩

abbrev hbmTy (i : Nat) : BufTy := match i / 128 with
  | 0 => hbmTy0_0 i
  | 1 => hbmTy0_1 i
  | _ => ⟨S16x3x1024x1024, .f32⟩

abbrev bufTy : (tb : Table) → Fin (tcTables nBuf tb) → BufTy
  | .hbm, ⟨i, _⟩ => hbmTy i
  | _, _ => ⟨S16x3x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_3 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_6 : Ref sig .tc := ⟨.hbm, 31, rfl⟩
abbrev main_v21 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_8 : Ref sig .tc := ⟨.hbm, 38, rfl⟩
abbrev main_v26 : Ref sig .tc := ⟨.hbm, 39, rfl⟩
abbrev main_v27 : Ref sig .tc := ⟨.hbm, 40, rfl⟩
abbrev main_cst_9 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_10 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_11 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_13 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_16 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_17 : Ref sig .tc := ⟨.hbm, 74, rfl⟩
abbrev main_v53 : Ref sig .tc := ⟨.hbm, 75, rfl⟩
abbrev main_cst_18 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_19 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_20 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_21 : Ref sig .tc := ⟨.hbm, 96, rfl⟩
abbrev main_v71 : Ref sig .tc := ⟨.hbm, 97, rfl⟩
abbrev main_cst_22 : Ref sig .tc := ⟨.hbm, 98, rfl⟩
abbrev main_v72 : Ref sig .tc := ⟨.hbm, 99, rfl⟩
abbrev main_v73 : Ref sig .tc := ⟨.hbm, 100, rfl⟩
abbrev main_cst_23 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_24 : Ref sig .tc := ⟨.hbm, 109, rfl⟩
abbrev main_call2_v0 : Ref sig .tc := ⟨.hbm, 110, rfl⟩
abbrev main_call2_v1 : Ref sig .tc := ⟨.hbm, 111, rfl⟩
abbrev main_v81 : Ref sig .tc := ⟨.hbm, 112, rfl⟩
abbrev main_cst_25 : Ref sig .tc := ⟨.hbm, 113, rfl⟩
abbrev main_call3_v0 : Ref sig .tc := ⟨.hbm, 114, rfl⟩
abbrev main_call3_v1 : Ref sig .tc := ⟨.hbm, 115, rfl⟩
abbrev main_v82 : Ref sig .tc := ⟨.hbm, 116, rfl⟩
abbrev main_v83 : Ref sig .tc := ⟨.hbm, 117, rfl⟩
abbrev main_cst_26 : Ref sig .tc := ⟨.hbm, 118, rfl⟩
abbrev main_call4_v0 : Ref sig .tc := ⟨.hbm, 119, rfl⟩
abbrev main_call4_v1 : Ref sig .tc := ⟨.hbm, 120, rfl⟩
abbrev main_v84 : Ref sig .tc := ⟨.hbm, 121, rfl⟩
abbrev main_v85 : Ref sig .tc := ⟨.hbm, 122, rfl⟩
abbrev main_cst_27 : Ref sig .tc := ⟨.hbm, 123, rfl⟩
abbrev main_v86 : Ref sig .tc := ⟨.hbm, 124, rfl⟩
abbrev main_v87 : Ref sig .tc := ⟨.hbm, 125, rfl⟩
abbrev main_cst_28 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_cst_29 : Ref sig .tc := ⟨.hbm, 130, rfl⟩
abbrev main_call5_v0 : Ref sig .tc := ⟨.hbm, 131, rfl⟩
abbrev main_call5_v1 : Ref sig .tc := ⟨.hbm, 132, rfl⟩
abbrev main_v91 : Ref sig .tc := ⟨.hbm, 133, rfl⟩
abbrev main_cst_30 : Ref sig .tc := ⟨.hbm, 134, rfl⟩
abbrev main_v92 : Ref sig .tc := ⟨.hbm, 135, rfl⟩
abbrev main_cst_31 : Ref sig .tc := ⟨.hbm, 136, rfl⟩
abbrev main_v93 : Ref sig .tc := ⟨.hbm, 137, rfl⟩

abbrev nD : Nat := 1
abbrev τ : Topo := Topo.v7x

variable {F : FTy → Type} [FloatOps F]

class Facts₀ : Prop where
  bcast_S_S16x3x1024x1024 : S_.BroadcastsInDim S16x3x1024x1024 (![] : Fin 0 → Fin S16x3x1024x1024.rank)
  reducesTo_S16x3x1024x1024_S16x1024x1024_d1 : S16x3x1024x1024.ReducesTo [1] S16x1024x1024
  h_S_ : 0 < S_.numel
  bcast_S16x1024x1024_S16x1x1024x1024_0_2_3 : S16x1024x1024.BroadcastsInDim S16x1x1024x1024 (![0, 2, 3] : Fin 3 → Fin S16x1x1024x1024.rank)
  natLt_1_32 : 1 < 32
  reducesTo_S16x1024x1024_S16_d1_2 : S16x1024x1024.ReducesTo [1, 2] S16
  bcast_S_S16 : S_.BroadcastsInDim S16 (![] : Fin 0 → Fin S16.rank)
  bcast_S16x1x1024x1024_S16x3x1024x1024_0_1_2_3 : S16x1x1024x1024.BroadcastsInDim S16x3x1024x1024 (![0, 1, 2, 3] : Fin 4 → Fin S16x3x1024x1024.rank)
  reducesTo_S16x3x1024x1024_S16_d1_2_3 : S16x3x1024x1024.ReducesTo [1, 2, 3] S16
  reducesTo_S16x3x1024x1024_S16x3_d2_3 : S16x3x1024x1024.ReducesTo [2, 3] S16x3
  bcast_S16_S16x1_0 : S16.BroadcastsInDim S16x1 (![0] : Fin 1 → Fin S16x1.rank)
  bcast_S16x1_S16x3_0_1 : S16x1.BroadcastsInDim S16x3 (![0, 1] : Fin 2 → Fin S16x3.rank)
  reducesTo_S16x3_S16_d1 : S16x3.ReducesTo [1] S16
  reducesTo_S16_S_d0 : S16.ReducesTo [0] S_

variable [Facts₀]

class Facts : Prop extends Facts₀ where

variable [Facts]
-- ==== Proof.KKit.lean ====
/- The frame of the kernel program, first module: what the three runs of the body and the frame proper
   share — the program as its region followed by nine stretches of host lines, the side conditions of those lines,
   the windows' blocks, the body's two branch conditions decided over the 64-point grid, where the output window is
   idle, and the memrefs the body runs on. -/
import proofs.«145242_j47090021433737_1_alg».proof.Proof.Gen.Kernel.Launch
import proofs.«145242_j47090021433737_1_alg».proof.Proof.Gen.Kernel.Skeleton
import proofs.«145242_j47090021433737_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of long extents: the structural look recurses once per coordinate of the long axes
set_option maxRecDepth 16384

noncomputable section

namespace Cert.Kernel.Hand

open Cert.Kernel
open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The program around its one region -/

/-- What core `c`'s device buffers hold when the region is entered, as a valuation: the memory the program starts
    from (no host line comes before the region). -/
abbrev V0 (c : Dev nD) : Valuation τ sig (Elt F) := StableHlo.after (List.flatten []) (fun b => m (c, b))
/-- The same, read at one reference. -/
abbrev V (c : Dev nD) (b : Ref sig .tc) : Buf (Elt F) ((c : Thread nD τ).loc b) := V0 m c (Proc.devRef .tc b)

/-! Each of the nine stretches of host lines after the region allocates nothing: every line writes the one buffer of
    its own result. -/
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor

set_option maxHeartbeats 4000000 in
/-- The program is the region followed by the nine stretches: run from the start it comes to the region with the
    memory untouched, and what is left is the stretches in order. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3, StableHlo.seq hostOps1_4, StableHlo.seq hostOps1_5, StableHlo.seq hostOps1_6, StableHlo.seq hostOps1_7, StableHlo.seq hostOps1_8]) :=
  Pipeline.hmain_around cfgs 0 defs₀ 𝒱₀ m main [] [hostOps1, hostOps1_1, hostOps1_2, hostOps1_3, hostOps1_4, hostOps1_5, hostOps1_6, hostOps1_7, hostOps1_8] (by simp only [List.Forall])
    (by simp only [List.Forall]) main_chain

/-! No line after the region writes one of the three arrays the region's windows stage (the two inputs and the
    region's result): each writes a buffer of its own, a different reference. -/
theorem hostOps1_keeps : (hostOps1 : List (HloOp τ sig (Elt F))).Forall fun op =>
    ∀ w, Proc.devRef .tc (Pipeline.arrRef spec0 w) ∉ op.writes := by
  simp only [List.Forall]
  repeat' apply And.intro
  all_goals (intro w; fin_cases w <;> simp only [StableHlo.nullary_writes, StableHlo.unary_writes, StableHlo.binary_writes, StableHlo.ternary_writes, StableHlo.reshape_writes, Finset.mem_singleton] <;> exact StableHlo.devRef_ne_of_ne (by decide))
theorem hostOps1_1_keeps : (hostOps1_1 : List (HloOp τ sig (Elt F))).Forall fun op =>
    ∀ w, Proc.devRef .tc (Pipeline.arrRef spec0 w) ∉ op.writes := by
  simp only [List.Forall]
  repeat' apply And.intro
  all_goals (intro w; fin_cases w <;> simp only [StableHlo.nullary_writes, StableHlo.unary_writes, StableHlo.binary_writes, StableHlo.ternary_writes, StableHlo.reshape_writes, Finset.mem_singleton] <;> exact StableHlo.devRef_ne_of_ne (by decide))
theorem hostOps1_2_keeps : (hostOps1_2 : List (HloOp τ sig (Elt F))).Forall fun op =>
    ∀ w, Proc.devRef .tc (Pipeline.arrRef spec0 w) ∉ op.writes := by
  simp only [List.Forall]
  repeat' apply And.intro
  all_goals (intro w; fin_cases w <;> simp only [StableHlo.nullary_writes, StableHlo.unary_writes, StableHlo.binary_writes, StableHlo.ternary_writes, StableHlo.reshape_writes, Finset.mem_singleton] <;> exact StableHlo.devRef_ne_of_ne (by decide))
theorem hostOps1_3_keeps : (hostOps1_3 : List (HloOp τ sig (Elt F))).Forall fun op =>
    ∀ w, Proc.devRef .tc (Pipeline.arrRef spec0 w) ∉ op.writes := by
  simp only [List.Forall]
  repeat' apply And.intro
  all_goals (intro w; fin_cases w <;> simp only [StableHlo.nullary_writes, StableHlo.unary_writes, StableHlo.binary_writes, StableHlo.ternary_writes, StableHlo.reshape_writes, Finset.mem_singleton] <;> exact StableHlo.devRef_ne_of_ne (by decide))
theorem hostOps1_4_keeps : (hostOps1_4 : List (HloOp τ sig (Elt F))).Forall fun op =>
    ∀ w, Proc.devRef .tc (Pipeline.arrRef spec0 w) ∉ op.writes := by
  simp only [List.Forall]
  repeat' apply And.intro
  all_goals (intro w; fin_cases w <;> simp only [StableHlo.nullary_writes, StableHlo.unary_writes, StableHlo.binary_writes, StableHlo.ternary_writes, StableHlo.reshape_writes, Finset.mem_singleton] <;> exact StableHlo.devRef_ne_of_ne (by decide))
theorem hostOps1_5_keeps : (hostOps1_5 : List (HloOp τ sig (Elt F))).Forall fun op =>
    ∀ w, Proc.devRef .tc (Pipeline.arrRef spec0 w) ∉ op.writes := by
  simp only [List.Forall]
  repeat' apply And.intro
  all_goals (intro w; fin_cases w <;> simp only [StableHlo.nullary_writes, StableHlo.unary_writes, StableHlo.binary_writes, StableHlo.ternary_writes, StableHlo.reshape_writes, Finset.mem_singleton] <;> exact StableHlo.devRef_ne_of_ne (by decide))
theorem hostOps1_6_keeps : (hostOps1_6 : List (HloOp τ sig (Elt F))).Forall fun op =>
    ∀ w, Proc.devRef .tc (Pipeline.arrRef spec0 w) ∉ op.writes := by
  simp only [List.Forall]
  repeat' apply And.intro
  all_goals (intro w; fin_cases w <;> simp only [StableHlo.nullary_writes, StableHlo.unary_writes, StableHlo.binary_writes, StableHlo.ternary_writes, StableHlo.reshape_writes, Finset.mem_singleton] <;> exact StableHlo.devRef_ne_of_ne (by decide))
theorem hostOps1_7_keeps : (hostOps1_7 : List (HloOp τ sig (Elt F))).Forall fun op =>
    ∀ w, Proc.devRef .tc (Pipeline.arrRef spec0 w) ∉ op.writes := by
  simp only [List.Forall]
  repeat' apply And.intro
  all_goals (intro w; fin_cases w <;> simp only [StableHlo.nullary_writes, StableHlo.unary_writes, StableHlo.binary_writes, StableHlo.ternary_writes, StableHlo.reshape_writes, Finset.mem_singleton] <;> exact StableHlo.devRef_ne_of_ne (by decide))
theorem hostOps1_8_keeps : (hostOps1_8 : List (HloOp τ sig (Elt F))).Forall fun op =>
    ∀ w, Proc.devRef .tc (Pipeline.arrRef spec0 w) ∉ op.writes := by
  simp only [List.Forall]
  repeat' apply And.intro
  all_goals (intro w; fin_cases w <;> simp only [StableHlo.nullary_writes, StableHlo.unary_writes, StableHlo.binary_writes, StableHlo.ternary_writes, StableHlo.reshape_writes, Finset.mem_singleton] <;> exact StableHlo.devRef_ne_of_ne (by decide))

/-- The lines after the region touch only unscoped device buffers: the windows' arrays and the buffers that pass
    the region by (with nothing prefetched these two kinds are all of them). -/
theorem sfx_sub : ∀ ops ∈ ([hostOps1, hostOps1_1, hostOps1_2, hostOps1_3, hostOps1_4, hostOps1_5, hostOps1_6, hostOps1_7, hostOps1_8] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
/-- They allocate nothing. -/
theorem sfx_fresh : ∀ ops ∈ ([hostOps1, hostOps1_1, hostOps1_2, hostOps1_3, hostOps1_4, hostOps1_5, hostOps1_6, hostOps1_7, hostOps1_8] : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
/-- And they write none of the windows' arrays. -/
theorem sfx_keeps : ∀ ops ∈ ([hostOps1, hostOps1_1, hostOps1_2, hostOps1_3, hostOps1_4, hostOps1_5, hostOps1_6, hostOps1_7, hostOps1_8] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop
  · exact (List.forall_iff_forall_mem.mp hostOps1_6_keeps) op hop
  · exact (List.forall_iff_forall_mem.mp hostOps1_7_keeps) op hop
  · exact (List.forall_iff_forall_mem.mp hostOps1_8_keeps) op hop

theorem V_main_arg0 (c : Dev nD) : V m c main_arg0 = m ((c : Thread nD τ).loc main_arg0) := rfl
theorem V_main_arg1 (c : Dev nD) : V m c main_arg1 = m ((c : Thread nD τ).loc main_arg1) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first input's staging buffer holds its block at every point, for any proof data whose array is the
    region-entry contents and whose body leaves the block in place: the window is whole, fetched anew at each point
    and never idle, so what is staged before the body is what was fetched. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the second input. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a frame run -/

/-- For any proof data whose arrays are the region-entry contents, a run that ends in the frame post — read at the two
    argument arrays, each a staged input whose array the run leaves as it found it — ends with both arguments holding
    what they held at the start. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1, hostOps1_1, hostOps1_2, hostOps1_3, hostOps1_4, hostOps1_5, hostOps1_6, hostOps1_7, hostOps1_8]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans (((dats 0 c).arrAt_in 0 rfl _).trans ((hA c 0).trans (V_main_arg0 m c))),
     ((h c).1 1).trans (((dats 0 c).arrAt_in 1 rfl _).trans ((hA c 1).trans (V_main_arg1 m c)))⟩) h

/-! ## The body's two branch conditions -/

/-- The first branch (reset the accumulator row) is taken when the second grid coordinate is 0: the comparison chain
    the body computes, over the coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- The second branch (copy the accumulator row out) is taken when the second grid coordinate is 3. -/
abbrev cond0_1 (i : grid0.Coords) : Prop := k0_cond2 i = 1#1
/-- It holds at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

/-- The two inputs are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- Where the first branch is taken and the second is not, the output window is idle (nothing is stored into it), -/
theorem idleAt0_2_A : ∀ t : Fin cfg0.N, cond0_0 (grid0.coords t) → ¬cond0_1 (grid0.coords t) → cfg0.idle 2 (grid0.coords t) = true := by decide +kernel
/-- and its block is not written back. -/
theorem noFlush0_2_A : ∀ t : Fin cfg0.N, cond0_0 (grid0.coords t) → ¬cond0_1 (grid0.coords t) → (cfg0.win 2).flush t = false := by decide +kernel
/-- Where neither branch is taken, the output window is idle, -/
theorem idleAt0_2_B : ∀ t : Fin cfg0.N, ¬cond0_0 (grid0.coords t) → ¬cond0_1 (grid0.coords t) → cfg0.idle 2 (grid0.coords t) = true := by decide +kernel
/-- and its block is not written back. -/
theorem noFlush0_2_B : ∀ t : Fin cfg0.N, ¬cond0_0 (grid0.coords t) → ¬cond0_1 (grid0.coords t) → (cfg0.win 2).flush t = false := by decide +kernel
/-- Where the second branch is taken (and the first is not), the output window is live: the body stores into it. -/
theorem liveAt0_2_C : ∀ t : Fin cfg0.N, ¬cond0_0 (grid0.coords t) → cond0_1 (grid0.coords t) → cfg0.idle 2 (grid0.coords t) = false := by decide +kernel

/-! ## The memrefs the body runs on -/

/-- One staging buffer of the output window, through which its contents are stated (which one does not matter: a
    whole buffer read back after whole writes). -/
abbrev VO0_2 : View sig .tc .vmem S1x1x128 .f32 := (Memref.whole cc0_stg2_0 : Memref sig .tc .vmem S1x1x128 .f32).view
/-- Each window's current staging memref at point `t`, as the pipeline passes it to the body, and its wholeness. -/
abbrev ms0_0 (t : Fin cfg0.N) : Memref sig .tc .vmem S1x3x256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x3x256x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x128 .f32 := win0_2.stage (cfg0.slots t 2)
abbrev hs0_2 (t : Fin cfg0.N) : (ms0_2 t).IsWhole := hstage0_2 ((cfg0.slots t 2).cast nbuf0_2)
/-- The accumulator row: a whole scoped buffer of the kernel's own, passed beside the windows. -/
abbrev scM0_0 : Memref sig .tc .vmem S1x128 .f32 := Memref.whole cc0_scratch0
/-- The accumulator row as a view: what it holds between points is stated through it. -/
abbrev VS0_0 : View sig .tc .vmem S1x128 .f32 := scM0_0.view

/-- The invariant the frame carries beside the windows: the accumulator row owned whole at some contents, and the
    core's random-number register at some value. What the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Hand

end
-- ==== Proof.KRunA.lean ====
/- The frame of the kernel program: the whole body run at the points where the accumulator row is reset and nothing is copied out (the first H-tile of a sample). -/
import proofs.«145242_j47090021433737_1_alg».proof.Proof.KKit

-- membership in a rectangle of long extents: the structural look recurses once per coordinate of the long axes
set_option maxRecDepth 16384

noncomputable section

namespace Cert.Kernel.Hand

open Cert.Kernel
open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 1000000 in
/-- The body's triple where the first branch is taken and the second is not (the points ≡ 0 mod 4). On whole memrefs —
    the two inputs at their contents, the output window's at contents `xi2`, the accumulator row at ANY contents — the
    body runs to a continuation that is handed the inputs as they were, the output window's buffer untouched at `xi2`
    (no store reaches it: `L2 = []`) and the accumulator row with the pieces `LS0` written: first zeros over the
    whole row, then the zero row plus the tile's ten packed numbers. The pieces are the witness the run finds. -/
noncomputable def kernelRun0_A (c : Dev nD) (i : grid0.Coords) (arg2 : Memref sig .tc .vmem S1x3x256x1024 .f32) (harg2 : arg2.IsWhole) (arg3 : Memref sig .tc .vmem S1x3x256x1024 .f32) (harg3 : arg3.IsWhole) (arg4 : Memref sig .tc .vmem S1x1x128 .f32) (harg4 : arg4.IsWhole) (arg5 : Memref sig .tc .vmem S1x128 .f32) (harg5 : arg5.IsWhole) (hc0 : cond0_0 i) (hc1 : ¬cond0_1 i)
    (x0 x1 : Vec F S1x3x256x1024 .f32) :
    Σ' (L2 : List (View.Piece (Elt F) S1x1x128 .f32)), { LS0 : List (View.Piece (Elt F) S1x128 .f32) //
      ∀ (xi2 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__stats_kernel i arg2 harg2 arg3 harg3 arg4 harg4 arg5 harg5) K } := by
  refine ⟨[], ?_, fun xi2 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.KRunB.lean ====
/- The frame of the kernel program: the whole body run at the points where the accumulator row is neither reset nor copied out (the two middle H-tiles of a sample). -/
import proofs.«145242_j47090021433737_1_alg».proof.Proof.KRunA

-- membership in a rectangle of long extents: the structural look recurses once per coordinate of the long axes
set_option maxRecDepth 16384

noncomputable section

namespace Cert.Kernel.Hand

open Cert.Kernel
open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 1000000 in
/-- The body's triple where neither branch is taken (the points ≡ 1, 2 mod 4). On whole memrefs — the two inputs at
    their contents, the output window's at contents `xi2`, the accumulator row at `xs0`, what the point before left —
    the body runs to a continuation that is handed the inputs as they were, the output window's buffer untouched at
    `xi2` (no store reaches it: `L2 = []`) and the accumulator row with the one piece `LS0` written: `xs0` plus the
    tile's ten packed numbers. The pieces are the witness the run finds. -/
noncomputable def kernelRun0_B (c : Dev nD) (i : grid0.Coords) (arg2 : Memref sig .tc .vmem S1x3x256x1024 .f32) (harg2 : arg2.IsWhole) (arg3 : Memref sig .tc .vmem S1x3x256x1024 .f32) (harg3 : arg3.IsWhole) (arg4 : Memref sig .tc .vmem S1x1x128 .f32) (harg4 : arg4.IsWhole) (arg5 : Memref sig .tc .vmem S1x128 .f32) (harg5 : arg5.IsWhole) (hc0 : ¬cond0_0 i) (hc1 : ¬cond0_1 i)
    (x0 x1 : Vec F S1x3x256x1024 .f32) (xs0 : Vec F S1x128 .f32) :
    Σ' (L2 : List (View.Piece (Elt F) S1x1x128 .f32)), { LS0 : List (View.Piece (Elt F) S1x128 .f32) //
      ∀ (xi2 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__stats_kernel i arg2 harg2 arg3 harg3 arg4 harg4 arg5 harg5) K } := by
  refine ⟨[], ?_, fun xi2 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.KRunC.lean ====
/- The frame of the kernel program: the whole body run at the points where the accumulator row is copied out into the output block (the last H-tile of a sample). -/
import proofs.«145242_j47090021433737_1_alg».proof.Proof.KRunB

-- membership in a rectangle of long extents: the structural look recurses once per coordinate of the long axes
set_option maxRecDepth 16384

noncomputable section

namespace Cert.Kernel.Hand

open Cert.Kernel
open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 1000000 in
/-- The body's triple where the second branch is taken and the first is not (the points ≡ 3 mod 4). On whole memrefs —
    the two inputs at their contents, the output window's at ANY contents, the accumulator row at `xs0`, what the
    point before left — the body runs to a continuation that is handed the inputs as they were, the accumulator row
    with the one piece `LS0` written (`xs0` plus the tile's ten packed numbers) and the output window's buffer with
    the piece `L2` written: that sum, reshaped to the block. The pieces are the witness the run finds. -/
noncomputable def kernelRun0_C (c : Dev nD) (i : grid0.Coords) (arg2 : Memref sig .tc .vmem S1x3x256x1024 .f32) (harg2 : arg2.IsWhole) (arg3 : Memref sig .tc .vmem S1x3x256x1024 .f32) (harg3 : arg3.IsWhole) (arg4 : Memref sig .tc .vmem S1x1x128 .f32) (harg4 : arg4.IsWhole) (arg5 : Memref sig .tc .vmem S1x128 .f32) (harg5 : arg5.IsWhole) (hc0 : ¬cond0_0 i) (hc1 : cond0_1 i)
    (x0 x1 : Vec F S1x3x256x1024 .f32) (xs0 : Vec F S1x128 .f32) :
    Σ' (L2 : List (View.Piece (Elt F) S1x1x128 .f32)), { LS0 : List (View.Piece (Elt F) S1x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__stats_kernel i arg2 harg2 arg3 harg3 arg4 harg4 arg5 harg5) K } := by
  refine ⟨?_, ?_, fun E K => ?run⟩
  case run =>
    simp only [cc0__stats_kernel_eq_skeleton]; unfold cc0__stats_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.KFrame.lean ====
/- The frame of the program: what the output block and the carried accumulator row hold
   after every grid point, the proof data of the one pipeline, the body's obligation at a generic point (three
   kinds of point: the first tile of a sample, a middle tile, the last tile of a sample), the run of the whole
   program and the frame claim at any float instance. -/
import proofs.«145242_j47090021433737_1_alg».proof.Proof.KRunC

set_option maxRecDepth 16384

noncomputable section

namespace Cert.Kernel.Hand

open Cert.Kernel
open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## A buffer filled piece by piece

If the pieces written into a memref cover its whole shape, then what is read through it afterwards is a function
of the pieces alone: neither the earlier contents nor the view through which one reads matter. -/

/-- A memref whose elements hold some earlier contents overwritten by the pieces `L`, the pieces covering the
    shape, is owned at the closed form "the pieces read back over arbitrary contents through the view `V'`". -/
theorem owns_of_pieces {s : Shape} (c : Dev nD) (M : Memref sig .tc .vmem s .f32) (V' : View sig .tc .vmem s .f32)
    (L : List (View.Piece (Elt F) s .f32)) (hL : ∀ y : s.Idx, ∃ pc ∈ L, y ∈ pc.1.set) :
    (iprop(∃ f, M.view.loc (c : Thread nD τ) ↦[M.view.set]{fullShare} M.view.writes (Elt F) f L) : sProp 𝕄)
      ⊢ owns (c : Thread nD τ) M fullShare (V'.read (Elt F) (V'.writes (Elt F) V'.junk L)) := by
  iintro ⟨%f, H⟩
  unfold owns; iexists _; isplitr
  swap; · iexact H
  ipureintro; exact View.read_writes_of_cover _ _ _ _ _ hL

/-! ## What each kind of point leaves in the output block and in the accumulator row -/

/-- At the first tile of a sample nothing is stored into the output block (the block is idle there and is not written
    back): the empty list of pieces read back, a value nobody looks at. -/
def out0_A_2 (c : Dev nD) (i : grid0.Coords) (arg2 : Memref sig .tc .vmem S1x3x256x1024 .f32) (harg2 : arg2.IsWhole) (arg3 : Memref sig .tc .vmem S1x3x256x1024 .f32) (harg3 : arg3.IsWhole) (arg4 : Memref sig .tc .vmem S1x1x128 .f32) (harg4 : arg4.IsWhole) (arg5 : Memref sig .tc .vmem S1x128 .f32) (harg5 : arg5.IsWhole) (hc0 : cond0_0 i) (hc1 : ¬cond0_1 i)
    (x0 x1 : Vec F S1x3x256x1024 .f32) : Vec F S1x1x128 .f32 :=
  VO0_2.read (Elt F) (VO0_2.writes (Elt F) VO0_2.junk (kernelRun0_A c i arg2 harg2 arg3 harg3 arg4 harg4 arg5 harg5 hc0 hc1 x0 x1).1)

/-- At the first tile of a sample the accumulator row is first set to zero and then has the tile's row of ten sums added:
    the stores tile the whole row. -/
theorem scover0_A_0 (c : Dev nD) (i : grid0.Coords) (arg2 : Memref sig .tc .vmem S1x3x256x1024 .f32) (harg2 : arg2.IsWhole) (arg3 : Memref sig .tc .vmem S1x3x256x1024 .f32) (harg3 : arg3.IsWhole) (arg4 : Memref sig .tc .vmem S1x1x128 .f32) (harg4 : arg4.IsWhole) (arg5 : Memref sig .tc .vmem S1x128 .f32) (harg5 : arg5.IsWhole) (hc0 : cond0_0 i) (hc1 : ¬cond0_1 i)
    (x0 x1 : Vec F S1x3x256x1024 .f32) (y : S1x128.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S1x128.size (by sl_kernel_rfl) y

/-- The accumulator row after the first tile of a sample: zero plus the tile's row, read back from the stores. It does
    not depend on what the row held before. -/
def sout0_A_0 (c : Dev nD) (i : grid0.Coords) (arg2 : Memref sig .tc .vmem S1x3x256x1024 .f32) (harg2 : arg2.IsWhole) (arg3 : Memref sig .tc .vmem S1x3x256x1024 .f32) (harg3 : arg3.IsWhole) (arg4 : Memref sig .tc .vmem S1x1x128 .f32) (harg4 : arg4.IsWhole) (arg5 : Memref sig .tc .vmem S1x128 .f32) (harg5 : arg5.IsWhole) (hc0 : cond0_0 i) (hc1 : ¬cond0_1 i)
    (x0 x1 : Vec F S1x3x256x1024 .f32) : Vec F S1x128 .f32 :=
  VS0_0.read (Elt F) (VS0_0.writes (Elt F) VS0_0.junk (kernelRun0_A c i arg2 harg2 arg3 harg3 arg4 harg4 arg5 harg5 hc0 hc1 x0 x1).2.1)

/-- At a middle tile nothing is stored into the output block either. -/
def out0_B_2 (c : Dev nD) (i : grid0.Coords) (arg2 : Memref sig .tc .vmem S1x3x256x1024 .f32) (harg2 : arg2.IsWhole) (arg3 : Memref sig .tc .vmem S1x3x256x1024 .f32) (harg3 : arg3.IsWhole) (arg4 : Memref sig .tc .vmem S1x1x128 .f32) (harg4 : arg4.IsWhole) (arg5 : Memref sig .tc .vmem S1x128 .f32) (harg5 : arg5.IsWhole) (hc0 : ¬cond0_0 i) (hc1 : ¬cond0_1 i)
    (x0 x1 : Vec F S1x3x256x1024 .f32) (xs0 : Vec F S1x128 .f32) : Vec F S1x1x128 .f32 :=
  VO0_2.read (Elt F) (VO0_2.writes (Elt F) VO0_2.junk (kernelRun0_B c i arg2 harg2 arg3 harg3 arg4 harg4 arg5 harg5 hc0 hc1 x0 x1 xs0).1)

/-- At a middle tile the accumulator row is stored once, whole: the old row plus the tile's row. -/
theorem scover0_B_0 (c : Dev nD) (i : grid0.Coords) (arg2 : Memref sig .tc .vmem S1x3x256x1024 .f32) (harg2 : arg2.IsWhole) (arg3 : Memref sig .tc .vmem S1x3x256x1024 .f32) (harg3 : arg3.IsWhole) (arg4 : Memref sig .tc .vmem S1x1x128 .f32) (harg4 : arg4.IsWhole) (arg5 : Memref sig .tc .vmem S1x128 .f32) (harg5 : arg5.IsWhole) (hc0 : ¬cond0_0 i) (hc1 : ¬cond0_1 i)
    (x0 x1 : Vec F S1x3x256x1024 .f32) (xs0 : Vec F S1x128 .f32) (y : S1x128.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S1x128.size (by sl_kernel_rfl) y

/-- The accumulator row after a middle tile, over the row `xs0` the tile before left. -/
def sout0_B_0 (c : Dev nD) (i : grid0.Coords) (arg2 : Memref sig .tc .vmem S1x3x256x1024 .f32) (harg2 : arg2.IsWhole) (arg3 : Memref sig .tc .vmem S1x3x256x1024 .f32) (harg3 : arg3.IsWhole) (arg4 : Memref sig .tc .vmem S1x1x128 .f32) (harg4 : arg4.IsWhole) (arg5 : Memref sig .tc .vmem S1x128 .f32) (harg5 : arg5.IsWhole) (hc0 : ¬cond0_0 i) (hc1 : ¬cond0_1 i)
    (x0 x1 : Vec F S1x3x256x1024 .f32) (xs0 : Vec F S1x128 .f32) : Vec F S1x128 .f32 :=
  VS0_0.read (Elt F) (VS0_0.writes (Elt F) VS0_0.junk (kernelRun0_B c i arg2 harg2 arg3 harg3 arg4 harg4 arg5 harg5 hc0 hc1 x0 x1 xs0).2.1)

/-- At the last tile of a sample the accumulator row is copied into the output block by one store of the whole block. -/
theorem cover0_C_2 (c : Dev nD) (i : grid0.Coords) (arg2 : Memref sig .tc .vmem S1x3x256x1024 .f32) (harg2 : arg2.IsWhole) (arg3 : Memref sig .tc .vmem S1x3x256x1024 .f32) (harg3 : arg3.IsWhole) (arg4 : Memref sig .tc .vmem S1x1x128 .f32) (harg4 : arg4.IsWhole) (arg5 : Memref sig .tc .vmem S1x128 .f32) (harg5 : arg5.IsWhole) (hc0 : ¬cond0_0 i) (hc1 : cond0_1 i)
    (x0 x1 : Vec F S1x3x256x1024 .f32) (xs0 : Vec F S1x128 .f32) (y : S1x1x128.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1x1x128.size (by sl_kernel_rfl) y

/-- The output block after the last tile of a sample: the sample's finished row of ten sums. -/
def out0_C_2 (c : Dev nD) (i : grid0.Coords) (arg2 : Memref sig .tc .vmem S1x3x256x1024 .f32) (harg2 : arg2.IsWhole) (arg3 : Memref sig .tc .vmem S1x3x256x1024 .f32) (harg3 : arg3.IsWhole) (arg4 : Memref sig .tc .vmem S1x1x128 .f32) (harg4 : arg4.IsWhole) (arg5 : Memref sig .tc .vmem S1x128 .f32) (harg5 : arg5.IsWhole) (hc0 : ¬cond0_0 i) (hc1 : cond0_1 i)
    (x0 x1 : Vec F S1x3x256x1024 .f32) (xs0 : Vec F S1x128 .f32) : Vec F S1x1x128 .f32 :=
  VO0_2.read (Elt F) (VO0_2.writes (Elt F) VO0_2.junk (kernelRun0_C c i arg2 harg2 arg3 harg3 arg4 harg4 arg5 harg5 hc0 hc1 x0 x1 xs0).1)

/-- At the last tile of a sample the accumulator row is again stored once, whole. -/
theorem scover0_C_0 (c : Dev nD) (i : grid0.Coords) (arg2 : Memref sig .tc .vmem S1x3x256x1024 .f32) (harg2 : arg2.IsWhole) (arg3 : Memref sig .tc .vmem S1x3x256x1024 .f32) (harg3 : arg3.IsWhole) (arg4 : Memref sig .tc .vmem S1x1x128 .f32) (harg4 : arg4.IsWhole) (arg5 : Memref sig .tc .vmem S1x128 .f32) (harg5 : arg5.IsWhole) (hc0 : ¬cond0_0 i) (hc1 : cond0_1 i)
    (x0 x1 : Vec F S1x3x256x1024 .f32) (xs0 : Vec F S1x128 .f32) (y : S1x128.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S1x128.size (by sl_kernel_rfl) y

/-- The accumulator row after the last tile of a sample, over the row `xs0` the tile before left. -/
def sout0_C_0 (c : Dev nD) (i : grid0.Coords) (arg2 : Memref sig .tc .vmem S1x3x256x1024 .f32) (harg2 : arg2.IsWhole) (arg3 : Memref sig .tc .vmem S1x3x256x1024 .f32) (harg3 : arg3.IsWhole) (arg4 : Memref sig .tc .vmem S1x1x128 .f32) (harg4 : arg4.IsWhole) (arg5 : Memref sig .tc .vmem S1x128 .f32) (harg5 : arg5.IsWhole) (hc0 : ¬cond0_0 i) (hc1 : cond0_1 i)
    (x0 x1 : Vec F S1x3x256x1024 .f32) (xs0 : Vec F S1x128 .f32) : Vec F S1x128 .f32 :=
  VS0_0.read (Elt F) (VS0_0.writes (Elt F) VS0_0.junk (kernelRun0_C c i arg2 harg2 arg3 harg3 arg4 harg4 arg5 harg5 hc0 hc1 x0 x1 xs0).2.1)

/-! ## Point by point -/

/-- THE ACCUMULATION. What the output block's current buffer (first component) and the accumulator row (second component)
    hold after the body at position `n` of the grid, `n = 4 b + h` (sample `b`, tile `h`): at `h = 0` the row starts afresh from
    the tile's own sums; at `h = 1, 2` the tile's sums are added to the row the tile before left; at `h = 3` likewise, and
    the finished row is the output block. Only at `h = 3` is the first component consulted. -/
def outsAt0 (c : Dev nD) : (n : ℕ) → n < cfg0.N → Vec F S1x1x128 .f32 × Vec F S1x128 .f32
  | 0, hn =>
    (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h3 => by (try dsimp only at h3); omega) ((hcond0_1 ⟨0, hn⟩).mp h)) (iblk m c 0 ⟨0, hn⟩) (iblk m c 1 ⟨0, hn⟩),
     sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h3 => by (try dsimp only at h3); omega) ((hcond0_1 ⟨0, hn⟩).mp h)) (iblk m c 0 ⟨0, hn⟩) (iblk m c 1 ⟨0, hn⟩))
  | n + 1, hn =>
    if h0 : (n + 1) % 4 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => absurd ((hcond0_1 ⟨n + 1, hn⟩).mp h) (fun h3 => by (try dsimp only at h3); omega)) (iblk m c 0 ⟨n + 1, hn⟩) (iblk m c 1 ⟨n + 1, hn⟩),
       sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => absurd ((hcond0_1 ⟨n + 1, hn⟩).mp h) (fun h3 => by (try dsimp only at h3); omega)) (iblk m c 0 ⟨n + 1, hn⟩) (iblk m c 1 ⟨n + 1, hn⟩))
    else if h1 : (n + 1) % 4 = 3 then
      (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2,
       sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2)
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2,
       sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2)

/-- At the first tile of a sample. -/
theorem outsAt0_A (c : Dev nD) (t : Fin cfg0.N) (h0 : t.val % 4 = 0) (h1 : ¬t.val % 4 = 3) :
    outsAt0 m c t.val t.isLt
      = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t),
         sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans rfl

/-- At a middle tile: over the row the tile before left. -/
theorem outsAt0_B (c : Dev nD) (t : Fin cfg0.N) (h0 : ¬t.val % 4 = 0) (h1 : ¬t.val % 4 = 3) :
    outsAt0 m c t.val t.isLt
      = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2,
         sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

/-- At the last tile of a sample: over the row the tile before left. -/
theorem outsAt0_C (c : Dev nD) (t : Fin cfg0.N) (h0 : ¬t.val % 4 = 0) (h1 : t.val % 4 = 3) :
    outsAt0 m c t.val t.isLt
      = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2,
         sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The invariant between points -/

/-- What the core holds beside the windows before position `n`: before the first point the accumulator row at anything
    (and the generator register at some state); before any later point the row at exactly what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

/-- After point `n`: the row at that point's contents. -/
theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

/-- Before a point that is not the first: the row at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-- At every position the invariant yields the row at SOME contents: all a point that resets the row needs, and all the
    region's exit keeps. -/
theorem PhiS_any (c : Dev nD) (n : ℕ) (h : n ≤ cfg0.N) :
    PhiS m c n h ⊢ iprop(iprop((∃ d, owns (c : Thread nD τ) scM0_0 fullShare d)) ∗ (∃ r, prngReg c r)) := by
  cases n with
  | zero =>
    rw [PhiS_zero m c 0 h rfl, PhiA0_eq]
    try exact Idealize.SL.BI.Entails.refl _
  | succ n =>
    rw [PhiS_succ]
    iintro ⟨HS0, Hg⟩
    isplitl [HS0]
    · iexists _; iexact HS0
    iexact Hg

/-! ## The pipeline's proof data -/

/-- The proof data of the pipeline on core `c`: the arrays as the region finds them; after the body at point `t` each
    input's buffer still at its block, the output's at `outsAt0`'s first component; between points `PhiS`; full shares;
    nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q _ := fullShare
  owed _ := 0

/-- The proof data's arrays are the region-entry contents. -/
theorem A_eq (c : Dev nD) (w : Fin cfg0.W) : (dats m 0 c).A w = V m c (Pipeline.arrRef spec0 w) := by
  dsimp only [dats]

/-- The invariant at a point's start, restated at the point's position. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

/-- Each input's current buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- The inputs are never idle: after the body their buffers are at their blocks. -/
theorem leaves0_0 (c : Dev nD) (t : Fin cfg0.N) :
    (dats m 0 c).leavesExact 0 t = owns (c : Thread nD τ) (ms0_0 t) fullShare (iblk m c 0 t) :=
  (show (dats m 0 c).leavesExact 0 t = owns (c : Thread nD τ) (ms0_0 t) fullShare ((dats m 0 c).after 0 t) from by
    unfold Dat.leavesExact; rw [liveAt0_0 t]).trans (by rw [after0_0])
theorem leaves0_1 (c : Dev nD) (t : Fin cfg0.N) :
    (dats m 0 c).leavesExact 1 t = owns (c : Thread nD τ) (ms0_1 t) fullShare (iblk m c 1 t) :=
  (show (dats m 0 c).leavesExact 1 t = owns (c : Thread nD τ) (ms0_1 t) fullShare ((dats m 0 c).after 1 t) from by
    unfold Dat.leavesExact; rw [liveAt0_1 t]).trans (by rw [after0_1])

/-- The output block is idle at the first tile of a sample: its buffer is handed back as it was found. -/
theorem leaves0_2_A (c : Dev nD) (t : Fin cfg0.N) (h0 : t.val % 4 = 0) (h1 : ¬t.val % 4 = 3) :
    (dats m 0 c).leavesExact 2 t = iprop(∃ d, owns (c : Thread nD τ) (ms0_2 t) fullShare ((dats m 0 c).before 2 t d)) :=
  Dat.leavesExact_idle (dats m 0 c) 2 t (idleAt0_2_A t ((hcond0_0 t).mpr h0) (fun h => h1 ((hcond0_1 t).mp h))) (noFlush0_2_A t ((hcond0_0 t).mpr h0) (fun h => h1 ((hcond0_1 t).mp h)))
/-- And at a middle tile. -/
theorem leaves0_2_B (c : Dev nD) (t : Fin cfg0.N) (h0 : ¬t.val % 4 = 0) (h1 : ¬t.val % 4 = 3) :
    (dats m 0 c).leavesExact 2 t = iprop(∃ d, owns (c : Thread nD τ) (ms0_2 t) fullShare ((dats m 0 c).before 2 t d)) :=
  Dat.leavesExact_idle (dats m 0 c) 2 t (idleAt0_2_B t (fun h => h0 ((hcond0_0 t).mp h)) (fun h => h1 ((hcond0_1 t).mp h))) (noFlush0_2_B t (fun h => h0 ((hcond0_0 t).mp h)) (fun h => h1 ((hcond0_1 t).mp h)))
/-- At the last tile of a sample it is live: its buffer is at the finished row. -/
theorem leaves0_2_C (c : Dev nD) (t : Fin cfg0.N) (h0 : ¬t.val % 4 = 0) (h1 : t.val % 4 = 3) :
    (dats m 0 c).leavesExact 2 t = owns (c : Thread nD τ) (ms0_2 t) fullShare ((outsAt0 m c t.val t.isLt).1) :=
  (show (dats m 0 c).leavesExact 2 t = owns (c : Thread nD τ) (ms0_2 t) fullShare ((dats m 0 c).after 2 t) from by
    unfold Dat.leavesExact; rw [liveAt0_2_C t (fun h => h0 ((hcond0_0 t).mp h)) ((hcond0_1 t).mpr h1)]).trans (by rw [after0_2])

/-! ## The body obligation, at a generic point -/

/-- What the body is called with at point `t`: the invariant, the tallies, and the three windows' current buffers, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The first tile of a sample. The row is taken at whatever it holds (the body zeroes it before reading it) and handed
    back at zero plus the tile's sums; the output block passes through untouched. -/
theorem sound_body_A (c : Dev nD) (t : Fin cfg0.N) (h0 : t.val % 4 = 0) (h1 : ¬t.val % 4 = 3) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2_A m c t h0 h1]
  rw [outsAt0_A m c t h0 h1]
  unfold sout0_A_0; (try dsimp only)
  rw [PhiS_castSucc m c t]
  iintro ⟨HP, Ho, ⟨%d0, H0⟩, ⟨%d1, H1⟩, ⟨%d2, H2⟩⟩
  ihave HQ := (PhiS_any m c _ _) $$ HP
  icases HQ with ⟨HS0, Hg⟩
  iapply ((kernelRun0_A c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)).2.2 _ Set.univ _)
  isplitl [H0]; · iexact H0
  isplitl [H1]; · iexact H1
  isplitl [H2]; · iexact H2
  isplitl [HS0]; · iexact HS0
  iintro ⟨H0, H1, H2, HS0⟩
  isplitl [HS0 Hg]
  · isplitl [HS0]
    · iapply (owns_of_pieces c _ _ _ (scover0_A_0 c _ _ _ _ _ _ _ _ _ _ _ _ _))
      iexact HS0
    iexact Hg
  isplitl [Ho]; · iexact Ho
  isplitl [H0]; · iexact H0
  isplitl [H1]; · iexact H1
  iexists _; iexact H2

set_option maxHeartbeats 4800000 in
/-- A middle tile. The row comes in at what the tile before left and goes out with this tile's sums added; the output
    block passes through untouched. -/
theorem sound_body_B (c : Dev nD) (t : Fin cfg0.N) (h0 : ¬t.val % 4 = 0) (h1 : ¬t.val % 4 = 3) :
    bodyPre m c t ⊢ wp frame (wpE (defs₀ (F := F)) Variants.none c none) Set.univ (bodyAt0 t) (fun _ => bodyPost m c t) := by
  have hz : t.val ≠ 0 := fun h => h0 (by rw [h])
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2_B m c t h0 h1]
  rw [outsAt0_B m c t h0 h1]
  unfold sout0_B_0; (try dsimp only)
  rw [PhiS_castSucc m c t, PhiS_pos m c _ _ hz]
  iintro ⟨⟨HS0, Hg⟩, Ho, ⟨%d0, H0⟩, ⟨%d1, H1⟩, ⟨%d2, H2⟩⟩
  iapply ((kernelRun0_B c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) _).2.2 _ Set.univ _)
  isplitl [H0]; · iexact H0
  isplitl [H1]; · iexact H1
  isplitl [H2]; · iexact H2
  isplitl [HS0]; · iexact HS0
  iintro ⟨H0, H1, H2, HS0⟩
  isplitl [HS0 Hg]
  · isplitl [HS0]
    · iapply (owns_of_pieces c _ _ _ (scover0_B_0 c _ _ _ _ _ _ _ _ _ _ _ _ _ _))
      iexact HS0
    iexact Hg
  isplitl [Ho]; · iexact Ho
  isplitl [H0]; · iexact H0
  isplitl [H1]; · iexact H1
  iexists _; iexact H2

set_option maxHeartbeats 4800000 in
/-- The last tile of a sample. As a middle tile for the row; the output block, taken at anything, is stored whole and ends
    at the finished row. -/
theorem sound_body_C (c : Dev nD) (t : Fin cfg0.N) (h0 : ¬t.val % 4 = 0) (h1 : t.val % 4 = 3) :
    bodyPre m c t ⊢ wp frame (wpE (defs₀ (F := F)) Variants.none c none) Set.univ (bodyAt0 t) (fun _ => bodyPost m c t) := by
  have hz : t.val ≠ 0 := fun h => h0 (by rw [h])
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2_C m c t h0 h1]
  rw [outsAt0_C m c t h0 h1]
  unfold out0_C_2 sout0_C_0; (try dsimp only)
  rw [PhiS_castSucc m c t, PhiS_pos m c _ _ hz]
  iintro ⟨⟨HS0, Hg⟩, Ho, ⟨%d0, H0⟩, ⟨%d1, H1⟩, ⟨%d2, H2⟩⟩
  iapply ((kernelRun0_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) _).2.2 Set.univ _)
  isplitl [H0]; · iexact H0
  isplitl [H1]; · iexact H1
  isplitl [H2]; · iexists _; iexact H2
  isplitl [HS0]; · iexact HS0
  iintro ⟨H0, H1, H2, HS0⟩
  isplitl [HS0 Hg]
  · isplitl [HS0]
    · iapply (owns_of_pieces c _ _ _ (scover0_C_0 c _ _ _ _ _ _ _ _ _ _ _ _ _ _))
      iexact HS0
    iexact Hg
  isplitl [Ho]; · iexact Ho
  isplitl [H0]; · iexact H0
  isplitl [H1]; · iexact H1
  iapply (owns_of_pieces c _ _ _ (cover0_C_2 c _ _ _ _ _ _ _ _ _ _ _ _ _ _))
  iexact H2

/-- The body at any point: the position modulo four says which kind of point it is (64 points, four tiles a sample). -/
theorem sound_body (c : Dev nD) (t : Fin cfg0.N) :
    bodyPre m c t ⊢ wp frame (wpE (defs₀ (F := F)) Variants.none c none) Set.univ (bodyAt0 t) (fun _ => bodyPost m c t) := by
  have hN : t.val < 64 := lt_of_lt_of_eq t.isLt (show cfg0.N = 64 from N_0)
  by_cases h0 : t.val % 4 = 0
  · exact sound_body_A m c t h0 (by omega)
  · by_cases h1 : t.val % 4 = 3
    · exact sound_body_C m c t h0 h1
    · exact sound_body_B m c t h0 h1

/-- The library's body obligation, at every point: its two conjunctions over the windows, written out. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the launch's form back: the row's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiA0_eq]
  exact PhiS_any m c _ _

/-- The same after the last point. -/
theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option maxHeartbeats 4000000 in
set_option backward.isDefEq.respectTransparency.types false in
/-- At the compiled mesh, for any values, from any memory with zero counters: every weakly fair execution of the program on
    the TensorCores terminates, and in every final state each array of the pipeline holds what the proof data say and
    every other unscoped buffer what the 82 host operations after the region leave in it. -/
theorem run_main : θ_run defs (onTc (τ := τ) (main (F := F))) (s₀ m ρ) (Pipeline.FramePost cfgs (dats m) 0 (Pipeline.afterTail₀ cfgs (dats m) 0 (V0 m) [hostOps1, hostOps1_1, hostOps1_2, hostOps1_3, hostOps1_4, hostOps1_5, hostOps1_6, hostOps1_7, hostOps1_8])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3, hostOps1_4, hostOps1_5, hostOps1_6, hostOps1_7, hostOps1_8])
    (hsub := sfx_sub) (hfresh := sfx_fresh) (hkeep := sfx_keeps)
    (hmain := hmain m Variants.none) (hA := A_eq m) (hin := hin m) (hout := hout m)

/-- THE FRAME: from any memory with zero counters every weakly fair execution terminates with both argument arrays
    (prediction and target) unchanged on every core. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hand

end
-- ==== Proof.KiKit.lean ====
/- The frame of the kernel program, first module: what the three runs of the body and the frame proper
   share — the program as its region followed by nine stretches of host lines, the side conditions of those lines,
   the windows' blocks, the body's two branch conditions decided over the 64-point grid, where the output window is
   idle, and the memrefs the body runs on. -/
import proofs.«145242_j47090021433737_1_alg».proof.Proof.Gen.KernelIdeal.Launch
import proofs.«145242_j47090021433737_1_alg».proof.Proof.Gen.KernelIdeal.Skeleton
import proofs.«145242_j47090021433737_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of long extents: the structural look recurses once per coordinate of the long axes
set_option maxRecDepth 16384

noncomputable section

namespace Cert.KernelIdeal.Hand

open Cert.KernelIdeal
open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The program around its one region -/

/-- What core `c`'s device buffers hold when the region is entered, as a valuation: the memory the program starts
    from (no host line comes before the region). -/
abbrev V0 (c : Dev nD) : Valuation τ sig (Elt F) := StableHlo.after (List.flatten []) (fun b => m (c, b))
/-- The same, read at one reference. -/
abbrev V (c : Dev nD) (b : Ref sig .tc) : Buf (Elt F) ((c : Thread nD τ).loc b) := V0 m c (Proc.devRef .tc b)

/-! Each of the nine stretches of host lines after the region allocates nothing: every line writes the one buffer of
    its own result. -/
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor

set_option maxHeartbeats 4000000 in
/-- The program is the region followed by the nine stretches: run from the start it comes to the region with the
    memory untouched, and what is left is the stretches in order. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3, StableHlo.seq hostOps1_4, StableHlo.seq hostOps1_5, StableHlo.seq hostOps1_6, StableHlo.seq hostOps1_7, StableHlo.seq hostOps1_8]) :=
  Pipeline.hmain_around cfgs 0 defs₀ 𝒱₀ m main [] [hostOps1, hostOps1_1, hostOps1_2, hostOps1_3, hostOps1_4, hostOps1_5, hostOps1_6, hostOps1_7, hostOps1_8] (by simp only [List.Forall])
    (by simp only [List.Forall]) main_chain

/-! No line after the region writes one of the three arrays the region's windows stage (the two inputs and the
    region's result): each writes a buffer of its own, a different reference. -/
theorem hostOps1_keeps : (hostOps1 : List (HloOp τ sig (Elt F))).Forall fun op =>
    ∀ w, Proc.devRef .tc (Pipeline.arrRef spec0 w) ∉ op.writes := by
  simp only [List.Forall]
  repeat' apply And.intro
  all_goals (intro w; fin_cases w <;> simp only [StableHlo.nullary_writes, StableHlo.unary_writes, StableHlo.binary_writes, StableHlo.ternary_writes, StableHlo.reshape_writes, Finset.mem_singleton] <;> exact StableHlo.devRef_ne_of_ne (by decide))
theorem hostOps1_1_keeps : (hostOps1_1 : List (HloOp τ sig (Elt F))).Forall fun op =>
    ∀ w, Proc.devRef .tc (Pipeline.arrRef spec0 w) ∉ op.writes := by
  simp only [List.Forall]
  repeat' apply And.intro
  all_goals (intro w; fin_cases w <;> simp only [StableHlo.nullary_writes, StableHlo.unary_writes, StableHlo.binary_writes, StableHlo.ternary_writes, StableHlo.reshape_writes, Finset.mem_singleton] <;> exact StableHlo.devRef_ne_of_ne (by decide))
theorem hostOps1_2_keeps : (hostOps1_2 : List (HloOp τ sig (Elt F))).Forall fun op =>
    ∀ w, Proc.devRef .tc (Pipeline.arrRef spec0 w) ∉ op.writes := by
  simp only [List.Forall]
  repeat' apply And.intro
  all_goals (intro w; fin_cases w <;> simp only [StableHlo.nullary_writes, StableHlo.unary_writes, StableHlo.binary_writes, StableHlo.ternary_writes, StableHlo.reshape_writes, Finset.mem_singleton] <;> exact StableHlo.devRef_ne_of_ne (by decide))
theorem hostOps1_3_keeps : (hostOps1_3 : List (HloOp τ sig (Elt F))).Forall fun op =>
    ∀ w, Proc.devRef .tc (Pipeline.arrRef spec0 w) ∉ op.writes := by
  simp only [List.Forall]
  repeat' apply And.intro
  all_goals (intro w; fin_cases w <;> simp only [StableHlo.nullary_writes, StableHlo.unary_writes, StableHlo.binary_writes, StableHlo.ternary_writes, StableHlo.reshape_writes, Finset.mem_singleton] <;> exact StableHlo.devRef_ne_of_ne (by decide))
theorem hostOps1_4_keeps : (hostOps1_4 : List (HloOp τ sig (Elt F))).Forall fun op =>
    ∀ w, Proc.devRef .tc (Pipeline.arrRef spec0 w) ∉ op.writes := by
  simp only [List.Forall]
  repeat' apply And.intro
  all_goals (intro w; fin_cases w <;> simp only [StableHlo.nullary_writes, StableHlo.unary_writes, StableHlo.binary_writes, StableHlo.ternary_writes, StableHlo.reshape_writes, Finset.mem_singleton] <;> exact StableHlo.devRef_ne_of_ne (by decide))
theorem hostOps1_5_keeps : (hostOps1_5 : List (HloOp τ sig (Elt F))).Forall fun op =>
    ∀ w, Proc.devRef .tc (Pipeline.arrRef spec0 w) ∉ op.writes := by
  simp only [List.Forall]
  repeat' apply And.intro
  all_goals (intro w; fin_cases w <;> simp only [StableHlo.nullary_writes, StableHlo.unary_writes, StableHlo.binary_writes, StableHlo.ternary_writes, StableHlo.reshape_writes, Finset.mem_singleton] <;> exact StableHlo.devRef_ne_of_ne (by decide))
theorem hostOps1_6_keeps : (hostOps1_6 : List (HloOp τ sig (Elt F))).Forall fun op =>
    ∀ w, Proc.devRef .tc (Pipeline.arrRef spec0 w) ∉ op.writes := by
  simp only [List.Forall]
  repeat' apply And.intro
  all_goals (intro w; fin_cases w <;> simp only [StableHlo.nullary_writes, StableHlo.unary_writes, StableHlo.binary_writes, StableHlo.ternary_writes, StableHlo.reshape_writes, Finset.mem_singleton] <;> exact StableHlo.devRef_ne_of_ne (by decide))
theorem hostOps1_7_keeps : (hostOps1_7 : List (HloOp τ sig (Elt F))).Forall fun op =>
    ∀ w, Proc.devRef .tc (Pipeline.arrRef spec0 w) ∉ op.writes := by
  simp only [List.Forall]
  repeat' apply And.intro
  all_goals (intro w; fin_cases w <;> simp only [StableHlo.nullary_writes, StableHlo.unary_writes, StableHlo.binary_writes, StableHlo.ternary_writes, StableHlo.reshape_writes, Finset.mem_singleton] <;> exact StableHlo.devRef_ne_of_ne (by decide))
theorem hostOps1_8_keeps : (hostOps1_8 : List (HloOp τ sig (Elt F))).Forall fun op =>
    ∀ w, Proc.devRef .tc (Pipeline.arrRef spec0 w) ∉ op.writes := by
  simp only [List.Forall]
  repeat' apply And.intro
  all_goals (intro w; fin_cases w <;> simp only [StableHlo.nullary_writes, StableHlo.unary_writes, StableHlo.binary_writes, StableHlo.ternary_writes, StableHlo.reshape_writes, Finset.mem_singleton] <;> exact StableHlo.devRef_ne_of_ne (by decide))

/-- The lines after the region touch only unscoped device buffers: the windows' arrays and the buffers that pass
    the region by (with nothing prefetched these two kinds are all of them). -/
theorem sfx_sub : ∀ ops ∈ ([hostOps1, hostOps1_1, hostOps1_2, hostOps1_3, hostOps1_4, hostOps1_5, hostOps1_6, hostOps1_7, hostOps1_8] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
/-- They allocate nothing. -/
theorem sfx_fresh : ∀ ops ∈ ([hostOps1, hostOps1_1, hostOps1_2, hostOps1_3, hostOps1_4, hostOps1_5, hostOps1_6, hostOps1_7, hostOps1_8] : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
/-- And they write none of the windows' arrays. -/
theorem sfx_keeps : ∀ ops ∈ ([hostOps1, hostOps1_1, hostOps1_2, hostOps1_3, hostOps1_4, hostOps1_5, hostOps1_6, hostOps1_7, hostOps1_8] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop
  · exact (List.forall_iff_forall_mem.mp hostOps1_6_keeps) op hop
  · exact (List.forall_iff_forall_mem.mp hostOps1_7_keeps) op hop
  · exact (List.forall_iff_forall_mem.mp hostOps1_8_keeps) op hop

theorem V_main_arg0 (c : Dev nD) : V m c main_arg0 = m ((c : Thread nD τ).loc main_arg0) := rfl
theorem V_main_arg1 (c : Dev nD) : V m c main_arg1 = m ((c : Thread nD τ).loc main_arg1) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first input's staging buffer holds its block at every point, for any proof data whose array is the
    region-entry contents and whose body leaves the block in place: the window is whole, fetched anew at each point
    and never idle, so what is staged before the body is what was fetched. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the second input. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a frame run -/

/-- For any proof data whose arrays are the region-entry contents, a run that ends in the frame post — read at the two
    argument arrays, each a staged input whose array the run leaves as it found it — ends with both arguments holding
    what they held at the start. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1, hostOps1_1, hostOps1_2, hostOps1_3, hostOps1_4, hostOps1_5, hostOps1_6, hostOps1_7, hostOps1_8]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans (((dats 0 c).arrAt_in 0 rfl _).trans ((hA c 0).trans (V_main_arg0 m c))),
     ((h c).1 1).trans (((dats 0 c).arrAt_in 1 rfl _).trans ((hA c 1).trans (V_main_arg1 m c)))⟩) h

/-! ## The body's two branch conditions -/

/-- The first branch (reset the accumulator row) is taken when the second grid coordinate is 0: the comparison chain
    the body computes, over the coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- The second branch (copy the accumulator row out) is taken when the second grid coordinate is 3. -/
abbrev cond0_1 (i : grid0.Coords) : Prop := k0_cond2 i = 1#1
/-- It holds at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

/-- The two inputs are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- Where the first branch is taken and the second is not, the output window is idle (nothing is stored into it), -/
theorem idleAt0_2_A : ∀ t : Fin cfg0.N, cond0_0 (grid0.coords t) → ¬cond0_1 (grid0.coords t) → cfg0.idle 2 (grid0.coords t) = true := by decide +kernel
/-- and its block is not written back. -/
theorem noFlush0_2_A : ∀ t : Fin cfg0.N, cond0_0 (grid0.coords t) → ¬cond0_1 (grid0.coords t) → (cfg0.win 2).flush t = false := by decide +kernel
/-- Where neither branch is taken, the output window is idle, -/
theorem idleAt0_2_B : ∀ t : Fin cfg0.N, ¬cond0_0 (grid0.coords t) → ¬cond0_1 (grid0.coords t) → cfg0.idle 2 (grid0.coords t) = true := by decide +kernel
/-- and its block is not written back. -/
theorem noFlush0_2_B : ∀ t : Fin cfg0.N, ¬cond0_0 (grid0.coords t) → ¬cond0_1 (grid0.coords t) → (cfg0.win 2).flush t = false := by decide +kernel
/-- Where the second branch is taken (and the first is not), the output window is live: the body stores into it. -/
theorem liveAt0_2_C : ∀ t : Fin cfg0.N, ¬cond0_0 (grid0.coords t) → cond0_1 (grid0.coords t) → cfg0.idle 2 (grid0.coords t) = false := by decide +kernel

/-! ## The memrefs the body runs on -/

/-- One staging buffer of the output window, through which its contents are stated (which one does not matter: a
    whole buffer read back after whole writes). -/
abbrev VO0_2 : View sig .tc .vmem S1x1x128 .f32 := (Memref.whole cc0_stg2_0 : Memref sig .tc .vmem S1x1x128 .f32).view
/-- Each window's current staging memref at point `t`, as the pipeline passes it to the body, and its wholeness. -/
abbrev ms0_0 (t : Fin cfg0.N) : Memref sig .tc .vmem S1x3x256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x3x256x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x128 .f32 := win0_2.stage (cfg0.slots t 2)
abbrev hs0_2 (t : Fin cfg0.N) : (ms0_2 t).IsWhole := hstage0_2 ((cfg0.slots t 2).cast nbuf0_2)
/-- The accumulator row: a whole scoped buffer of the kernel's own, passed beside the windows. -/
abbrev scM0_0 : Memref sig .tc .vmem S1x128 .f32 := Memref.whole cc0_scratch0
/-- The accumulator row as a view: what it holds between points is stated through it. -/
abbrev VS0_0 : View sig .tc .vmem S1x128 .f32 := scM0_0.view

/-- The invariant the frame carries beside the windows: the accumulator row owned whole at some contents, and the
    core's random-number register at some value. What the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.KiRunA.lean ====
/- The frame of the kernel program: the whole body run at the points where the accumulator row is reset and nothing is copied out (the first H-tile of a sample). -/
import proofs.«145242_j47090021433737_1_alg».proof.Proof.KiKit

-- membership in a rectangle of long extents: the structural look recurses once per coordinate of the long axes
set_option maxRecDepth 16384

noncomputable section

namespace Cert.KernelIdeal.Hand

open Cert.KernelIdeal
open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 1000000 in
/-- The body's triple where the first branch is taken and the second is not (the points ≡ 0 mod 4). On whole memrefs —
    the two inputs at their contents, the output window's at contents `xi2`, the accumulator row at ANY contents — the
    body runs to a continuation that is handed the inputs as they were, the output window's buffer untouched at `xi2`
    (no store reaches it: `L2 = []`) and the accumulator row with the pieces `LS0` written: first zeros over the
    whole row, then the zero row plus the tile's ten packed numbers. The pieces are the witness the run finds. -/
noncomputable def kernelRun0_A (c : Dev nD) (i : grid0.Coords) (arg2 : Memref sig .tc .vmem S1x3x256x1024 .f32) (harg2 : arg2.IsWhole) (arg3 : Memref sig .tc .vmem S1x3x256x1024 .f32) (harg3 : arg3.IsWhole) (arg4 : Memref sig .tc .vmem S1x1x128 .f32) (harg4 : arg4.IsWhole) (arg5 : Memref sig .tc .vmem S1x128 .f32) (harg5 : arg5.IsWhole) (hc0 : cond0_0 i) (hc1 : ¬cond0_1 i)
    (x0 x1 : Vec F S1x3x256x1024 .f32) :
    Σ' (L2 : List (View.Piece (Elt F) S1x1x128 .f32)), { LS0 : List (View.Piece (Elt F) S1x128 .f32) //
      ∀ (xi2 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__stats_kernel i arg2 harg2 arg3 harg3 arg4 harg4 arg5 harg5) K } := by
  refine ⟨[], ?_, fun xi2 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KiRunB.lean ====
/- The frame of the kernel program: the whole body run at the points where the accumulator row is neither reset nor copied out (the two middle H-tiles of a sample). -/
import proofs.«145242_j47090021433737_1_alg».proof.Proof.KiRunA

-- membership in a rectangle of long extents: the structural look recurses once per coordinate of the long axes
set_option maxRecDepth 16384

noncomputable section

namespace Cert.KernelIdeal.Hand

open Cert.KernelIdeal
open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 1000000 in
/-- The body's triple where neither branch is taken (the points ≡ 1, 2 mod 4). On whole memrefs — the two inputs at
    their contents, the output window's at contents `xi2`, the accumulator row at `xs0`, what the point before left —
    the body runs to a continuation that is handed the inputs as they were, the output window's buffer untouched at
    `xi2` (no store reaches it: `L2 = []`) and the accumulator row with the one piece `LS0` written: `xs0` plus the
    tile's ten packed numbers. The pieces are the witness the run finds. -/
noncomputable def kernelRun0_B (c : Dev nD) (i : grid0.Coords) (arg2 : Memref sig .tc .vmem S1x3x256x1024 .f32) (harg2 : arg2.IsWhole) (arg3 : Memref sig .tc .vmem S1x3x256x1024 .f32) (harg3 : arg3.IsWhole) (arg4 : Memref sig .tc .vmem S1x1x128 .f32) (harg4 : arg4.IsWhole) (arg5 : Memref sig .tc .vmem S1x128 .f32) (harg5 : arg5.IsWhole) (hc0 : ¬cond0_0 i) (hc1 : ¬cond0_1 i)
    (x0 x1 : Vec F S1x3x256x1024 .f32) (xs0 : Vec F S1x128 .f32) :
    Σ' (L2 : List (View.Piece (Elt F) S1x1x128 .f32)), { LS0 : List (View.Piece (Elt F) S1x128 .f32) //
      ∀ (xi2 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__stats_kernel i arg2 harg2 arg3 harg3 arg4 harg4 arg5 harg5) K } := by
  refine ⟨[], ?_, fun xi2 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KiRunC.lean ====
/- The frame of the kernel program: the whole body run at the points where the accumulator row is copied out into the output block (the last H-tile of a sample). -/
import proofs.«145242_j47090021433737_1_alg».proof.Proof.KiRunB

-- membership in a rectangle of long extents: the structural look recurses once per coordinate of the long axes
set_option maxRecDepth 16384

noncomputable section

namespace Cert.KernelIdeal.Hand

open Cert.KernelIdeal
open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 1000000 in
/-- The body's triple where the second branch is taken and the first is not (the points ≡ 3 mod 4). On whole memrefs —
    the two inputs at their contents, the output window's at ANY contents, the accumulator row at `xs0`, what the
    point before left — the body runs to a continuation that is handed the inputs as they were, the accumulator row
    with the one piece `LS0` written (`xs0` plus the tile's ten packed numbers) and the output window's buffer with
    the piece `L2` written: that sum, reshaped to the block. The pieces are the witness the run finds. -/
noncomputable def kernelRun0_C (c : Dev nD) (i : grid0.Coords) (arg2 : Memref sig .tc .vmem S1x3x256x1024 .f32) (harg2 : arg2.IsWhole) (arg3 : Memref sig .tc .vmem S1x3x256x1024 .f32) (harg3 : arg3.IsWhole) (arg4 : Memref sig .tc .vmem S1x1x128 .f32) (harg4 : arg4.IsWhole) (arg5 : Memref sig .tc .vmem S1x128 .f32) (harg5 : arg5.IsWhole) (hc0 : ¬cond0_0 i) (hc1 : cond0_1 i)
    (x0 x1 : Vec F S1x3x256x1024 .f32) (xs0 : Vec F S1x128 .f32) :
    Σ' (L2 : List (View.Piece (Elt F) S1x1x128 .f32)), { LS0 : List (View.Piece (Elt F) S1x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__stats_kernel i arg2 harg2 arg3 harg3 arg4 harg4 arg5 harg5) K } := by
  refine ⟨?_, ?_, fun E K => ?run⟩
  case run =>
    simp only [cc0__stats_kernel_eq_skeleton]; unfold cc0__stats_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KiFrame.lean ====
/- The frame of the program: what the output block and the carried accumulator row hold
   after every grid point, the proof data of the one pipeline, the body's obligation at a generic point (three
   kinds of point: the first tile of a sample, a middle tile, the last tile of a sample), the run of the whole
   program and the frame claim at any float instance. -/
import proofs.«145242_j47090021433737_1_alg».proof.Proof.KiRunC

set_option maxRecDepth 16384

noncomputable section

namespace Cert.KernelIdeal.Hand

open Cert.KernelIdeal
open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## A buffer filled piece by piece

If the pieces written into a memref cover its whole shape, then what is read through it afterwards is a function
of the pieces alone: neither the earlier contents nor the view through which one reads matter. -/

/-- A memref whose elements hold some earlier contents overwritten by the pieces `L`, the pieces covering the
    shape, is owned at the closed form "the pieces read back over arbitrary contents through the view `V'`". -/
theorem owns_of_pieces {s : Shape} (c : Dev nD) (M : Memref sig .tc .vmem s .f32) (V' : View sig .tc .vmem s .f32)
    (L : List (View.Piece (Elt F) s .f32)) (hL : ∀ y : s.Idx, ∃ pc ∈ L, y ∈ pc.1.set) :
    (iprop(∃ f, M.view.loc (c : Thread nD τ) ↦[M.view.set]{fullShare} M.view.writes (Elt F) f L) : sProp 𝕄)
      ⊢ owns (c : Thread nD τ) M fullShare (V'.read (Elt F) (V'.writes (Elt F) V'.junk L)) := by
  iintro ⟨%f, H⟩
  unfold owns; iexists _; isplitr
  swap; · iexact H
  ipureintro; exact View.read_writes_of_cover _ _ _ _ _ hL

/-! ## What each kind of point leaves in the output block and in the accumulator row -/

/-- At the first tile of a sample nothing is stored into the output block (the block is idle there and is not written
    back): the empty list of pieces read back, a value nobody looks at. -/
def out0_A_2 (c : Dev nD) (i : grid0.Coords) (arg2 : Memref sig .tc .vmem S1x3x256x1024 .f32) (harg2 : arg2.IsWhole) (arg3 : Memref sig .tc .vmem S1x3x256x1024 .f32) (harg3 : arg3.IsWhole) (arg4 : Memref sig .tc .vmem S1x1x128 .f32) (harg4 : arg4.IsWhole) (arg5 : Memref sig .tc .vmem S1x128 .f32) (harg5 : arg5.IsWhole) (hc0 : cond0_0 i) (hc1 : ¬cond0_1 i)
    (x0 x1 : Vec F S1x3x256x1024 .f32) : Vec F S1x1x128 .f32 :=
  VO0_2.read (Elt F) (VO0_2.writes (Elt F) VO0_2.junk (kernelRun0_A c i arg2 harg2 arg3 harg3 arg4 harg4 arg5 harg5 hc0 hc1 x0 x1).1)

/-- At the first tile of a sample the accumulator row is first set to zero and then has the tile's row of ten sums added:
    the stores tile the whole row. -/
theorem scover0_A_0 (c : Dev nD) (i : grid0.Coords) (arg2 : Memref sig .tc .vmem S1x3x256x1024 .f32) (harg2 : arg2.IsWhole) (arg3 : Memref sig .tc .vmem S1x3x256x1024 .f32) (harg3 : arg3.IsWhole) (arg4 : Memref sig .tc .vmem S1x1x128 .f32) (harg4 : arg4.IsWhole) (arg5 : Memref sig .tc .vmem S1x128 .f32) (harg5 : arg5.IsWhole) (hc0 : cond0_0 i) (hc1 : ¬cond0_1 i)
    (x0 x1 : Vec F S1x3x256x1024 .f32) (y : S1x128.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S1x128.size (by sl_kernel_rfl) y

/-- The accumulator row after the first tile of a sample: zero plus the tile's row, read back from the stores. It does
    not depend on what the row held before. -/
def sout0_A_0 (c : Dev nD) (i : grid0.Coords) (arg2 : Memref sig .tc .vmem S1x3x256x1024 .f32) (harg2 : arg2.IsWhole) (arg3 : Memref sig .tc .vmem S1x3x256x1024 .f32) (harg3 : arg3.IsWhole) (arg4 : Memref sig .tc .vmem S1x1x128 .f32) (harg4 : arg4.IsWhole) (arg5 : Memref sig .tc .vmem S1x128 .f32) (harg5 : arg5.IsWhole) (hc0 : cond0_0 i) (hc1 : ¬cond0_1 i)
    (x0 x1 : Vec F S1x3x256x1024 .f32) : Vec F S1x128 .f32 :=
  VS0_0.read (Elt F) (VS0_0.writes (Elt F) VS0_0.junk (kernelRun0_A c i arg2 harg2 arg3 harg3 arg4 harg4 arg5 harg5 hc0 hc1 x0 x1).2.1)

/-- At a middle tile nothing is stored into the output block either. -/
def out0_B_2 (c : Dev nD) (i : grid0.Coords) (arg2 : Memref sig .tc .vmem S1x3x256x1024 .f32) (harg2 : arg2.IsWhole) (arg3 : Memref sig .tc .vmem S1x3x256x1024 .f32) (harg3 : arg3.IsWhole) (arg4 : Memref sig .tc .vmem S1x1x128 .f32) (harg4 : arg4.IsWhole) (arg5 : Memref sig .tc .vmem S1x128 .f32) (harg5 : arg5.IsWhole) (hc0 : ¬cond0_0 i) (hc1 : ¬cond0_1 i)
    (x0 x1 : Vec F S1x3x256x1024 .f32) (xs0 : Vec F S1x128 .f32) : Vec F S1x1x128 .f32 :=
  VO0_2.read (Elt F) (VO0_2.writes (Elt F) VO0_2.junk (kernelRun0_B c i arg2 harg2 arg3 harg3 arg4 harg4 arg5 harg5 hc0 hc1 x0 x1 xs0).1)

/-- At a middle tile the accumulator row is stored once, whole: the old row plus the tile's row. -/
theorem scover0_B_0 (c : Dev nD) (i : grid0.Coords) (arg2 : Memref sig .tc .vmem S1x3x256x1024 .f32) (harg2 : arg2.IsWhole) (arg3 : Memref sig .tc .vmem S1x3x256x1024 .f32) (harg3 : arg3.IsWhole) (arg4 : Memref sig .tc .vmem S1x1x128 .f32) (harg4 : arg4.IsWhole) (arg5 : Memref sig .tc .vmem S1x128 .f32) (harg5 : arg5.IsWhole) (hc0 : ¬cond0_0 i) (hc1 : ¬cond0_1 i)
    (x0 x1 : Vec F S1x3x256x1024 .f32) (xs0 : Vec F S1x128 .f32) (y : S1x128.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S1x128.size (by sl_kernel_rfl) y

/-- The accumulator row after a middle tile, over the row `xs0` the tile before left. -/
def sout0_B_0 (c : Dev nD) (i : grid0.Coords) (arg2 : Memref sig .tc .vmem S1x3x256x1024 .f32) (harg2 : arg2.IsWhole) (arg3 : Memref sig .tc .vmem S1x3x256x1024 .f32) (harg3 : arg3.IsWhole) (arg4 : Memref sig .tc .vmem S1x1x128 .f32) (harg4 : arg4.IsWhole) (arg5 : Memref sig .tc .vmem S1x128 .f32) (harg5 : arg5.IsWhole) (hc0 : ¬cond0_0 i) (hc1 : ¬cond0_1 i)
    (x0 x1 : Vec F S1x3x256x1024 .f32) (xs0 : Vec F S1x128 .f32) : Vec F S1x128 .f32 :=
  VS0_0.read (Elt F) (VS0_0.writes (Elt F) VS0_0.junk (kernelRun0_B c i arg2 harg2 arg3 harg3 arg4 harg4 arg5 harg5 hc0 hc1 x0 x1 xs0).2.1)

/-- At the last tile of a sample the accumulator row is copied into the output block by one store of the whole block. -/
theorem cover0_C_2 (c : Dev nD) (i : grid0.Coords) (arg2 : Memref sig .tc .vmem S1x3x256x1024 .f32) (harg2 : arg2.IsWhole) (arg3 : Memref sig .tc .vmem S1x3x256x1024 .f32) (harg3 : arg3.IsWhole) (arg4 : Memref sig .tc .vmem S1x1x128 .f32) (harg4 : arg4.IsWhole) (arg5 : Memref sig .tc .vmem S1x128 .f32) (harg5 : arg5.IsWhole) (hc0 : ¬cond0_0 i) (hc1 : cond0_1 i)
    (x0 x1 : Vec F S1x3x256x1024 .f32) (xs0 : Vec F S1x128 .f32) (y : S1x1x128.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1x1x128.size (by sl_kernel_rfl) y

/-- The output block after the last tile of a sample: the sample's finished row of ten sums. -/
def out0_C_2 (c : Dev nD) (i : grid0.Coords) (arg2 : Memref sig .tc .vmem S1x3x256x1024 .f32) (harg2 : arg2.IsWhole) (arg3 : Memref sig .tc .vmem S1x3x256x1024 .f32) (harg3 : arg3.IsWhole) (arg4 : Memref sig .tc .vmem S1x1x128 .f32) (harg4 : arg4.IsWhole) (arg5 : Memref sig .tc .vmem S1x128 .f32) (harg5 : arg5.IsWhole) (hc0 : ¬cond0_0 i) (hc1 : cond0_1 i)
    (x0 x1 : Vec F S1x3x256x1024 .f32) (xs0 : Vec F S1x128 .f32) : Vec F S1x1x128 .f32 :=
  VO0_2.read (Elt F) (VO0_2.writes (Elt F) VO0_2.junk (kernelRun0_C c i arg2 harg2 arg3 harg3 arg4 harg4 arg5 harg5 hc0 hc1 x0 x1 xs0).1)

/-- At the last tile of a sample the accumulator row is again stored once, whole. -/
theorem scover0_C_0 (c : Dev nD) (i : grid0.Coords) (arg2 : Memref sig .tc .vmem S1x3x256x1024 .f32) (harg2 : arg2.IsWhole) (arg3 : Memref sig .tc .vmem S1x3x256x1024 .f32) (harg3 : arg3.IsWhole) (arg4 : Memref sig .tc .vmem S1x1x128 .f32) (harg4 : arg4.IsWhole) (arg5 : Memref sig .tc .vmem S1x128 .f32) (harg5 : arg5.IsWhole) (hc0 : ¬cond0_0 i) (hc1 : cond0_1 i)
    (x0 x1 : Vec F S1x3x256x1024 .f32) (xs0 : Vec F S1x128 .f32) (y : S1x128.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S1x128.size (by sl_kernel_rfl) y

/-- The accumulator row after the last tile of a sample, over the row `xs0` the tile before left. -/
def sout0_C_0 (c : Dev nD) (i : grid0.Coords) (arg2 : Memref sig .tc .vmem S1x3x256x1024 .f32) (harg2 : arg2.IsWhole) (arg3 : Memref sig .tc .vmem S1x3x256x1024 .f32) (harg3 : arg3.IsWhole) (arg4 : Memref sig .tc .vmem S1x1x128 .f32) (harg4 : arg4.IsWhole) (arg5 : Memref sig .tc .vmem S1x128 .f32) (harg5 : arg5.IsWhole) (hc0 : ¬cond0_0 i) (hc1 : cond0_1 i)
    (x0 x1 : Vec F S1x3x256x1024 .f32) (xs0 : Vec F S1x128 .f32) : Vec F S1x128 .f32 :=
  VS0_0.read (Elt F) (VS0_0.writes (Elt F) VS0_0.junk (kernelRun0_C c i arg2 harg2 arg3 harg3 arg4 harg4 arg5 harg5 hc0 hc1 x0 x1 xs0).2.1)

/-! ## Point by point -/

/-- THE ACCUMULATION. What the output block's current buffer (first component) and the accumulator row (second component)
    hold after the body at position `n` of the grid, `n = 4 b + h` (sample `b`, tile `h`): at `h = 0` the row starts afresh from
    the tile's own sums; at `h = 1, 2` the tile's sums are added to the row the tile before left; at `h = 3` likewise, and
    the finished row is the output block. Only at `h = 3` is the first component consulted. -/
def outsAt0 (c : Dev nD) : (n : ℕ) → n < cfg0.N → Vec F S1x1x128 .f32 × Vec F S1x128 .f32
  | 0, hn =>
    (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h3 => by (try dsimp only at h3); omega) ((hcond0_1 ⟨0, hn⟩).mp h)) (iblk m c 0 ⟨0, hn⟩) (iblk m c 1 ⟨0, hn⟩),
     sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h3 => by (try dsimp only at h3); omega) ((hcond0_1 ⟨0, hn⟩).mp h)) (iblk m c 0 ⟨0, hn⟩) (iblk m c 1 ⟨0, hn⟩))
  | n + 1, hn =>
    if h0 : (n + 1) % 4 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => absurd ((hcond0_1 ⟨n + 1, hn⟩).mp h) (fun h3 => by (try dsimp only at h3); omega)) (iblk m c 0 ⟨n + 1, hn⟩) (iblk m c 1 ⟨n + 1, hn⟩),
       sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => absurd ((hcond0_1 ⟨n + 1, hn⟩).mp h) (fun h3 => by (try dsimp only at h3); omega)) (iblk m c 0 ⟨n + 1, hn⟩) (iblk m c 1 ⟨n + 1, hn⟩))
    else if h1 : (n + 1) % 4 = 3 then
      (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2,
       sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2)
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2,
       sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2)

/-- At the first tile of a sample. -/
theorem outsAt0_A (c : Dev nD) (t : Fin cfg0.N) (h0 : t.val % 4 = 0) (h1 : ¬t.val % 4 = 3) :
    outsAt0 m c t.val t.isLt
      = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t),
         sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans rfl

/-- At a middle tile: over the row the tile before left. -/
theorem outsAt0_B (c : Dev nD) (t : Fin cfg0.N) (h0 : ¬t.val % 4 = 0) (h1 : ¬t.val % 4 = 3) :
    outsAt0 m c t.val t.isLt
      = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2,
         sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

/-- At the last tile of a sample: over the row the tile before left. -/
theorem outsAt0_C (c : Dev nD) (t : Fin cfg0.N) (h0 : ¬t.val % 4 = 0) (h1 : t.val % 4 = 3) :
    outsAt0 m c t.val t.isLt
      = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2,
         sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The invariant between points -/

/-- What the core holds beside the windows before position `n`: before the first point the accumulator row at anything
    (and the generator register at some state); before any later point the row at exactly what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

/-- After point `n`: the row at that point's contents. -/
theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

/-- Before a point that is not the first: the row at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-- At every position the invariant yields the row at SOME contents: all a point that resets the row needs, and all the
    region's exit keeps. -/
theorem PhiS_any (c : Dev nD) (n : ℕ) (h : n ≤ cfg0.N) :
    PhiS m c n h ⊢ iprop(iprop((∃ d, owns (c : Thread nD τ) scM0_0 fullShare d)) ∗ (∃ r, prngReg c r)) := by
  cases n with
  | zero =>
    rw [PhiS_zero m c 0 h rfl, PhiA0_eq]
    try exact Idealize.SL.BI.Entails.refl _
  | succ n =>
    rw [PhiS_succ]
    iintro ⟨HS0, Hg⟩
    isplitl [HS0]
    · iexists _; iexact HS0
    iexact Hg

/-! ## The pipeline's proof data -/

/-- The proof data of the pipeline on core `c`: the arrays as the region finds them; after the body at point `t` each
    input's buffer still at its block, the output's at `outsAt0`'s first component; between points `PhiS`; full shares;
    nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q _ := fullShare
  owed _ := 0

/-- The proof data's arrays are the region-entry contents. -/
theorem A_eq (c : Dev nD) (w : Fin cfg0.W) : (dats m 0 c).A w = V m c (Pipeline.arrRef spec0 w) := by
  dsimp only [dats]

/-- The invariant at a point's start, restated at the point's position. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

/-- Each input's current buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- The inputs are never idle: after the body their buffers are at their blocks. -/
theorem leaves0_0 (c : Dev nD) (t : Fin cfg0.N) :
    (dats m 0 c).leavesExact 0 t = owns (c : Thread nD τ) (ms0_0 t) fullShare (iblk m c 0 t) :=
  (show (dats m 0 c).leavesExact 0 t = owns (c : Thread nD τ) (ms0_0 t) fullShare ((dats m 0 c).after 0 t) from by
    unfold Dat.leavesExact; rw [liveAt0_0 t]).trans (by rw [after0_0])
theorem leaves0_1 (c : Dev nD) (t : Fin cfg0.N) :
    (dats m 0 c).leavesExact 1 t = owns (c : Thread nD τ) (ms0_1 t) fullShare (iblk m c 1 t) :=
  (show (dats m 0 c).leavesExact 1 t = owns (c : Thread nD τ) (ms0_1 t) fullShare ((dats m 0 c).after 1 t) from by
    unfold Dat.leavesExact; rw [liveAt0_1 t]).trans (by rw [after0_1])

/-- The output block is idle at the first tile of a sample: its buffer is handed back as it was found. -/
theorem leaves0_2_A (c : Dev nD) (t : Fin cfg0.N) (h0 : t.val % 4 = 0) (h1 : ¬t.val % 4 = 3) :
    (dats m 0 c).leavesExact 2 t = iprop(∃ d, owns (c : Thread nD τ) (ms0_2 t) fullShare ((dats m 0 c).before 2 t d)) :=
  Dat.leavesExact_idle (dats m 0 c) 2 t (idleAt0_2_A t ((hcond0_0 t).mpr h0) (fun h => h1 ((hcond0_1 t).mp h))) (noFlush0_2_A t ((hcond0_0 t).mpr h0) (fun h => h1 ((hcond0_1 t).mp h)))
/-- And at a middle tile. -/
theorem leaves0_2_B (c : Dev nD) (t : Fin cfg0.N) (h0 : ¬t.val % 4 = 0) (h1 : ¬t.val % 4 = 3) :
    (dats m 0 c).leavesExact 2 t = iprop(∃ d, owns (c : Thread nD τ) (ms0_2 t) fullShare ((dats m 0 c).before 2 t d)) :=
  Dat.leavesExact_idle (dats m 0 c) 2 t (idleAt0_2_B t (fun h => h0 ((hcond0_0 t).mp h)) (fun h => h1 ((hcond0_1 t).mp h))) (noFlush0_2_B t (fun h => h0 ((hcond0_0 t).mp h)) (fun h => h1 ((hcond0_1 t).mp h)))
/-- At the last tile of a sample it is live: its buffer is at the finished row. -/
theorem leaves0_2_C (c : Dev nD) (t : Fin cfg0.N) (h0 : ¬t.val % 4 = 0) (h1 : t.val % 4 = 3) :
    (dats m 0 c).leavesExact 2 t = owns (c : Thread nD τ) (ms0_2 t) fullShare ((outsAt0 m c t.val t.isLt).1) :=
  (show (dats m 0 c).leavesExact 2 t = owns (c : Thread nD τ) (ms0_2 t) fullShare ((dats m 0 c).after 2 t) from by
    unfold Dat.leavesExact; rw [liveAt0_2_C t (fun h => h0 ((hcond0_0 t).mp h)) ((hcond0_1 t).mpr h1)]).trans (by rw [after0_2])

/-! ## The body obligation, at a generic point -/

/-- What the body is called with at point `t`: the invariant, the tallies, and the three windows' current buffers, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The first tile of a sample. The row is taken at whatever it holds (the body zeroes it before reading it) and handed
    back at zero plus the tile's sums; the output block passes through untouched. -/
theorem sound_body_A (c : Dev nD) (t : Fin cfg0.N) (h0 : t.val % 4 = 0) (h1 : ¬t.val % 4 = 3) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2_A m c t h0 h1]
  rw [outsAt0_A m c t h0 h1]
  unfold sout0_A_0; (try dsimp only)
  rw [PhiS_castSucc m c t]
  iintro ⟨HP, Ho, ⟨%d0, H0⟩, ⟨%d1, H1⟩, ⟨%d2, H2⟩⟩
  ihave HQ := (PhiS_any m c _ _) $$ HP
  icases HQ with ⟨HS0, Hg⟩
  iapply ((kernelRun0_A c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)).2.2 _ Set.univ _)
  isplitl [H0]; · iexact H0
  isplitl [H1]; · iexact H1
  isplitl [H2]; · iexact H2
  isplitl [HS0]; · iexact HS0
  iintro ⟨H0, H1, H2, HS0⟩
  isplitl [HS0 Hg]
  · isplitl [HS0]
    · iapply (owns_of_pieces c _ _ _ (scover0_A_0 c _ _ _ _ _ _ _ _ _ _ _ _ _))
      iexact HS0
    iexact Hg
  isplitl [Ho]; · iexact Ho
  isplitl [H0]; · iexact H0
  isplitl [H1]; · iexact H1
  iexists _; iexact H2

set_option maxHeartbeats 4800000 in
/-- A middle tile. The row comes in at what the tile before left and goes out with this tile's sums added; the output
    block passes through untouched. -/
theorem sound_body_B (c : Dev nD) (t : Fin cfg0.N) (h0 : ¬t.val % 4 = 0) (h1 : ¬t.val % 4 = 3) :
    bodyPre m c t ⊢ wp frame (wpE (defs₀ (F := F)) Variants.none c none) Set.univ (bodyAt0 t) (fun _ => bodyPost m c t) := by
  have hz : t.val ≠ 0 := fun h => h0 (by rw [h])
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2_B m c t h0 h1]
  rw [outsAt0_B m c t h0 h1]
  unfold sout0_B_0; (try dsimp only)
  rw [PhiS_castSucc m c t, PhiS_pos m c _ _ hz]
  iintro ⟨⟨HS0, Hg⟩, Ho, ⟨%d0, H0⟩, ⟨%d1, H1⟩, ⟨%d2, H2⟩⟩
  iapply ((kernelRun0_B c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) _).2.2 _ Set.univ _)
  isplitl [H0]; · iexact H0
  isplitl [H1]; · iexact H1
  isplitl [H2]; · iexact H2
  isplitl [HS0]; · iexact HS0
  iintro ⟨H0, H1, H2, HS0⟩
  isplitl [HS0 Hg]
  · isplitl [HS0]
    · iapply (owns_of_pieces c _ _ _ (scover0_B_0 c _ _ _ _ _ _ _ _ _ _ _ _ _ _))
      iexact HS0
    iexact Hg
  isplitl [Ho]; · iexact Ho
  isplitl [H0]; · iexact H0
  isplitl [H1]; · iexact H1
  iexists _; iexact H2

set_option maxHeartbeats 4800000 in
/-- The last tile of a sample. As a middle tile for the row; the output block, taken at anything, is stored whole and ends
    at the finished row. -/
theorem sound_body_C (c : Dev nD) (t : Fin cfg0.N) (h0 : ¬t.val % 4 = 0) (h1 : t.val % 4 = 3) :
    bodyPre m c t ⊢ wp frame (wpE (defs₀ (F := F)) Variants.none c none) Set.univ (bodyAt0 t) (fun _ => bodyPost m c t) := by
  have hz : t.val ≠ 0 := fun h => h0 (by rw [h])
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2_C m c t h0 h1]
  rw [outsAt0_C m c t h0 h1]
  unfold out0_C_2 sout0_C_0; (try dsimp only)
  rw [PhiS_castSucc m c t, PhiS_pos m c _ _ hz]
  iintro ⟨⟨HS0, Hg⟩, Ho, ⟨%d0, H0⟩, ⟨%d1, H1⟩, ⟨%d2, H2⟩⟩
  iapply ((kernelRun0_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) _).2.2 Set.univ _)
  isplitl [H0]; · iexact H0
  isplitl [H1]; · iexact H1
  isplitl [H2]; · iexists _; iexact H2
  isplitl [HS0]; · iexact HS0
  iintro ⟨H0, H1, H2, HS0⟩
  isplitl [HS0 Hg]
  · isplitl [HS0]
    · iapply (owns_of_pieces c _ _ _ (scover0_C_0 c _ _ _ _ _ _ _ _ _ _ _ _ _ _))
      iexact HS0
    iexact Hg
  isplitl [Ho]; · iexact Ho
  isplitl [H0]; · iexact H0
  isplitl [H1]; · iexact H1
  iapply (owns_of_pieces c _ _ _ (cover0_C_2 c _ _ _ _ _ _ _ _ _ _ _ _ _ _))
  iexact H2

/-- The body at any point: the position modulo four says which kind of point it is (64 points, four tiles a sample). -/
theorem sound_body (c : Dev nD) (t : Fin cfg0.N) :
    bodyPre m c t ⊢ wp frame (wpE (defs₀ (F := F)) Variants.none c none) Set.univ (bodyAt0 t) (fun _ => bodyPost m c t) := by
  have hN : t.val < 64 := lt_of_lt_of_eq t.isLt (show cfg0.N = 64 from N_0)
  by_cases h0 : t.val % 4 = 0
  · exact sound_body_A m c t h0 (by omega)
  · by_cases h1 : t.val % 4 = 3
    · exact sound_body_C m c t h0 h1
    · exact sound_body_B m c t h0 h1

/-- The library's body obligation, at every point: its two conjunctions over the windows, written out. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the launch's form back: the row's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiA0_eq]
  exact PhiS_any m c _ _

/-- The same after the last point. -/
theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option maxHeartbeats 4000000 in
set_option backward.isDefEq.respectTransparency.types false in
/-- At the compiled mesh, for any values, from any memory with zero counters: every weakly fair execution of the program on
    the TensorCores terminates, and in every final state each array of the pipeline holds what the proof data say and
    every other unscoped buffer what the 82 host operations after the region leave in it. -/
theorem run_main : θ_run defs (onTc (τ := τ) (main (F := F))) (s₀ m ρ) (Pipeline.FramePost cfgs (dats m) 0 (Pipeline.afterTail₀ cfgs (dats m) 0 (V0 m) [hostOps1, hostOps1_1, hostOps1_2, hostOps1_3, hostOps1_4, hostOps1_5, hostOps1_6, hostOps1_7, hostOps1_8])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3, hostOps1_4, hostOps1_5, hostOps1_6, hostOps1_7, hostOps1_8])
    (hsub := sfx_sub) (hfresh := sfx_fresh) (hkeep := sfx_keeps)
    (hmain := hmain m Variants.none) (hA := A_eq m) (hin := hin m) (hout := hout m)

/-- THE FRAME: from any memory with zero counters every weakly fair execution terminates with both argument arrays
    (prediction and target) unchanged on every core. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.Spec.lean ====
/-
  The mathematics both programs compute, stated once and over no program.

  A sample is an image of 3 channels, 1024 rows and 1024 lanes, twice: the prediction and the target. A pixel is
  BACKGROUND when its three target channels are 0 and FOREGROUND when they are 255. Per sample, six statistics feed the
  loss: the masked sums of the huber term of the prediction against 0 (background) and against 255 (foreground), the two
  pixel counts, and per channel the two masked sums of the prediction itself. Each is a sum over channel, row and lane of a
  per-pixel term, and that is how it is stated here (`sBg` … `pFg`). The kernel sees a sample in four tiles of 256 rows and
  adds the tiles' statistics (`tBg` … : the same sums over one tile's rows); `row` places a tile's row in the image.
  Words are kept as bit patterns: 0, 255, 1 and 1/2 are the same patterns on both sides and are never evaluated.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The whole arrays and one tile of them. -/
abbrev SImg : Shape := ⟨4, ![16, 3, 1024, 1024]⟩
abbrev STile : Shape := ⟨4, ![1, 3, 256, 1024]⟩
abbrev S16 : Shape := ⟨1, ![16]⟩
abbrev S16x3 : Shape := ⟨2, ![16, 3]⟩
abbrev S0 : Shape := ⟨0, ![]⟩

/-- The four words of the computation, as extended reals. -/
abbrev zeroV : EReal := Ideal.ofBits .f32 0x00000000#32
abbrev v255 : EReal := Ideal.ofBits .f32 0x437F0000#32
abbrev oneV : EReal := Ideal.ofBits .f32 0x3F800000#32
abbrev halfV : EReal := Ideal.ofBits .f32 0x3F000000#32

/-- A pixel's three target channels all equal `w`: one bit. -/
def allEq (w a b c : EReal) : BitVec 1 :=
  (Ideal.cmp .oeq a w &&& Ideal.cmp .oeq b w) &&& Ideal.cmp .oeq c w

/-- The bit as a number: 1 or 0. -/
def ind (m : BitVec 1) : EReal := if m = 1#1 then 1 else 0

/-- The huber term with threshold 1: `(1/2 · x) · x` where `|x| < 1`, else `|x| - 1/2`. -/
def huber (x : EReal) : EReal :=
  Scalar.select (Ideal.cmp .olt (max x (-x)) oneV) ((halfV * x) * x) (max x (-x) - halfV)

/-- Background and foreground indicators of pixel (H, W) of sample `b`. -/
def bgAt (t : SImg.Idx → EReal) (b : Fin 16) (H W : Fin 1024) : EReal :=
  ind (allEq zeroV (t (ix4 b 0 H W)) (t (ix4 b 1 H W)) (t (ix4 b 2 H W)))
def fgAt (t : SImg.Idx → EReal) (b : Fin 16) (H W : Fin 1024) : EReal :=
  ind (allEq v255 (t (ix4 b 0 H W)) (t (ix4 b 1 H W)) (t (ix4 b 2 H W)))

/-- The six statistics of sample `b`. -/
def sBg (p t : SImg.Idx → EReal) (b : Fin 16) : EReal :=
  ∑ c : Fin 3, ∑ H : Fin 1024, ∑ W : Fin 1024, huber (p (ix4 b c H W)) * bgAt t b H W
def sFg (p t : SImg.Idx → EReal) (b : Fin 16) : EReal :=
  ∑ c : Fin 3, ∑ H : Fin 1024, ∑ W : Fin 1024, huber (p (ix4 b c H W) - v255) * fgAt t b H W
def nBg (t : SImg.Idx → EReal) (b : Fin 16) : EReal := ∑ H : Fin 1024, ∑ W : Fin 1024, bgAt t b H W
def nFg (t : SImg.Idx → EReal) (b : Fin 16) : EReal := ∑ H : Fin 1024, ∑ W : Fin 1024, fgAt t b H W
def pBg (p t : SImg.Idx → EReal) (b : Fin 16) (c : Fin 3) : EReal :=
  ∑ H : Fin 1024, ∑ W : Fin 1024, p (ix4 b c H W) * bgAt t b H W
def pFg (p t : SImg.Idx → EReal) (b : Fin 16) (c : Fin 3) : EReal :=
  ∑ H : Fin 1024, ∑ W : Fin 1024, p (ix4 b c H W) * fgAt t b H W

/-- The same over ONE TILE (a block of 256 rows): indicators and the six sums. -/
def bgT (y : STile.Idx → EReal) (r : Fin 256) (l : Fin 1024) : EReal :=
  ind (allEq zeroV (y (ix4 0 0 r l)) (y (ix4 0 1 r l)) (y (ix4 0 2 r l)))
def fgT (y : STile.Idx → EReal) (r : Fin 256) (l : Fin 1024) : EReal :=
  ind (allEq v255 (y (ix4 0 0 r l)) (y (ix4 0 1 r l)) (y (ix4 0 2 r l)))
def tSBg (x y : STile.Idx → EReal) : EReal :=
  ∑ c : Fin 3, ∑ r : Fin 256, ∑ l : Fin 1024, huber (x (ix4 0 c r l)) * bgT y r l
def tSFg (x y : STile.Idx → EReal) : EReal :=
  ∑ c : Fin 3, ∑ r : Fin 256, ∑ l : Fin 1024, huber (x (ix4 0 c r l) - v255) * fgT y r l
def tNBg (y : STile.Idx → EReal) : EReal := ∑ r : Fin 256, ∑ l : Fin 1024, bgT y r l
def tNFg (y : STile.Idx → EReal) : EReal := ∑ r : Fin 256, ∑ l : Fin 1024, fgT y r l
def tPBg (x y : STile.Idx → EReal) (c : Fin 3) : EReal := ∑ r : Fin 256, ∑ l : Fin 1024, x (ix4 0 c r l) * bgT y r l
def tPFg (x y : STile.Idx → EReal) (c : Fin 3) : EReal := ∑ r : Fin 256, ∑ l : Fin 1024, x (ix4 0 c r l) * fgT y r l

/-- The ten statistics of a tile by LANE of the kernel's 128-lane accumulator row (the order the kernel packs them in);
    the other 118 lanes are 0. -/
def tileLane (x y : STile.Idx → EReal) (j : Fin 128) : EReal :=
  if j.val = 0 then tSBg x y else if j.val = 1 then tSFg x y else if j.val = 2 then tNBg y else if j.val = 3 then tNFg y
  else if j.val = 4 then tPBg x y 0 else if j.val = 5 then tPBg x y 1 else if j.val = 6 then tPBg x y 2
  else if j.val = 7 then tPFg x y 0 else if j.val = 8 then tPFg x y 1 else if j.val = 9 then tPFg x y 2 else 0

/-- The same lanes for a whole sample. -/
def sampleLane (p t : SImg.Idx → EReal) (b : Fin 16) (j : Fin 128) : EReal :=
  if j.val = 0 then sBg p t b else if j.val = 1 then sFg p t b else if j.val = 2 then nBg t b else if j.val = 3 then nFg t b
  else if j.val = 4 then pBg p t b 0 else if j.val = 5 then pBg p t b 1 else if j.val = 6 then pBg p t b 2
  else if j.val = 7 then pFg p t b 0 else if j.val = 8 then pFg p t b 1 else if j.val = 9 then pFg p t b 2 else 0

/-- Row `r` of tile `h` is row `256 h + r` of the image. -/
def row (h : Fin 4) (r : Fin 256) : Fin 1024 := ⟨256 * h.val + r.val, by omega⟩

/-- Tile `h` of sample `b` of an image. -/
def tileOf (a : SImg.Idx → EReal) (b : Fin 16) (h : Fin 4) : STile.Idx → EReal :=
  fun y => a (ix4 b ⟨(y 1).val, (y 1).isLt⟩ (row h ⟨(y 2).val, (y 2).isLt⟩) ⟨(y 3).val, (y 3).isLt⟩)

end Cert.Spec

end
-- ==== Proof.Tile.lean ====
/-
  What one grid point stores, as pure functions of the two tiles it loads and of the accumulator row it finds.

  A point adds to the 128-lane accumulator row the ten statistics of its tile, packed into lanes 0..9 (the other 118
  lanes get 0); the first point of a sample starts from the zero row; the last copies the row out. Each function is the
  chain of the body's pure values, and is read here at an index over the extended reals: a statistic is a double sum over
  the tile's 256 rows and 1024 lanes of a per-pixel term (a lane sum, then a row sum), the per-pixel term is the huber term
  or the prediction itself times the indicator of a background or foreground pixel, and the huber statistics add the three
  channels' double sums onto a zero seed.
-/
import proofs.«145242_j47090021433737_1_alg».proof.Proof.Gen.KernelIdeal.Skeleton
import proofs.«145242_j47090021433737_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Tile

open Cert.KernelIdeal Cert.KernelIdeal.Gen Idealize.ShloMosaic Idealize.ShloMosaic.ValueIdx

section Defs
variable {F : FTy → Type} [FloatOps F]

/-- The accumulator row after a point: the tile's ten statistics packed into lanes 0..9, lanes 10..127 zero, added to the
    row before. -/
def stored (x0 x1 : Vec F S1x3x256x1024 .f32) (acc : Vec F S1x128 .f32) : FVec F S1x128 .f32 :=
  k0_pay1 (k0_pay7 x1) (k0_pay9 (k0_pay8 x1)) (k0_pay10 (k0_pay7 x1))
    (k0_pay15 (k0_pay14 (k0_pay4 x0) (k0_pay6 x1))) (k0_pay16 (k0_pay7 x1) (k0_pay11 (k0_pay4 x0)))
    (k0_pay21 (k0_pay20 (k0_pay4 x0) (k0_pay6 x1))) (k0_pay22 (k0_pay7 x1) (k0_pay17 (k0_pay4 x0)))
    (k0_pay23 (k0_pay4 x0))
    (k0_pay24 (k0_pay4 x0) (k0_pay6 x1) (k0_pay18 (k0_pay4 x0) (k0_pay6 x1) (k0_pay12 (k0_pay4 x0) (k0_pay6 x1))))
    (k0_pay25 (k0_pay4 x0) (k0_pay7 x1) (k0_pay19 (k0_pay4 x0) (k0_pay7 x1) (k0_pay13 (k0_pay4 x0) (k0_pay7 x1))))
    (k0_pay26 (k0_pay4 x0) (k0_pay6 x1)) acc

/-- The row a sample's first point starts from: zero in every lane. -/
def zeroRow : FVec F S1x128 .f32 := k0_pay3

/-- The output block a sample's last point writes: the accumulator row under one more unit axis. -/
def copied (acc : Vec F S1x128 .f32) : FVec F S1x1x128 .f32 := k0_pay2 acc

end Defs

/-! ## The zero row and the copy, at an index -/

theorem zeroRow_apply (i : S1x128.Idx) : zeroRow (F := Ideal) i = 0 := by
  unfold zeroRow k0_pay3
  rw [shapeCast_self]
  exact Ideal.ofBits_zero_f32

theorem copied_apply (acc : Vec Ideal S1x128 .f32) (j : Fin 128) :
    copied (F := Ideal) acc (ix3 0 0 j) = acc (ix2 0 j) := by
  unfold copied k0_pay2
  exact shapeCast_ab_1ab_apply (a := 1) (b := 128) acc _ 0 0 j

/-! ## A tile's double sum

A statistic of a [256,1024] vector is its sum along the lanes of each row, then the sum of the 256 row values; the
accumulator word of each reduction is the neutral zero, so nothing is added to the sums. -/

section Sums
variable {F : FTy → Type} [FloatOps F]

/-- The sum along the lanes, one value per row. -/
def laneSum (X : FVec F S256x1024 .f32) : FVec F S256 .f32 :=
  multiReduction .add [1] S256 X 0x00000000#32 reduces_S256x1024_S256 (.inl rfl) rfl

/-- The sum of the 256 row values, as a [1,1] vector. -/
def rowSum (v : FVec F S256 .f32) : FVec F S1x1 .f32 :=
  shapeCast S1x1
    (multiReduction .add [0] S1 (shapeCast S256x1 v shapeCasts_S256_S256x1) 0x00000000#32 reduces_S256x1_S1 (.inl rfl) rfl)
    shapeCasts_S1_S1x1

end Sums

/-- The lane sum of row `r` is the sum over the 1024 lanes. -/
theorem laneSum_apply (X : FVec Ideal S256x1024 .f32) (r : Fin 256) :
    laneSum X (ix1 r) = ∑ l : Fin 1024, X (ix2 r l) := by
  unfold laneSum
  refine (Ideal.multiReduction_add_single X _ reduces_S256x1024_S256 _ _ (ix1 r)).trans ?_
  show ∑ l : Fin 1024, X (reduces_S256x1024_S256.lift (ix1 r) l) = _
  refine Finset.sum_congr rfl fun l _ => congrArg X ?_
  funext a
  match a with
  | ⟨0, _⟩ => exact Fin.ext rfl
  | ⟨1, _⟩ => exact Fin.ext rfl

/-- The row sum is the sum over the 256 rows: a [256] column seen as [256,1] keeps row `r` at `(r, 0)`. -/
theorem rowSum_apply (v : FVec Ideal S256 .f32) : rowSum v (ix2 0 0) = ∑ r : Fin 256, v (ix1 r) := by
  unfold rowSum
  refine (shapeCast_a_1a_apply (a := 1) _ shapeCasts_S1_S1x1 0 0).trans ?_
  refine (Ideal.multiReduction_add_single _ _ reduces_S256x1_S1 _ _ (ix1 0)).trans ?_
  show ∑ r : Fin 256, shapeCast S256x1 v shapeCasts_S256_S256x1 (reduces_S256x1_S1.lift (ix1 0) r) = _
  refine Finset.sum_congr rfl fun r _ => ?_
  refine shapeCast_apply v _ _ (ix1 r) ?_
  rw [Shape.rowMajor_val_one, Shape.rowMajor_val_two]
  show r.val = r.val * 1 + 0
  omega

/-- A statistic: the double sum over rows and lanes of the product of two [256,1024] vectors, term by term. -/
theorem stat_apply (A B : FVec Ideal S256x1024 .f32) (f : Fin 256 → Fin 1024 → EReal)
    (h : ∀ r l, A (ix2 r l) * B (ix2 r l) = f r l) :
    rowSum (laneSum (mulf A B)) (ix2 0 0) = ∑ r : Fin 256, ∑ l : Fin 1024, f r l := by
  rw [rowSum_apply]
  refine Finset.sum_congr rfl fun r _ => ?_
  rw [laneSum_apply]
  exact Finset.sum_congr rfl fun l _ => h r l

/-! ## A channel of a block

The block [1,3,256,1024] is seen as [3,256,1024], channel `c` is cut out as [1,256,1024] and seen as [256,1024]: at
`(r, l)` that is the block at `(0, c, r, l)`. -/

section Layout
variable {α : Type}

theorem chan_apply (x : S1x3x256x1024.Idx → α) (o : Nat) (hs : S3x256x1024.Slices ![o, 0, 0] S1x256x1024)
    (c : Fin 3) (hc : c.val = o) (r : Fin 256) (l : Fin 1024) :
    shapeCast S256x1024
        (extractStridedSlice S1x256x1024 ![o, 0, 0] (shapeCast S3x256x1024 x shapeCasts_S1x3x256x1024_S3x256x1024) hs)
        shapeCasts_S1x256x1024_S256x1024 (ix2 r l)
      = x (ix4 0 c r l) := by
  refine (shapeCast_1ab_ab_apply (a := 256) (b := 1024) _ _ r l).trans ?_
  refine (extractStridedSlice_apply _ _ hs _ (ix3 c r l) (fun ax => ?_)).trans ?_
  · match ax with
    | ⟨0, _⟩ => show c.val = o + 0; omega
    | ⟨1, _⟩ => show r.val = 0 + r.val; omega
    | ⟨2, _⟩ => show l.val = 0 + l.val; omega
  · exact shapeCast_1abc_abc_apply (m := 3) (a := 256) (b := 1024) x _ c r l

end Layout

/-- The three channels of the prediction tile. -/
theorem pred0_apply (x0 : Vec Ideal S1x3x256x1024 .f32) (r : Fin 256) (l : Fin 1024) :
    k0_pay11 (k0_pay4 (F := Ideal) x0) (ix2 r l) = x0 (ix4 0 0 r l) :=
  chan_apply x0 0 _ 0 rfl r l
theorem pred1_apply (x0 : Vec Ideal S1x3x256x1024 .f32) (r : Fin 256) (l : Fin 1024) :
    k0_pay17 (k0_pay4 (F := Ideal) x0) (ix2 r l) = x0 (ix4 0 1 r l) :=
  chan_apply x0 1 _ 1 rfl r l
theorem pred2_apply (x0 : Vec Ideal S1x3x256x1024 .f32) (r : Fin 256) (l : Fin 1024) :
    k0_pay23 (k0_pay4 (F := Ideal) x0) (ix2 r l) = x0 (ix4 0 2 r l) :=
  chan_apply x0 2 _ 2 rfl r l

/-! ## The masks

A pixel's mask bit is the conjunction of the three target channels' comparisons with the word; widened to 32 bits and
converted, it is the number 1 or 0. -/

/-- A one-bit word widened and read as a signed integer is 1 or 0. -/
theorem sitofp_extui_bit (m : BitVec 1) : FloatOps.sitofp (F := Ideal) .f32 (m.setWidth 32) = Spec.ind m := by
  show (((m.setWidth 32).toInt : ℝ) : EReal) = Spec.ind m
  unfold Spec.ind
  by_cases h : m = 1#1
  · subst h
    have e : ((1#1 : BitVec 1).setWidth 32).toInt = 1 := by decide
    rw [if_pos rfl, e]; simp
  · have h0 := eq_zero_of_ne_one h
    subst h0
    have e : ((0#1 : BitVec 1).setWidth 32).toInt = 0 := by decide
    rw [if_neg (by decide), e]; simp

/-- The three channels of the target tile, as the masks read them. -/
theorem tgt0_apply (x1 : Vec Ideal S1x3x256x1024 .f32) (r : Fin 256) (l : Fin 1024) :
    shapeCast S256x1024 (extractStridedSlice S1x256x1024 ![0, 0, 0] (k0_pay5 (F := Ideal) x1)
      slices_S3x256x1024_o0_0_0_S1x256x1024) shapeCasts_S1x256x1024_S256x1024 (ix2 r l) = x1 (ix4 0 0 r l) :=
  chan_apply x1 0 _ 0 rfl r l
theorem tgt1_apply (x1 : Vec Ideal S1x3x256x1024 .f32) (r : Fin 256) (l : Fin 1024) :
    shapeCast S256x1024 (extractStridedSlice S1x256x1024 ![1, 0, 0] (k0_pay5 (F := Ideal) x1)
      slices_S3x256x1024_o1_0_0_S1x256x1024) shapeCasts_S1x256x1024_S256x1024 (ix2 r l) = x1 (ix4 0 1 r l) :=
  chan_apply x1 1 _ 1 rfl r l
theorem tgt2_apply (x1 : Vec Ideal S1x3x256x1024 .f32) (r : Fin 256) (l : Fin 1024) :
    shapeCast S256x1024 (extractStridedSlice S1x256x1024 ![2, 0, 0] (k0_pay5 (F := Ideal) x1)
      slices_S3x256x1024_o2_0_0_S1x256x1024) shapeCasts_S1x256x1024_S256x1024 (ix2 r l) = x1 (ix4 0 2 r l) :=
  chan_apply x1 2 _ 2 rfl r l

/-- The background mask as a number: the indicator of "all three target channels are 0". -/
theorem bg_apply (x1 : Vec Ideal S1x3x256x1024 .f32) (r : Fin 256) (l : Fin 1024) :
    k0_pay6 (F := Ideal) x1 (ix2 r l) = Spec.bgT x1 r l := by
  refine (sitofp_extui_bit _).trans ?_
  unfold Spec.bgT
  rw [← tgt0_apply x1 r l, ← tgt1_apply x1 r l, ← tgt2_apply x1 r l]
  rfl

/-- The foreground mask as a number: the indicator of "all three target channels are 255". -/
theorem fg_apply (x1 : Vec Ideal S1x3x256x1024 .f32) (r : Fin 256) (l : Fin 1024) :
    k0_pay7 (F := Ideal) x1 (ix2 r l) = Spec.fgT x1 r l := by
  refine (sitofp_extui_bit _).trans ?_
  unfold Spec.fgT
  rw [← tgt0_apply x1 r l, ← tgt1_apply x1 r l, ← tgt2_apply x1 r l]
  rfl

/-! ## The huber term of a vector -/

section Huber
variable {F : FTy → Type} [FloatOps F]

/-- `(1/2 · x) · x` where `|x| < 1`, else `|x| - 1/2`, at every pixel. -/
def huberVec (X : FVec F S256x1024 .f32) : FVec F S256x1024 .f32 :=
  select (cmpf .olt (absf X) (broadcast S256x1024 (Scalar.ofBits .f32 0x3F800000#32)))
    (mulf (mulf (broadcast S256x1024 (Scalar.ofBits .f32 0x3F000000#32)) X) X)
    (subf (absf X) (broadcast S256x1024 (Scalar.ofBits .f32 0x3F000000#32)))

/-- The vector less 255 at every pixel. -/
def less255 (X : FVec F S256x1024 .f32) : FVec F S256x1024 .f32 :=
  subf X (broadcast S256x1024 (Scalar.ofBits .f32 0x437F0000#32))

end Huber

theorem huberVec_apply (X : FVec Ideal S256x1024 .f32) (i : S256x1024.Idx) : huberVec X i = Spec.huber (X i) := rfl

theorem less255_apply (X : FVec Ideal S256x1024 .f32) (i : S256x1024.Idx) : less255 X i = X i - Spec.v255 := rfl

/-! ## The ten statistics of a tile

Each is a double sum of a per-pixel product, read term by term: a channel of the prediction (or its huber term, against 0
or against 255) times a mask. The two huber statistics add the three channels' double sums onto a zero seed. -/

section Stats
variable (x0 x1 : Vec Ideal S1x3x256x1024 .f32)

/-- The background pixel count. -/
theorem nBg_apply : k0_pay9 (k0_pay8 (F := Ideal) x1) (ix2 0 0) = Spec.tNBg x1 := by
  show rowSum (laneSum (k0_pay6 (F := Ideal) x1)) (ix2 0 0) = _
  rw [rowSum_apply]
  refine Finset.sum_congr rfl fun r _ => ?_
  rw [laneSum_apply]
  exact Finset.sum_congr rfl fun l _ => bg_apply x1 r l

/-- The foreground pixel count. -/
theorem nFg_apply : k0_pay10 (k0_pay7 (F := Ideal) x1) (ix2 0 0) = Spec.tNFg x1 := by
  show rowSum (laneSum (k0_pay7 (F := Ideal) x1)) (ix2 0 0) = _
  rw [rowSum_apply]
  refine Finset.sum_congr rfl fun r _ => ?_
  rw [laneSum_apply]
  exact Finset.sum_congr rfl fun l _ => fg_apply x1 r l

/-- The background sums of the prediction's channels. -/
theorem pBg0_apply :
    k0_pay15 (k0_pay14 (k0_pay4 (F := Ideal) x0) (k0_pay6 x1)) (ix2 0 0) = Spec.tPBg x0 x1 0 :=
  stat_apply (k0_pay11 (k0_pay4 (F := Ideal) x0)) (k0_pay6 x1) (fun r l => x0 (ix4 0 0 r l) * Spec.bgT x1 r l)
    fun r l => by rw [pred0_apply, bg_apply]
theorem pBg1_apply :
    k0_pay21 (k0_pay20 (k0_pay4 (F := Ideal) x0) (k0_pay6 x1)) (ix2 0 0) = Spec.tPBg x0 x1 1 :=
  stat_apply (k0_pay17 (k0_pay4 (F := Ideal) x0)) (k0_pay6 x1) (fun r l => x0 (ix4 0 1 r l) * Spec.bgT x1 r l)
    fun r l => by rw [pred1_apply, bg_apply]
theorem pBg2_apply :
    rowSum (k0_pay26 (k0_pay4 (F := Ideal) x0) (k0_pay6 x1)) (ix2 0 0) = Spec.tPBg x0 x1 2 :=
  stat_apply (k0_pay23 (k0_pay4 (F := Ideal) x0)) (k0_pay6 x1) (fun r l => x0 (ix4 0 2 r l) * Spec.bgT x1 r l)
    fun r l => by rw [pred2_apply, bg_apply]

/-- The foreground sums of the prediction's channels. -/
theorem pFg0_apply :
    k0_pay16 (k0_pay7 (F := Ideal) x1) (k0_pay11 (k0_pay4 x0)) (ix2 0 0) = Spec.tPFg x0 x1 0 :=
  stat_apply (k0_pay11 (k0_pay4 (F := Ideal) x0)) (k0_pay7 x1) (fun r l => x0 (ix4 0 0 r l) * Spec.fgT x1 r l)
    fun r l => by rw [pred0_apply, fg_apply]
theorem pFg1_apply :
    k0_pay22 (k0_pay7 (F := Ideal) x1) (k0_pay17 (k0_pay4 x0)) (ix2 0 0) = Spec.tPFg x0 x1 1 :=
  stat_apply (k0_pay17 (k0_pay4 (F := Ideal) x0)) (k0_pay7 x1) (fun r l => x0 (ix4 0 1 r l) * Spec.fgT x1 r l)
    fun r l => by rw [pred1_apply, fg_apply]
theorem pFg2_apply :
    rowSum (laneSum (mulf (k0_pay23 (k0_pay4 (F := Ideal) x0)) (k0_pay7 x1))) (ix2 0 0) = Spec.tPFg x0 x1 2 :=
  stat_apply (k0_pay23 (k0_pay4 (F := Ideal) x0)) (k0_pay7 x1) (fun r l => x0 (ix4 0 2 r l) * Spec.fgT x1 r l)
    fun r l => by rw [pred2_apply, fg_apply]

/-- The background huber statistic: the zero seed plus the three channels' double sums. -/
theorem sBg_apply :
    k0_pay24 (k0_pay4 (F := Ideal) x0) (k0_pay6 x1)
        (k0_pay18 (k0_pay4 x0) (k0_pay6 x1) (k0_pay12 (k0_pay4 x0) (k0_pay6 x1))) (ix2 0 0)
      = Spec.tSBg x0 x1 := by
  have e0 := stat_apply (huberVec (k0_pay11 (k0_pay4 (F := Ideal) x0))) (k0_pay6 x1)
    (fun r l => Spec.huber (x0 (ix4 0 0 r l)) * Spec.bgT x1 r l) fun r l => by rw [huberVec_apply, pred0_apply, bg_apply]
  have e1 := stat_apply (huberVec (k0_pay17 (k0_pay4 (F := Ideal) x0))) (k0_pay6 x1)
    (fun r l => Spec.huber (x0 (ix4 0 1 r l)) * Spec.bgT x1 r l) fun r l => by rw [huberVec_apply, pred1_apply, bg_apply]
  have e2 := stat_apply (huberVec (k0_pay23 (k0_pay4 (F := Ideal) x0))) (k0_pay6 x1)
    (fun r l => Spec.huber (x0 (ix4 0 2 r l)) * Spec.bgT x1 r l) fun r l => by rw [huberVec_apply, pred2_apply, bg_apply]
  show ((Ideal.ofBits .f32 0x00000000#32
        + rowSum (laneSum (mulf (huberVec (k0_pay11 (k0_pay4 (F := Ideal) x0))) (k0_pay6 x1))) (ix2 0 0))
        + rowSum (laneSum (mulf (huberVec (k0_pay17 (k0_pay4 (F := Ideal) x0))) (k0_pay6 x1))) (ix2 0 0))
        + rowSum (laneSum (mulf (huberVec (k0_pay23 (k0_pay4 (F := Ideal) x0))) (k0_pay6 x1))) (ix2 0 0) = _
  rw [e0, e1, e2, Ideal.ofBits_zero_f32, zero_add]
  unfold Spec.tSBg
  rw [Fin.sum_univ_three]

/-- The foreground huber statistic, of the prediction less 255. -/
theorem sFg_apply :
    k0_pay25 (k0_pay4 (F := Ideal) x0) (k0_pay7 x1)
        (k0_pay19 (k0_pay4 x0) (k0_pay7 x1) (k0_pay13 (k0_pay4 x0) (k0_pay7 x1))) (ix2 0 0)
      = Spec.tSFg x0 x1 := by
  have e0 := stat_apply (huberVec (less255 (k0_pay11 (k0_pay4 (F := Ideal) x0)))) (k0_pay7 x1)
    (fun r l => Spec.huber (x0 (ix4 0 0 r l) - Spec.v255) * Spec.fgT x1 r l)
    fun r l => by rw [huberVec_apply, less255_apply, pred0_apply, fg_apply]
  have e1 := stat_apply (huberVec (less255 (k0_pay17 (k0_pay4 (F := Ideal) x0)))) (k0_pay7 x1)
    (fun r l => Spec.huber (x0 (ix4 0 1 r l) - Spec.v255) * Spec.fgT x1 r l)
    fun r l => by rw [huberVec_apply, less255_apply, pred1_apply, fg_apply]
  have e2 := stat_apply (huberVec (less255 (k0_pay23 (k0_pay4 (F := Ideal) x0)))) (k0_pay7 x1)
    (fun r l => Spec.huber (x0 (ix4 0 2 r l) - Spec.v255) * Spec.fgT x1 r l)
    fun r l => by rw [huberVec_apply, less255_apply, pred2_apply, fg_apply]
  show ((Ideal.ofBits .f32 0x00000000#32
        + rowSum (laneSum (mulf (huberVec (less255 (k0_pay11 (k0_pay4 (F := Ideal) x0)))) (k0_pay7 x1))) (ix2 0 0))
        + rowSum (laneSum (mulf (huberVec (less255 (k0_pay17 (k0_pay4 (F := Ideal) x0)))) (k0_pay7 x1))) (ix2 0 0))
        + rowSum (laneSum (mulf (huberVec (less255 (k0_pay23 (k0_pay4 (F := Ideal) x0)))) (k0_pay7 x1))) (ix2 0 0) = _
  rw [e0, e1, e2, Ideal.ofBits_zero_f32, zero_add]
  unfold Spec.tSFg
  rw [Fin.sum_univ_three]

end Stats

/-! ## The packed row

Ten [1,1] pieces laid along the lanes make a [1,10] row, piece `k` at lane `k`; that row and 118 zeros make the
[1,128] row, which is added to the accumulator. -/

section Cat
variable {α : Type}

/-- A concatenation into [1,10] along the lanes whose `k`-th piece is a [1,1] vector `p`, all the pieces before it of
    one lane each: lane `k` reads `p`. -/
theorem cat10_at (xs : List ((s : Shape) × (s.Idx → α))) (h : Shape.Concatenates (xs.map (·.1)) S1x10 1)
    (k : Nat) (hk : k < xs.length) (hk10 : k < 10) (p : S1x1.Idx → α) (hxk : xs[k] = ⟨S1x1, p⟩)
    (hpre : (((xs.take k).map (·.1)).map fun s =>
      if h : s.rank = S1x10.rank then s.size ((1 : Fin S1x10.rank).cast h.symm) else 0).sum = k) :
    concatenate S1x10 1 xs h (ix2 0 ⟨k, hk10⟩) = p (ix2 0 0) :=
  concatenate_apply_piece 1 xs h _ k hk S1x1 p hxk rfl k hpre (ix2 0 0)
    (fun b hb => by
      match b with
      | ⟨0, _⟩ => rfl
      | ⟨1, _⟩ => exact absurd (Fin.ext rfl) hb)
    (by show k + 0 = k; omega)

/-- The [1,10] row followed by a [1,118] row: a lane below 10 reads the first. -/
theorem cat128_lo (u : S1x10.Idx → α) (w : S1x118.Idx → α) (h : Shape.Concatenates [S1x10, S1x118] S1x128 1)
    (j : Fin 128) (hj : j.val < 10) :
    concatenate S1x128 1 [⟨S1x10, u⟩, ⟨S1x118, w⟩] h (ix2 0 j) = u (ix2 0 ⟨j.val, hj⟩) :=
  concatenate_pair_apply_left 1 u w h _ rfl _ (fun b => by
    match b with
    | ⟨0, _⟩ => rfl
    | ⟨1, _⟩ => rfl)

/-- … and a lane from 10 on reads the second, ten lanes back. -/
theorem cat128_hi (u : S1x10.Idx → α) (w : S1x118.Idx → α) (h : Shape.Concatenates [S1x10, S1x118] S1x128 1)
    (j : Fin 128) (hj : 10 ≤ j.val) :
    concatenate S1x128 1 [⟨S1x10, u⟩, ⟨S1x118, w⟩] h (ix2 0 j) = w (ix2 0 ⟨j.val - 10, by omega⟩) :=
  concatenate_pair_apply_right 1 u w h _ rfl rfl _
    (fun b hb => by
      match b with
      | ⟨0, _⟩ => rfl
      | ⟨1, _⟩ => exact absurd (Fin.ext rfl) hb)
    (by show (j.val - 10) + 10 = j.val; omega)

end Cat

/-- The packed row added to the accumulator, lane by lane: lane `k < 10` gets piece `k`'s one value, the others 0. -/
theorem pack_apply (p0 p1 p2 p3 p4 p5 p6 p7 p8 p9 : FVec Ideal S1x1 .f32) (acc : Vec Ideal S1x128 .f32)
    (t : Fin 128 → EReal)
    (h0 : p0 (ix2 0 0) = t ⟨0, by decide⟩) (h1 : p1 (ix2 0 0) = t ⟨1, by decide⟩) (h2 : p2 (ix2 0 0) = t ⟨2, by decide⟩)
    (h3 : p3 (ix2 0 0) = t ⟨3, by decide⟩) (h4 : p4 (ix2 0 0) = t ⟨4, by decide⟩) (h5 : p5 (ix2 0 0) = t ⟨5, by decide⟩)
    (h6 : p6 (ix2 0 0) = t ⟨6, by decide⟩) (h7 : p7 (ix2 0 0) = t ⟨7, by decide⟩) (h8 : p8 (ix2 0 0) = t ⟨8, by decide⟩)
    (h9 : p9 (ix2 0 0) = t ⟨9, by decide⟩) (hhi : ∀ j : Fin 128, 10 ≤ j.val → t j = 0) (j : Fin 128) :
    shapeCast S1x128
        (addf acc
          (concatenate S1x128 1
            [⟨S1x10, concatenate S1x10 1
                [⟨S1x1, p0⟩, ⟨S1x1, p1⟩, ⟨S1x1, p2⟩, ⟨S1x1, p3⟩, ⟨S1x1, p4⟩, ⟨S1x1, p5⟩, ⟨S1x1, p6⟩, ⟨S1x1, p7⟩,
                  ⟨S1x1, p8⟩, ⟨S1x1, p9⟩]
                concatenates_S1x1_S1x1_S1x1_S1x1_S1x1_S1x1_S1x1_S1x1_S1x1_S1x1_S1x10_d1⟩,
              ⟨S1x118, broadcast S1x118 (Scalar.ofBits (F := Ideal) .f32 0x00000000#32)⟩]
            concatenates_S1x10_S1x118_S1x128_d1))
        shapeCasts_S1x128_S1x128 (ix2 0 j)
      = acc (ix2 0 j) + t j := by
  rw [shapeCast_self]
  refine (addf_apply _ _ _).trans (congrArg (acc (ix2 0 j) + ·) ?_)
  by_cases hj : j.val < 10
  · refine (cat128_lo _ _ _ j hj).trans ?_
    obtain ⟨n, hn⟩ := j
    match n, hn, hj with
    | 0, _, _ => exact (cat10_at _ _ 0 (by show (0 : Nat) < 10; omega) (by omega) p0 rfl rfl).trans h0
    | 1, _, _ => exact (cat10_at _ _ 1 (by show (1 : Nat) < 10; omega) (by omega) p1 rfl rfl).trans h1
    | 2, _, _ => exact (cat10_at _ _ 2 (by show (2 : Nat) < 10; omega) (by omega) p2 rfl rfl).trans h2
    | 3, _, _ => exact (cat10_at _ _ 3 (by show (3 : Nat) < 10; omega) (by omega) p3 rfl rfl).trans h3
    | 4, _, _ => exact (cat10_at _ _ 4 (by show (4 : Nat) < 10; omega) (by omega) p4 rfl rfl).trans h4
    | 5, _, _ => exact (cat10_at _ _ 5 (by show (5 : Nat) < 10; omega) (by omega) p5 rfl rfl).trans h5
    | 6, _, _ => exact (cat10_at _ _ 6 (by show (6 : Nat) < 10; omega) (by omega) p6 rfl rfl).trans h6
    | 7, _, _ => exact (cat10_at _ _ 7 (by show (7 : Nat) < 10; omega) (by omega) p7 rfl rfl).trans h7
    | 8, _, _ => exact (cat10_at _ _ 8 (by show (8 : Nat) < 10; omega) (by omega) p8 rfl rfl).trans h8
    | 9, _, _ => exact (cat10_at _ _ 9 (by show (9 : Nat) < 10; omega) (by omega) p9 rfl rfl).trans h9
    | n + 10, _, hj => exact absurd hj (by show ¬ n + 10 < 10; omega)
  · have hj' : 10 ≤ j.val := Nat.le_of_not_lt hj
    refine (cat128_hi _ _ _ j hj').trans ?_
    rw [hhi j hj']
    exact Ideal.ofBits_zero_f32

/-! ## What a point stores, at a lane -/

theorem stored_apply (x0 x1 : Vec Ideal S1x3x256x1024 .f32) (acc : Vec Ideal S1x128 .f32) (j : Fin 128) :
    stored (F := Ideal) x0 x1 acc (ix2 0 j) = acc (ix2 0 j) + Cert.Spec.tileLane x0 x1 j :=
  pack_apply
    (k0_pay24 (k0_pay4 (F := Ideal) x0) (k0_pay6 x1)
      (k0_pay18 (k0_pay4 x0) (k0_pay6 x1) (k0_pay12 (k0_pay4 x0) (k0_pay6 x1))))
    (k0_pay25 (k0_pay4 (F := Ideal) x0) (k0_pay7 x1)
      (k0_pay19 (k0_pay4 x0) (k0_pay7 x1) (k0_pay13 (k0_pay4 x0) (k0_pay7 x1))))
    (k0_pay9 (k0_pay8 (F := Ideal) x1)) (k0_pay10 (k0_pay7 (F := Ideal) x1))
    (k0_pay15 (k0_pay14 (k0_pay4 (F := Ideal) x0) (k0_pay6 x1)))
    (k0_pay21 (k0_pay20 (k0_pay4 (F := Ideal) x0) (k0_pay6 x1)))
    (rowSum (k0_pay26 (k0_pay4 (F := Ideal) x0) (k0_pay6 x1)))
    (k0_pay16 (k0_pay7 (F := Ideal) x1) (k0_pay11 (k0_pay4 x0)))
    (k0_pay22 (k0_pay7 (F := Ideal) x1) (k0_pay17 (k0_pay4 x0)))
    (rowSum (laneSum (mulf (k0_pay23 (k0_pay4 (F := Ideal) x0)) (k0_pay7 x1))))
    acc (Cert.Spec.tileLane x0 x1)
    (sBg_apply x0 x1) (sFg_apply x0 x1) (nBg_apply x1) (nFg_apply x1)
    (pBg0_apply x0 x1) (pBg1_apply x0 x1) (pBg2_apply x0 x1)
    (pFg0_apply x0 x1) (pFg1_apply x0 x1) (pFg2_apply x0 x1)
    (fun j hj => by
      unfold Cert.Spec.tileLane
      rw [if_neg (by omega), if_neg (by omega), if_neg (by omega), if_neg (by omega), if_neg (by omega),
        if_neg (by omega), if_neg (by omega), if_neg (by omega), if_neg (by omega), if_neg (by omega)])
    j

end Cert.KernelIdeal.Tile

end
-- ==== Proof.Sums.lean ====
/-
  Finite sums regrouped, over no program.

  A sample's statistic is a sum over channel, row and lane; a tile's is the same sum over its 256 rows. The image's 1024
  rows are the four tiles' rows, row 256 h + r being row r of tile h, so a sum over the rows is the sum over the tiles of
  the sums over each tile's rows; sums may be exchanged and re-indexed freely (the extended reals are a commutative
  monoid under addition: no finiteness is needed). So each of a sample's six statistics is the sum of its four tiles',
  and lane by lane the sample's row is the sum of the tiles' rows. Last, a whole-image reduction over some axes sums the
  indices that agree with the result index on the kept axes: re-indexed by the remaining coordinates it is an iterated
  sum over them.
-/
import proofs.«145242_j47090021433737_1_alg».proof.Proof.Spec
import Idealize.ShloMosaic.PureOps.Reduce
import Mathlib.Algebra.BigOperators.Fin
import Mathlib.Data.Fintype.BigOperators

noncomputable section

open scoped BigOperators

namespace Cert.Spec

open Idealize.ShloMosaic Idealize.ShloMosaic.ValueIdx

/-! ## Rows of the image are the tiles' rows -/

/-- Tile and row within the tile, against the row of the image: (h, r) ↦ 256 h + r is a bijection. -/
private def rowEquiv : Fin 4 × Fin 256 ≃ Fin 1024 where
  toFun q := row q.1 q.2
  invFun H := (⟨H.val / 256, by have := H.isLt; omega⟩, ⟨H.val % 256, by omega⟩)
  left_inv q := by
    obtain ⟨h, r⟩ := q
    have := h.isLt; have := r.isLt
    exact Prod.ext (Fin.ext (by simp only [row]; omega)) (Fin.ext (by simp only [row]; omega))
  right_inv H := Fin.ext (by simp only [row]; omega)

/-- A sum over the 1024 rows is the sum over the four tiles of the sums over each tile's 256 rows. -/
theorem sum_rows {M : Type*} [AddCommMonoid M] (f : Fin 1024 → M) :
    ∑ H : Fin 1024, f H = ∑ h : Fin 4, ∑ r : Fin 256, f (row h r) := by
  rw [← Equiv.sum_comp rowEquiv f, Fintype.sum_prod_type]
  rfl

/-- The accumulator after four additions from zero is the sum of the four addends. -/
theorem acc_four (a : Fin 4 → EReal) : (((0 + a 0) + a 1) + a 2) + a 3 = ∑ h : Fin 4, a h := by
  rw [Fin.sum_univ_four, zero_add]

/-! ## A tile's element is the image's, and so are its indicators -/

/-- Element (c, r, l) of tile h of sample b is element (b, c, 256 h + r, l) of the image. -/
theorem tileOf_ix4 (a : SImg.Idx → EReal) (b : Fin 16) (h : Fin 4) (c : Fin 3) (r : Fin 256) (l : Fin 1024) :
    tileOf a b h (ix4 0 c r l) = a (ix4 b c (row h r) l) := rfl

theorem bgT_tileOf (t : SImg.Idx → EReal) (b : Fin 16) (h : Fin 4) (r : Fin 256) (l : Fin 1024) :
    bgT (tileOf t b h) r l = bgAt t b (row h r) l := rfl

theorem fgT_tileOf (t : SImg.Idx → EReal) (b : Fin 16) (h : Fin 4) (r : Fin 256) (l : Fin 1024) :
    fgT (tileOf t b h) r l = fgAt t b (row h r) l := rfl

/-- Sums over tile, channel, tile row and lane regroup to sums over channel, image row and lane: exchange the tile sum
    with the channel sum, then join tile and tile row into the image row. -/
private theorem sum_tiles3 (g : Fin 3 → Fin 1024 → Fin 1024 → EReal) :
    ∑ h : Fin 4, ∑ c : Fin 3, ∑ r : Fin 256, ∑ l : Fin 1024, g c (row h r) l
      = ∑ c : Fin 3, ∑ H : Fin 1024, ∑ W : Fin 1024, g c H W := by
  rw [Finset.sum_comm]
  exact Finset.sum_congr rfl fun c _ => (sum_rows fun H => ∑ W : Fin 1024, g c H W).symm

private theorem sum_tiles2 (g : Fin 1024 → Fin 1024 → EReal) :
    ∑ h : Fin 4, ∑ r : Fin 256, ∑ l : Fin 1024, g (row h r) l = ∑ H : Fin 1024, ∑ W : Fin 1024, g H W :=
  (sum_rows fun H => ∑ W : Fin 1024, g H W).symm

/-! ## The six statistics of a sample are the sums of its four tiles' -/

theorem sBg_tiles (p t : SImg.Idx → EReal) (b : Fin 16) :
    ∑ h : Fin 4, tSBg (tileOf p b h) (tileOf t b h) = sBg p t b :=
  sum_tiles3 fun c H W => huber (p (ix4 b c H W)) * bgAt t b H W

theorem sFg_tiles (p t : SImg.Idx → EReal) (b : Fin 16) :
    ∑ h : Fin 4, tSFg (tileOf p b h) (tileOf t b h) = sFg p t b :=
  sum_tiles3 fun c H W => huber (p (ix4 b c H W) - v255) * fgAt t b H W

theorem nBg_tiles (t : SImg.Idx → EReal) (b : Fin 16) : ∑ h : Fin 4, tNBg (tileOf t b h) = nBg t b :=
  sum_tiles2 fun H W => bgAt t b H W

theorem nFg_tiles (t : SImg.Idx → EReal) (b : Fin 16) : ∑ h : Fin 4, tNFg (tileOf t b h) = nFg t b :=
  sum_tiles2 fun H W => fgAt t b H W

theorem pBg_tiles (p t : SImg.Idx → EReal) (b : Fin 16) (c : Fin 3) :
    ∑ h : Fin 4, tPBg (tileOf p b h) (tileOf t b h) c = pBg p t b c :=
  sum_tiles2 fun H W => p (ix4 b c H W) * bgAt t b H W

theorem pFg_tiles (p t : SImg.Idx → EReal) (b : Fin 16) (c : Fin 3) :
    ∑ h : Fin 4, tPFg (tileOf p b h) (tileOf t b h) c = pFg p t b c :=
  sum_tiles2 fun H W => p (ix4 b c H W) * fgAt t b H W

/-- Lane by lane, the sample's row of statistics is the sum of its four tiles' rows. -/
theorem sampleLane_tiles (p t : SImg.Idx → EReal) (b : Fin 16) (j : Fin 128) :
    ∑ h : Fin 4, tileLane (tileOf p b h) (tileOf t b h) j = sampleLane p t b j := by
  unfold tileLane sampleLane
  by_cases h0 : j.val = 0
  · simp only [if_pos h0]; exact sBg_tiles p t b
  by_cases h1 : j.val = 1
  · simp only [if_neg h0, if_pos h1]; exact sFg_tiles p t b
  by_cases h2 : j.val = 2
  · simp only [if_neg h0, if_neg h1, if_pos h2]; exact nBg_tiles t b
  by_cases h3 : j.val = 3
  · simp only [if_neg h0, if_neg h1, if_neg h2, if_pos h3]; exact nFg_tiles t b
  by_cases h4 : j.val = 4
  · simp only [if_neg h0, if_neg h1, if_neg h2, if_neg h3, if_pos h4]; exact pBg_tiles p t b 0
  by_cases h5 : j.val = 5
  · simp only [if_neg h0, if_neg h1, if_neg h2, if_neg h3, if_neg h4, if_pos h5]; exact pBg_tiles p t b 1
  by_cases h6 : j.val = 6
  · simp only [if_neg h0, if_neg h1, if_neg h2, if_neg h3, if_neg h4, if_neg h5, if_pos h6]; exact pBg_tiles p t b 2
  by_cases h7 : j.val = 7
  · simp only [if_neg h0, if_neg h1, if_neg h2, if_neg h3, if_neg h4, if_neg h5, if_neg h6, if_pos h7]
    exact pFg_tiles p t b 0
  by_cases h8 : j.val = 8
  · simp only [if_neg h0, if_neg h1, if_neg h2, if_neg h3, if_neg h4, if_neg h5, if_neg h6, if_neg h7, if_pos h8]
    exact pFg_tiles p t b 1
  by_cases h9 : j.val = 9
  · simp only [if_neg h0, if_neg h1, if_neg h2, if_neg h3, if_neg h4, if_neg h5, if_neg h6, if_neg h7, if_neg h8,
      if_pos h9]
    exact pFg_tiles p t b 2
  · simp only [if_neg h0, if_neg h1, if_neg h2, if_neg h3, if_neg h4, if_neg h5, if_neg h6, if_neg h7, if_neg h8,
      if_neg h9]
    exact Finset.sum_const_zero

/-! ## The whole-image reductions, re-indexed by coordinates

A reduction over some axes sums, at a result index, the source indices that agree with it on the kept axes. With the
kept axis the sample (or sample and channel), those are the indices (b, c, H, W) with b (and c) fixed: the sum over them
is the iterated sum over the remaining coordinates. -/

/-- The pixel grid of all samples: the shape the reference counts pixels over. -/
abbrev SCnt : Shape := ⟨3, ![16, 1024, 1024]⟩

/-- Dropping channel, row and lane keeps the sample. -/
private theorem drop_b_iff (h : SImg.ReducesTo [1, 2, 3] S16) (i : SImg.Idx) (j : S16.Idx) :
    h.drop i = j ↔ (i 0).val = (j 0).val := by
  have hv : (h.drop i 0 : Nat) = i 0 := Shape.ReducesTo.drop_apply_val_of_eq h i 0 0
  constructor
  · intro e; rw [← e]; exact hv.symm
  · intro e; funext a
    have ha : a = 0 := Subsingleton.elim _ _
    subst ha; exact Fin.ext (hv.trans e)

/-- Dropping row and lane keeps sample and channel. -/
private theorem drop_bc_iff (h : SImg.ReducesTo [2, 3] S16x3) (i : SImg.Idx) (j : S16x3.Idx) :
    h.drop i = j ↔ (i 0).val = (j 0).val ∧ (i 1).val = (j 1).val := by
  have hv0 : (h.drop i 0 : Nat) = i 0 := Shape.ReducesTo.drop_apply_val_of_eq h i 0 0
  have hv1 : (h.drop i 1 : Nat) = i 1 := Shape.ReducesTo.drop_apply_val_of_eq h i 1 1
  constructor
  · intro e; rw [← e]; exact ⟨hv0.symm, hv1.symm⟩
  · intro e; funext a
    match a with
    | ⟨0, _⟩ => exact Fin.ext (hv0.trans e.1)
    | ⟨1, _⟩ => exact Fin.ext (hv1.trans e.2)

/-- Dropping row and lane of the pixel grid keeps the sample. -/
private theorem drop_cnt_iff (h : SCnt.ReducesTo [1, 2] S16) (i : SCnt.Idx) (j : S16.Idx) :
    h.drop i = j ↔ (i 0).val = (j 0).val := by
  have hv : (h.drop i 0 : Nat) = i 0 := Shape.ReducesTo.drop_apply_val_of_eq h i 0 0
  constructor
  · intro e; rw [← e]; exact hv.symm
  · intro e; funext a
    have ha : a = 0 := Subsingleton.elim _ _
    subst ha; exact Fin.ext (hv.trans e)

/-- Over channel, row and lane: the indices of sample j 0, summed, are the triple sum over (c, H, W). -/
theorem filter_sum_b (h : SImg.ReducesTo [1, 2, 3] S16) (x : SImg.Idx → EReal) (j : S16.Idx) :
    ∑ i ∈ Finset.univ.filter (fun i => h.drop i = j), x i
      = ∑ c : Fin 3, ∑ H : Fin 1024, ∑ W : Fin 1024, x (ix4 (j 0) c H W) := by
  have hR : ∑ c : Fin 3, ∑ H : Fin 1024, ∑ W : Fin 1024, x (ix4 (j 0) c H W)
      = ∑ q : Fin 3 × Fin 1024 × Fin 1024, x (ix4 (j 0) q.1 q.2.1 q.2.2) := by
    rw [Fintype.sum_prod_type]
    exact Finset.sum_congr rfl fun c _ =>
      (Fintype.sum_prod_type fun q : Fin 1024 × Fin 1024 => x (ix4 (j 0) c q.1 q.2)).symm
  have hback : ∀ i : SImg.Idx, (i 0).val = (j 0).val → ix4 (j 0) (i 1) (i 2) (i 3) = i := fun i e => by
    funext a
    match a with
    | ⟨0, _⟩ => exact Fin.ext e.symm
    | ⟨1, _⟩ => rfl
    | ⟨2, _⟩ => rfl
    | ⟨3, _⟩ => rfl
  rw [hR]
  refine Finset.sum_nbij' (fun i => (i 1, i 2, i 3)) (fun q => ix4 (j 0) q.1 q.2.1 q.2.2) ?_ ?_ ?_ ?_ ?_
  · intro i _; exact Finset.mem_univ _
  · intro q _; exact Finset.mem_filter.2 ⟨Finset.mem_univ _, (drop_b_iff h _ j).2 rfl⟩
  · intro i hi; exact hback i ((drop_b_iff h i j).1 (Finset.mem_filter.1 hi).2)
  · intro q _; rfl
  · intro i hi; exact (congrArg x (hback i ((drop_b_iff h i j).1 (Finset.mem_filter.1 hi).2))).symm

/-- Over row and lane: the indices of sample j 0, channel j 1, summed, are the double sum over (H, W). -/
theorem filter_sum_bc (h : SImg.ReducesTo [2, 3] S16x3) (x : SImg.Idx → EReal) (j : S16x3.Idx) :
    ∑ i ∈ Finset.univ.filter (fun i => h.drop i = j), x i
      = ∑ H : Fin 1024, ∑ W : Fin 1024, x (ix4 (j 0) (j 1) H W) := by
  have hback : ∀ i : SImg.Idx, (i 0).val = (j 0).val ∧ (i 1).val = (j 1).val → ix4 (j 0) (j 1) (i 2) (i 3) = i :=
    fun i e => by
      funext a
      match a with
      | ⟨0, _⟩ => exact Fin.ext e.1.symm
      | ⟨1, _⟩ => exact Fin.ext e.2.symm
      | ⟨2, _⟩ => rfl
      | ⟨3, _⟩ => rfl
  rw [← Fintype.sum_prod_type' (fun H W => x (ix4 (j 0) (j 1) H W))]
  refine Finset.sum_nbij' (fun i => (i 2, i 3)) (fun q => ix4 (j 0) (j 1) q.1 q.2) ?_ ?_ ?_ ?_ ?_
  · intro i _; exact Finset.mem_univ _
  · intro q _; exact Finset.mem_filter.2 ⟨Finset.mem_univ _, (drop_bc_iff h _ j).2 ⟨rfl, rfl⟩⟩
  · intro i hi; exact hback i ((drop_bc_iff h i j).1 (Finset.mem_filter.1 hi).2)
  · intro q _; rfl
  · intro i hi; exact (congrArg x (hback i ((drop_bc_iff h i j).1 (Finset.mem_filter.1 hi).2))).symm

/-- A pixel of sample b from its row and lane: one-to-one. -/
def pixelEmb (b : Fin 16) : Fin 1024 × Fin 1024 ↪ SCnt.Idx where
  toFun q := ix3 b q.1 q.2
  inj' q q' e := Prod.ext (congrFun e 1) (congrFun e 2)

/-- The pixels of sample j 0 are the image of the (row, lane) pairs. -/
theorem filter_set_cnt (h : SCnt.ReducesTo [1, 2] S16) (j : S16.Idx) :
    Finset.univ.filter (fun i : SCnt.Idx => h.drop i = j)
      = (Finset.univ : Finset (Fin 1024 × Fin 1024)).map (pixelEmb (j 0)) := by
  ext i
  simp only [Finset.mem_filter, Finset.mem_univ, true_and, Finset.mem_map]
  constructor
  · intro e
    refine ⟨(i 1, i 2), ?_⟩
    funext a
    match a with
    | ⟨0, _⟩ => exact Fin.ext ((drop_cnt_iff h i j).1 e).symm
    | ⟨1, _⟩ => rfl
    | ⟨2, _⟩ => rfl
  · rintro ⟨q, rfl⟩
    exact (drop_cnt_iff h _ j).2 rfl

/-- So there are 2^20 of them … -/
theorem filter_card_cnt (h : SCnt.ReducesTo [1, 2] S16) (j : S16.Idx) :
    (Finset.univ.filter (fun i : SCnt.Idx => h.drop i = j)).card = 2 ^ 20 := by
  rw [filter_set_cnt, Finset.card_map, Finset.card_univ, Fintype.card_prod, Fintype.card_fin]
  norm_num

/-- … and a sum over them, in any commutative monoid, is the double sum over (H, W). -/
theorem filter_sum_cnt {M : Type*} [AddCommMonoid M] (h : SCnt.ReducesTo [1, 2] S16) (f : SCnt.Idx → M) (j : S16.Idx) :
    ∑ i ∈ Finset.univ.filter (fun i => h.drop i = j), f i = ∑ H : Fin 1024, ∑ W : Fin 1024, f (ix3 (j 0) H W) := by
  rw [filter_set_cnt, Finset.sum_map, Fintype.sum_prod_type]
  rfl

end Cert.Spec

end
-- ==== Proof.KiAcc.lean ====
/-
  What the kernel's result array holds after the run: at (b, 0, j), lane j of sample b's statistics.

  The grid's point n is tile n % 4 of sample n / 4. Each point loads its tile of the prediction and of the target, adds
  the tile's ten statistics (packed into lanes 0..9 of a 128-lane row) to the accumulator row, which the first tile of a
  sample first sets to zero, and the last tile of a sample copies the row into the sample's block of the result. So the
  row after point n is the left-nested sum, from zero, of the statistics of its sample's tiles up to n; after a sample's
  last tile that is the sum over the sample's four tiles, which is the sample's statistics (a sum over the image's rows
  is the sum over the tiles of the sums over each tile's rows). The blocks written back, one per sample, tile the result
  array, so the array ends holding the samples' statistics lane by lane.
-/
import proofs.«145242_j47090021433737_1_alg».proof.Proof.KiFrame
import proofs.«145242_j47090021433737_1_alg».proof.Proof.Tile
import proofs.«145242_j47090021433737_1_alg».proof.Proof.Sums
import proofs.«145242_j47090021433737_1_alg».proof.Proof.Spec
import Idealize.ShloMosaic.Lib.Pipeline.Value
import Idealize.ShloMosaic.Lib.Tactic

set_option maxRecDepth 16384

noncomputable section

open scoped BigOperators

namespace Cert.KernelIdeal.Acc

open Cert.KernelIdeal Cert.KernelIdeal.Gen Cert.KernelIdeal.Hand
open Idealize.ShloMosaic Idealize.ShloMosaic.TcCoe Idealize.ShloMosaic.Tactic Idealize.ShloMosaic.ValueIdx Idealize.SL.Sem
open Idealize.ShloMosaic.Pipeline (Dat)
open Cert.Spec (tileOf tileLane sampleLane SImg)

/-! ## What one point leaves, as functions of what it loads

The body's loads read whole buffers and its stores write whole buffers (offsets all zero), so a buffer ends holding the
payload of the last store into it, and a load after a store reads that store's payload. -/

section Pieces
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- At a sample's first tile the row is set to zero, read back, and stored again with the tile's statistics added: the
    later store covers the earlier, and what it read back is the zero row. -/
theorem soutA_eq (c : Dev nD) (i : grid0.Coords) (arg2 : Memref sig .tc .vmem S1x3x256x1024 .f32) (harg2 : arg2.IsWhole) (arg3 : Memref sig .tc .vmem S1x3x256x1024 .f32) (harg3 : arg3.IsWhole) (arg4 : Memref sig .tc .vmem S1x1x128 .f32) (harg4 : arg4.IsWhole) (arg5 : Memref sig .tc .vmem S1x128 .f32) (harg5 : arg5.IsWhole) (hc0 : cond0_0 i) (hc1 : ¬cond0_1 i) (x0 x1 : Vec F S1x3x256x1024 .f32) :
    sout0_A_0 c i arg2 harg2 arg3 harg3 arg4 harg4 arg5 harg5 hc0 hc1 x0 x1 = Tile.stored x0 x1 Tile.zeroRow := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1x128) hz2, View.readCov_unit_zero (S := S1x128) _ hz2]
  unfold Tile.stored Tile.zeroRow
  simp only [View.readAt_eq_ld, harg2.read_unread, harg3.read_unread, View.ld_unit_zero (S := S1x3x256x1024) hz4]

/-- At a middle tile the row is loaded and stored once with the tile's statistics added. -/
theorem soutB_eq (c : Dev nD) (i : grid0.Coords) (arg2 : Memref sig .tc .vmem S1x3x256x1024 .f32) (harg2 : arg2.IsWhole) (arg3 : Memref sig .tc .vmem S1x3x256x1024 .f32) (harg3 : arg3.IsWhole) (arg4 : Memref sig .tc .vmem S1x1x128 .f32) (harg4 : arg4.IsWhole) (arg5 : Memref sig .tc .vmem S1x128 .f32) (harg5 : arg5.IsWhole) (hc0 : ¬cond0_0 i) (hc1 : ¬cond0_1 i) (x0 x1 : Vec F S1x3x256x1024 .f32) (xs0 : Vec F S1x128 .f32) :
    sout0_B_0 c i arg2 harg2 arg3 harg3 arg4 harg4 arg5 harg5 hc0 hc1 x0 x1 xs0 = Tile.stored x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz2]
  unfold Tile.stored
  simp only [View.readAt_eq_ld, harg2.read_unread, harg3.read_unread, harg5.read_unread,
    View.ld_unit_zero (S := S1x3x256x1024) hz4, View.ld_unit_zero (S := S1x128) hz2]

/-- At a sample's last tile the row is loaded and stored in the same way, -/
theorem soutC_eq (c : Dev nD) (i : grid0.Coords) (arg2 : Memref sig .tc .vmem S1x3x256x1024 .f32) (harg2 : arg2.IsWhole) (arg3 : Memref sig .tc .vmem S1x3x256x1024 .f32) (harg3 : arg3.IsWhole) (arg4 : Memref sig .tc .vmem S1x1x128 .f32) (harg4 : arg4.IsWhole) (arg5 : Memref sig .tc .vmem S1x128 .f32) (harg5 : arg5.IsWhole) (hc0 : ¬cond0_0 i) (hc1 : cond0_1 i) (x0 x1 : Vec F S1x3x256x1024 .f32) (xs0 : Vec F S1x128 .f32) :
    sout0_C_0 c i arg2 harg2 arg3 harg3 arg4 harg4 arg5 harg5 hc0 hc1 x0 x1 xs0 = Tile.stored x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz2]
  unfold Tile.stored
  simp only [View.readAt_eq_ld, harg2.read_unread, harg3.read_unread, harg5.read_unread,
    View.ld_unit_zero (S := S1x3x256x1024) hz4, View.ld_unit_zero (S := S1x128) hz2]

/-- and the result block is stored with the row read back after that store: the finished row under one more unit axis. -/
theorem outC_eq (c : Dev nD) (i : grid0.Coords) (arg2 : Memref sig .tc .vmem S1x3x256x1024 .f32) (harg2 : arg2.IsWhole) (arg3 : Memref sig .tc .vmem S1x3x256x1024 .f32) (harg3 : arg3.IsWhole) (arg4 : Memref sig .tc .vmem S1x1x128 .f32) (harg4 : arg4.IsWhole) (arg5 : Memref sig .tc .vmem S1x128 .f32) (harg5 : arg5.IsWhole) (hc0 : ¬cond0_0 i) (hc1 : cond0_1 i) (x0 x1 : Vec F S1x3x256x1024 .f32) (xs0 : Vec F S1x128 .f32) :
    out0_C_2 c i arg2 harg2 arg3 harg3 arg4 harg4 arg5 harg5 hc0 hc1 x0 x1 xs0 = Tile.copied (Tile.stored x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz3, View.readCov_unit_zero (S := S1x128) _ hz2]
  unfold Tile.copied Tile.stored
  simp only [View.readAt_eq_ld, harg2.read_unread, harg3.read_unread, harg5.read_unread,
    View.ld_unit_zero (S := S1x3x256x1024) hz4, View.ld_unit_zero (S := S1x128) hz2]

end Pieces

/-! ## The running sum over the grid's points

The accumulator restarts from zero at the points ≡ 0 (mod 4) and adds one addend per point. -/

/-- The running sum after point n of the addends a. -/
def runSum (a : ℕ → EReal) : ℕ → EReal
  | 0 => 0 + a 0
  | k + 1 => if (k + 1) % 4 = 0 then 0 + a (k + 1) else runSum a k + a (k + 1)

theorem runSum_reset (a : ℕ → EReal) (n : ℕ) (h : n % 4 = 0) : runSum a n = 0 + a n := by
  cases n with
  | zero => rfl
  | succ k => exact if_pos h

theorem runSum_step (a : ℕ → EReal) (n : ℕ) (h : ¬n % 4 = 0) : runSum a n = runSum a (n - 1) + a n := by
  cases n with
  | zero => exact absurd (Nat.zero_mod _) h
  | succ k => exact if_neg h

/-- At a point ≡ 3 (mod 4) the running sum is the left-nested sum, from zero, of the last four addends. -/
theorem runSum_last (a : ℕ → EReal) (n : ℕ) (h : n % 4 = 3) :
    runSum a n = (((0 + a (n - 3)) + a (n - 2)) + a (n - 1)) + a n := by
  rw [runSum_step a n (by omega), runSum_step a (n - 1) (by omega), runSum_step a (n - 1 - 1) (by omega),
    runSum_reset a (n - 1 - 1 - 1) (by omega)]
  rw [show n - 1 - 1 - 1 = n - 3 from by omega, show n - 1 - 1 = n - 2 from by omega]

/-- The sample and the tile of point n. -/
def smp (n : ℕ) : Fin 16 := ⟨n / 4 % 16, Nat.mod_lt _ (by decide)⟩
def til (n : ℕ) : Fin 4 := ⟨n % 4, Nat.mod_lt _ (by decide)⟩

/-- Lane j of the statistics of the tile point n sees. -/
def addend (P T : SImg.Idx → EReal) (j : Fin 128) (n : ℕ) : EReal :=
  tileLane (tileOf P (smp n) (til n)) (tileOf T (smp n) (til n)) j

/-- At the last tile of a sample the running sum of the tiles' statistics is the sample's: the four addends are the
    sample's four tiles', and a sample's statistic is the sum of its tiles'. -/
theorem runSum_sample (P T : SImg.Idx → EReal) (j : Fin 128) (n : ℕ) (h : n % 4 = 3) :
    runSum (addend P T j) n = sampleLane P T (smp n) j := by
  rw [runSum_last _ n h, ← Cert.Spec.sampleLane_tiles P T (smp n) j,
    ← Cert.Spec.acc_four fun h => tileLane (tileOf P (smp n) h) (tileOf T (smp n) h) j]
  have e : ∀ (k : ℕ) (q : Fin 4), k / 4 = n / 4 → k % 4 = q.val →
      addend P T j k = tileLane (tileOf P (smp n) q) (tileOf T (smp n) q) j := by
    intro k q hs hq
    unfold addend
    rw [show smp k = smp n from Fin.ext (by show k / 4 % 16 = n / 4 % 16; rw [hs]),
      show til k = q from Fin.ext hq]
  rw [e (n - 3) 0 (by omega) (by show (n - 3) % 4 = 0; omega), e (n - 2) 1 (by omega) (by show (n - 2) % 4 = 1; omega),
    e (n - 1) 2 (by omega) (by show (n - 1) % 4 = 2; omega), e n 3 rfl (by show n % 4 = 3; exact h)]

/-- THE ACCUMULATION over any rows that obey the case equations: a row that is stored over the zero row at a sample's
    first tile and over the row before elsewhere holds, lane by lane, the running sum of the tiles' statistics. -/
theorem row_eq_runSum (P T : SImg.Idx → EReal) (N : ℕ) (R : (n : ℕ) → n < N → Vec Ideal S1x128 .f32)
    (hA : ∀ (n : ℕ) (h : n < N), n % 4 = 0 →
      R n h = Tile.stored (F := Ideal) (tileOf P (smp n) (til n)) (tileOf T (smp n) (til n)) (Tile.zeroRow (F := Ideal)))
    (hB : ∀ (n : ℕ) (h : n < N), ¬n % 4 = 0 →
      R n h = Tile.stored (F := Ideal) (tileOf P (smp n) (til n)) (tileOf T (smp n) (til n)) (R (n - 1) (by omega)))
    (j : Fin 128) : ∀ (n : ℕ) (h : n < N), R n h (ix2 0 j) = runSum (addend P T j) n
  | 0, h => by
    rw [hA 0 h rfl, Tile.stored_apply, Tile.zeroRow_apply]
    rfl
  | n + 1, h => by
    by_cases h0 : (n + 1) % 4 = 0
    · rw [hA (n + 1) h h0, Tile.stored_apply, Tile.zeroRow_apply, runSum_reset _ _ h0]
      rfl
    · rw [hB (n + 1) h h0, Tile.stored_apply, runSum_step _ _ h0]
      show R n _ (ix2 0 j) + _ = runSum (addend P T j) n + _
      rw [row_eq_runSum P T N R hA hB j n (by omega)]
      rfl

/-! ## The blocks and the result array -/

variable (m : (ℓ : Loc nD τ sig) → Buf (Elt Ideal) ℓ)

theorem N64 : cfg0.N = 64 := N_0

/-- A sample index is below 16: point t of the 64 is in sample t / 4. -/
theorem sample_lt (t : Fin cfg0.N) : t.val / 4 < 16 := by
  have : t.val < 64 := lt_of_lt_of_eq t.isLt N64; omega
theorem smp_eq (t : Fin cfg0.N) : smp t.val = ⟨t.val / 4, sample_lt t⟩ :=
  Fin.ext (Nat.mod_eq_of_lt (sample_lt t))

/-- The windows' block indices at point t: sample t / 4 on the first axis, tile t % 4 on the row axis of the inputs,
    zero elsewhere. -/
theorem idx_in0 : ∀ t : Fin cfg0.N, win0_0.index t (0 : Fin 4) = t.val / 4 ∧ win0_0.index t (1 : Fin 4) = 0
    ∧ win0_0.index t (2 : Fin 4) = t.val % 4 ∧ win0_0.index t (3 : Fin 4) = 0 :=
  (by decide +kernel : ∀ t : Fin grid0.N, _)
theorem idx_in1 : ∀ t : Fin cfg0.N, win0_1.index t (0 : Fin 4) = t.val / 4 ∧ win0_1.index t (1 : Fin 4) = 0
    ∧ win0_1.index t (2 : Fin 4) = t.val % 4 ∧ win0_1.index t (3 : Fin 4) = 0 :=
  (by decide +kernel : ∀ t : Fin grid0.N, _)
theorem idx_out : ∀ t : Fin cfg0.N, win0_2.index t (0 : Fin 3) = t.val / 4 ∧ win0_2.index t (1 : Fin 3) = 0
    ∧ win0_2.index t (2 : Fin 3) = 0 :=
  (by decide +kernel : ∀ t : Fin grid0.N, _)

/-- The first window's block at point t is tile t % 4 of sample t / 4 of the prediction: a block's coordinate is its
    index times its size plus the coordinate inside the block. -/
theorem pblk_eq (c : Dev nD) (t : Fin cfg0.N) :
    (iblk (F := Ideal) m c 0 t : Vec Ideal S1x3x256x1024 .f32)
      = tileOf (m ((c : Thread nD τ).loc main_arg0)) (smp t.val) (til t.val) := by
  obtain ⟨e0, e1, e2, e3⟩ := idx_in0 t
  have hN : t.val < 64 := lt_of_lt_of_eq t.isLt N64
  funext y
  unfold iblk
  rw [View.read_apply]
  show V m c main_arg0 _ = m (c.tc.loc main_arg0) _
  unfold V
  congr 1
  funext a
  apply Fin.ext
  match a with
  | ⟨0, _⟩ => show win0_0.index t 0 * 1 + 1 * (y 0).val = t.val / 4 % 16; have : (y 0).val < 1 := (y 0).isLt; rw [e0]; omega
  | ⟨1, _⟩ => show win0_0.index t 1 * 3 + 1 * (y 1).val = (y 1).val; rw [e1]; omega
  | ⟨2, _⟩ => show win0_0.index t 2 * 256 + 1 * (y 2).val = 256 * (t.val % 4) + (y 2).val; rw [e2]; omega
  | ⟨3, _⟩ => show win0_0.index t 3 * 1024 + 1 * (y 3).val = (y 3).val; rw [e3]; omega

/-- The second window's block is the same tile of the target. -/
theorem tblk_eq (c : Dev nD) (t : Fin cfg0.N) :
    (iblk (F := Ideal) m c 1 t : Vec Ideal S1x3x256x1024 .f32)
      = tileOf (m ((c : Thread nD τ).loc main_arg1)) (smp t.val) (til t.val) := by
  obtain ⟨e0, e1, e2, e3⟩ := idx_in1 t
  have hN : t.val < 64 := lt_of_lt_of_eq t.isLt N64
  funext y
  unfold iblk
  rw [View.read_apply]
  show V m c main_arg1 _ = m (c.tc.loc main_arg1) _
  unfold V
  congr 1
  funext a
  apply Fin.ext
  match a with
  | ⟨0, _⟩ => show win0_1.index t 0 * 1 + 1 * (y 0).val = t.val / 4 % 16; have : (y 0).val < 1 := (y 0).isLt; rw [e0]; omega
  | ⟨1, _⟩ => show win0_1.index t 1 * 3 + 1 * (y 1).val = (y 1).val; rw [e1]; omega
  | ⟨2, _⟩ => show win0_1.index t 2 * 256 + 1 * (y 2).val = 256 * (t.val % 4) + (y 2).val; rw [e2]; omega
  | ⟨3, _⟩ => show win0_1.index t 3 * 1024 + 1 * (y 3).val = (y 3).val; rw [e3]; omega

/-- What the kernel's result array ends holding: at (b, 0, j), lane j of sample b's statistics. -/
def G (c : Dev nD) : Buf (Elt Ideal) ((c : Thread nD τ).loc main_v0) :=
  fun i => sampleLane (m ((c : Thread nD τ).loc main_arg0)) (m ((c : Thread nD τ).loc main_arg1)) (i 0) (i 2)

/-- A write-back writes its block of G, for any proof data whose result buffer holds, after a sample's last tile,
    the sample's statistics lane by lane: the block written back at point t is row t / 4 of the result array. -/
theorem flushed_of {c : Dev nD} (dat : Dat τ (Elt Ideal) Unit ℕ (UR sig nD τ) ℕ cfg0 c)
    (o : Fin cfg0.N → Vec Ideal S1x1x128 .f32) (hafter : ∀ t, dat.after 2 t = o t)
    (ho : ∀ t : Fin cfg0.N, t.val % 4 = 3 → ∀ j : Fin 128,
      o t (ix3 0 0 j) = sampleLane (m ((c : Thread nD τ).loc main_arg0)) (m ((c : Thread nD τ).loc main_arg1)) (smp t.val) j)
    (t : Fin cfg0.N) (hf : (cfg0.win 2).flush t = true) :
    dat.flushed 2 t = ((cfg0.win 2).blk t).view.read (Elt Ideal) (G m c) := by
  have h3 : t.val % 4 = 3 := (flush0_2 t).mp hf
  have hN : t.val < 64 := lt_of_lt_of_eq t.isLt N64
  obtain ⟨e0, e1, e2⟩ := idx_out t
  show (cfg0.win 2).cut (grid0.coords t) (dat.after 2 t) = _
  rw [hafter]
  funext y
  rw [View.read_apply]
  have hy0 : (y 0).val < 1 := (y 0).isLt
  have hy1 : (y 1).val < 1 := (y 1).isLt
  have hy2 : (y 2).val < 128 := (y 2).isLt
  have ey : (cfg0.win 2).xinj (grid0.coords t) y = ix3 0 0 ⟨(y 2).val, hy2⟩ := by
    funext a
    apply Fin.ext
    match a with
    | ⟨0, _⟩ => show (y 0).val = 0; omega
    | ⟨1, _⟩ => show (y 1).val = 0; omega
    | ⟨2, _⟩ => rfl
  show o t ((cfg0.win 2).xinj (grid0.coords t) y) = G m c (((cfg0.win 2).blk t).view.emb y)
  rw [ey, ho t h3]
  unfold G
  congr 1
  · apply Fin.ext
    show t.val / 4 % 16 = win0_2.index t 0 * 1 + 1 * (y 0).val
    rw [e0]; omega
  · apply Fin.ext
    show (y 2).val = win0_2.index t 2 * 128 + 1 * (y 2).val
    rw [e2]; omega

/-- Every index of the result array lies in the block its sample's last tile writes back. -/
theorem covered (i : S16x1x128.Idx) :
    ∃ t : Fin cfg0.N, (cfg0.win 2).flush t = true ∧ i ∈ ((cfg0.win 2).blk t).view.set := by
  have hi0 : (i 0).val < 16 := (i 0).isLt
  have hi1 : (i 1).val < 1 := (i 1).isLt
  have hi2 : (i 2).val < 128 := (i 2).isLt
  have ht : 4 * (i 0).val + 3 < cfg0.N := by rw [N64]; omega
  refine ⟨⟨4 * (i 0).val + 3, ht⟩, (flush0_2 _).mpr (by show (4 * (i 0).val + 3) % 4 = 3; omega), ?_⟩
  obtain ⟨e0, e1, e2⟩ := idx_out ⟨4 * (i 0).val + 3, ht⟩
  show i ∈ ((View.whole main_v0).slice (win0_2.rect ⟨4 * (i 0).val + 3, ht⟩)).set
  rw [View.set_slice_whole, Rect.mem_set_unit]
  intro a
  match a with
  | ⟨0, _⟩ =>
    show win0_2.index ⟨4 * (i 0).val + 3, ht⟩ 0 * 1 ≤ (i 0).val ∧ (i 0).val < win0_2.index ⟨4 * (i 0).val + 3, ht⟩ 0 * 1 + 1
    rw [e0]; show (4 * (i 0).val + 3) / 4 * 1 ≤ (i 0).val ∧ (i 0).val < (4 * (i 0).val + 3) / 4 * 1 + 1; omega
  | ⟨1, _⟩ =>
    show win0_2.index ⟨4 * (i 0).val + 3, ht⟩ 1 * 1 ≤ (i 1).val ∧ (i 1).val < win0_2.index ⟨4 * (i 0).val + 3, ht⟩ 1 * 1 + 1
    rw [e1]; omega
  | ⟨2, _⟩ =>
    show win0_2.index ⟨4 * (i 0).val + 3, ht⟩ 2 * 128 ≤ (i 2).val ∧ (i 2).val < win0_2.index ⟨4 * (i 0).val + 3, ht⟩ 2 * 128 + 128
    rw [e2]; omega

/-! ## The accumulator row and the result block, point by point -/

/-- At a sample's first tile the row is the tile's statistics stored over the zero row. -/
theorem row_first (c : Dev nD) (t : Fin cfg0.N) (h0 : t.val % 4 = 0) :
    (outsAt0 (F := Ideal) m c t.val t.isLt).2
      = Tile.stored (F := Ideal) (tileOf (m ((c : Thread nD τ).loc main_arg0)) (smp t.val) (til t.val)) (tileOf (m ((c : Thread nD τ).loc main_arg1)) (smp t.val) (til t.val))
          (Tile.zeroRow (F := Ideal)) := by
  have h1 : ¬t.val % 4 = 3 := by omega
  rw [outsAt0_A m c t h0 h1]
  dsimp only
  refine (soutA_eq (F := Ideal) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)).trans ?_
  rw [pblk_eq m c t, tblk_eq m c t]

/-- At every other tile it is the tile's statistics stored over the row the point before left. -/
theorem row_next (c : Dev nD) (t : Fin cfg0.N) (h0 : ¬t.val % 4 = 0) :
    (outsAt0 (F := Ideal) m c t.val t.isLt).2
      = Tile.stored (F := Ideal) (tileOf (m ((c : Thread nD τ).loc main_arg0)) (smp t.val) (til t.val)) (tileOf (m ((c : Thread nD τ).loc main_arg1)) (smp t.val) (til t.val))
          (outsAt0 (F := Ideal) m c (t.val - 1) (Nat.lt_of_le_of_lt (Nat.sub_le _ _) t.isLt)).2 := by
  by_cases h1 : t.val % 4 = 3
  · rw [outsAt0_C m c t h0 h1]
    dsimp only
    refine (soutC_eq (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 (F := Ideal) m c (t.val - 1) (Nat.lt_of_le_of_lt (Nat.sub_le _ _) t.isLt)).2).trans ?_
    rw [pblk_eq m c t, tblk_eq m c t]
  · rw [outsAt0_B m c t h0 h1]
    dsimp only
    refine (soutB_eq (F := Ideal) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 (F := Ideal) m c (t.val - 1) (Nat.lt_of_le_of_lt (Nat.sub_le _ _) t.isLt)).2).trans ?_
    rw [pblk_eq m c t, tblk_eq m c t]

/-- At a sample's last tile the result block is the row the same point leaves, under one more unit axis. -/
theorem out_last (c : Dev nD) (t : Fin cfg0.N) (h3 : t.val % 4 = 3) :
    (outsAt0 (F := Ideal) m c t.val t.isLt).1 = Tile.copied (F := Ideal) (outsAt0 (F := Ideal) m c t.val t.isLt).2 := by
  have h0 : ¬t.val % 4 = 0 := by omega
  rw [outsAt0_C m c t h0 h3]
  dsimp only
  rw [outC_eq (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h3) (iblk m c 0 t) (iblk m c 1 t) (outsAt0 (F := Ideal) m c (t.val - 1) (Nat.lt_of_le_of_lt (Nat.sub_le _ _) t.isLt)).2,
    soutC_eq (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h3) (iblk m c 0 t) (iblk m c 1 t) (outsAt0 (F := Ideal) m c (t.val - 1) (Nat.lt_of_le_of_lt (Nat.sub_le _ _) t.isLt)).2]

/-- THE ACCUMULATION: lane j of the row after point n is the running sum of the statistics of the tiles up to n. -/
theorem row_lane (c : Dev nD) (j : Fin 128) (n : ℕ) (h : n < cfg0.N) :
    (outsAt0 (F := Ideal) m c n h).2 (ix2 0 j) = runSum (addend (m ((c : Thread nD τ).loc main_arg0)) (m ((c : Thread nD τ).loc main_arg1)) j) n :=
  row_eq_runSum (m ((c : Thread nD τ).loc main_arg0)) (m ((c : Thread nD τ).loc main_arg1)) cfg0.N (fun n h => (outsAt0 (F := Ideal) m c n h).2)
    (fun n h h0 => row_first m c ⟨n, h⟩ h0) (fun n h h0 => row_next m c ⟨n, h⟩ h0) j n h

/-- After a sample's last tile the row holds the sample's statistics, -/
theorem row_sample (c : Dev nD) (t : Fin cfg0.N) (h3 : t.val % 4 = 3) (j : Fin 128) :
    (outsAt0 (F := Ideal) m c t.val t.isLt).2 (ix2 0 j) = sampleLane (m ((c : Thread nD τ).loc main_arg0)) (m ((c : Thread nD τ).loc main_arg1)) (smp t.val) j :=
  (row_lane m c j t.val t.isLt).trans (runSum_sample _ _ j t.val h3)

/-- and so does the result block. -/
theorem out_sample (c : Dev nD) (t : Fin cfg0.N) (h3 : t.val % 4 = 3) (j : Fin 128) :
    (outsAt0 (F := Ideal) m c t.val t.isLt).1 (ix3 0 0 j) = sampleLane (m ((c : Thread nD τ).loc main_arg0)) (m ((c : Thread nD τ).loc main_arg1)) (smp t.val) j := by
  rw [out_last m c t h3, Tile.copied_apply]
  exact row_sample m c t h3 j

/-! ## The result array after the run -/

/-- What a write-back writes is its block of G. -/
theorem flushed_eq (c : Dev nD) (t : Fin cfg0.N) (hf : (cfg0.win 2).flush t = true) :
    (dats (F := Ideal) m 0 c).flushed 2 t = ((cfg0.win 2).blk t).view.read (Elt Ideal) (G m c) :=
  flushed_of m (dats (F := Ideal) m 0 c) (fun t => (outsAt0 (F := Ideal) m c t.val t.isLt).1) (after0_2 m c)
    (fun t h3 j => out_sample m c t h3 j) t hf

/-- THE RESULT ARRAY after the run holds, at (b, 0, j), lane j of sample b's statistics. -/
theorem final2 (c : Dev nD) : (dats (F := Ideal) m 0 c).arrAt 2 cfg0.N = G m c :=
  (dats (F := Ideal) m 0 c).arrAt_eq_of_cover 2 (G m c) (flushed_eq m c) covered

end Cert.KernelIdeal.Acc

end
-- ==== Proof.Loss.lean ====
/-
  The last stage of the computation, shared by both programs: from the six statistics of each of the 16 samples
  (two masked huber sums, the two pixel counts, and per channel the two masked sums of the prediction) to the one
  number that is the loss. Per sample: a class is PRESENT when its count is positive; each present class contributes
  its huber sum divided by three times its count (the count raised to at least one); when both classes are present the
  separation term 300 / (1 + |mean_bg - mean_fg|^2) is added, the means taken per channel; the contributions are
  averaged over the number of terms present; the loss is the mean over the 16 samples.
-/
import Idealize.ShloMosaic.PureOps
import Idealize.ShloMosaic.PureOps.Ideal
import proofs.«145242_j47090021433737_1_alg».proof.Proof.Spec

noncomputable section

namespace Cert.Loss

open Idealize.ShloMosaic
open Cert.Spec (S16 S16x3 S0)

/-- One column per sample. -/
abbrev S16x1 : Shape := ⟨2, ![16, 1]⟩

section
variable {F : FTy → Type} [FloatOps F]

/-- `x` where the bit is set, else the splat of the scalar `z`. -/
def whereOr (c : IVec S16 1) (x : FVec F S16 .f32) (z : FVec F S0 .f32)
    (hb : S0.BroadcastsInDim S16 (![] : Fin 0 → Fin S16.rank)) : FVec F S16 .f32 :=
  select c x (broadcastInDim S16 ![] hb (id z))

/-- The loss from the six per-sample statistics, at any reading of the floats. -/
def lossF (sbg sfg nbg nfg : FVec F S16 .f32) (bgp fgp : FVec F S16x3 .f32) : FVec F S0 .f32 :=
  have hb : S0.BroadcastsInDim S16 (![] : Fin 0 → Fin S16.rank) := by decide
  have hb1 : S16.BroadcastsInDim S16x1 (![0] : Fin 1 → Fin S16x1.rank) := by decide
  have hb3 : S16x1.BroadcastsInDim S16x3 (![0, 1] : Fin 2 → Fin S16x3.rank) := by decide
  have hr1 : S16x3.ReducesTo [1] S16 := by decide
  have hr0 : S16.ReducesTo [0] S0 := by decide
  have h0 : 0 < S0.numel := by decide
  -- which classes are present
  let hasBg : IVec S16 1 := cmpf .ogt nbg (broadcastInDim S16 ![] hb (constant (F := F) S0 .f32 0x00000000#32))
  let hasFg : IVec S16 1 := cmpf .ogt nfg (broadcastInDim S16 ![] hb (constant (F := F) S0 .f32 0x00000000#32))
  let both : IVec S16 1 := andi hasBg hasFg
  -- the counts, at least one
  let cBg : FVec F S16 .f32 := maximumf nbg (broadcastInDim S16 ![] hb (constant (F := F) S0 .f32 0x3F800000#32))
  let cFg : FVec F S16 .f32 := maximumf nfg (broadcastInDim S16 ![] hb (constant (F := F) S0 .f32 0x3F800000#32))
  -- the two huber means
  let lBg : FVec F S16 .f32 :=
    Host.divf sbg (mulf cBg (broadcastInDim S16 ![] hb (constant (F := F) S0 .f32 0x40400000#32)))
  let lFg : FVec F S16 .f32 :=
    Host.divf sfg (mulf cFg (broadcastInDim S16 ![] hb (constant (F := F) S0 .f32 0x40400000#32)))
  -- the per-channel means and the squared distance between them
  let mBg : FVec F S16x3 .f32 := Host.divf bgp (broadcastInDim S16x3 ![0, 1] hb3 (broadcastInDim S16x1 ![0] hb1 cBg))
  let mFg : FVec F S16x3 .f32 := Host.divf fgp (broadcastInDim S16x3 ![0, 1] hb3 (broadcastInDim S16x1 ![0] hb1 cFg))
  let d : FVec F S16x3 .f32 := subf mBg mFg
  let d2 : FVec F S16 .f32 := Host.reduceAdd (mulf d d) (constant (F := F) S0 .f32 0x00000000#32) hr1 h0
  let sep : FVec F S16 .f32 :=
    Host.divf (broadcastInDim S16 ![] hb (constant (F := F) S0 .f32 0x43960000#32))
      (addf (broadcastInDim S16 ![] hb (constant (F := F) S0 .f32 0x3F800000#32)) d2)
  -- the number of terms present
  let cnt : FVec F S16 .f32 := addf (addf (uitofp .f32 hasBg) (uitofp .f32 hasFg)) (uitofp .f32 both)
  -- the sum of the terms present
  let tot : FVec F S16 .f32 :=
    addf (addf (whereOr hasBg lBg (constant (F := F) S0 .f32 0x00000000#32) hb)
               (whereOr hasFg lFg (constant (F := F) S0 .f32 0x00000000#32) hb))
         (whereOr both sep (constant (F := F) S0 .f32 0x00000000#32) hb)
  -- the sample's loss, and the mean over the samples
  let per : FVec F S16 .f32 :=
    whereOr (cmpf .ogt cnt (broadcastInDim S16 ![] hb (constant (F := F) S0 .f32 0x00000000#32)))
      (Host.divf tot (maximumf cnt (broadcastInDim S16 ![] hb (constant (F := F) S0 .f32 0x3F800000#32))))
      (constant (F := F) S0 .f32 0x00000000#32) hb
  Host.divf (Host.reduceAdd per (constant (F := F) S0 .f32 0x00000000#32) hr0 h0)
    (constant (F := F) S0 .f32 0x41800000#32)

end

/-- The loss at the exact reading: floats are extended reals. -/
def loss (sbg sfg nbg nfg : FVec Ideal S16 .f32) (bgp fgp : FVec Ideal S16x3 .f32) : FVec Ideal S0 .f32 :=
  lossF (F := Ideal) sbg sfg nbg nfg bgp fgp

theorem loss_eq (sbg sfg nbg nfg : FVec Ideal S16 .f32) (bgp fgp : FVec Ideal S16x3 .f32) :
    loss sbg sfg nbg nfg bgp fgp = lossF (F := Ideal) sbg sfg nbg nfg bgp fgp := rfl

end Cert.Loss

end
-- ==== Proof.KiTail.lean ====
/-
  What the host operations after the region compute, on any contents of the buffers: the accumulated array of 16 samples
  by 128 lanes is read as 16 rows, its lanes 0 to 3 are cut out as four vectors over the samples (the two huber sums and
  the two pixel counts) and its lanes 4 to 6 and 7 to 9 as two 16 × 3 blocks (the per-channel sums), and the loss is taken
  of the six. Each cut is read entry by entry — a row-major recount for the two changes of shape, a shift by the offset
  for the cut — so that the result is the loss of the lanes of the array itself.
-/
import proofs.«145242_j47090021433737_1_alg».proof.Proof.Gen.KernelIdeal.Launch
import proofs.«145242_j47090021433737_1_alg».proof.Proof.Loss
import Idealize.ShloMosaic.Lib.StableHlo.Run
import Idealize.ShloMosaic.Lib.Pipeline.Value
import Idealize.ShloMosaic.Lib.ValueIdx

noncomputable section

namespace Cert.KernelIdeal.Tail

open Idealize.ShloMosaic Idealize.ShloMosaic.ValueIdx Cert.KernelIdeal Cert.KernelIdeal.Gen
open Idealize.ShloMosaic.StableHlo

section Columns
variable {α : Type}

/-- Lane `k` of every sample, as a vector over the samples: the array read as 16 rows of 128 lanes, the column `k` cut
    out, and its unit axis dropped. -/
def col (k : Nat) (hk : S16x128.Slices ![0, k] S16x1) (A : S16x1x128.Idx → α) : S16.Idx → α :=
  shapeCast S16 (extractStridedSlice S16x1 ![0, k] (shapeCast S16x128 A shapeCasts_S16x1x128_S16x128) hk)
    shapeCasts_S16x1_S16

/-- Lanes `k`, `k + 1`, `k + 2` of every sample, as 16 rows of 3. -/
def blk (k : Nat) (hk : S16x128.Slices ![0, k] S16x3) (A : S16x1x128.Idx → α) : S16x3.Idx → α :=
  extractStridedSlice S16x3 ![0, k] (shapeCast S16x128 A shapeCasts_S16x1x128_S16x128) hk

/-- Row `b`, lane `l` of the 16 × 128 reading is entry `(b, 0, l)` of the array: the same row-major position. -/
theorem rows_apply (A : S16x1x128.Idx → α) (b : Fin 16) (l : Fin 128) :
    shapeCast S16x128 A shapeCasts_S16x1x128_S16x128 (ix2 b l) = A (ix3 b 0 l) :=
  shapeCast_apply A _ _ _ (by
    rw [Shape.rowMajor_val_three, Shape.rowMajor_val_two]
    show (b.val * 1 + 0) * 128 + l.val = b.val * 128 + l.val
    omega)

/-- Sample `b` of the column `k` is entry `(b, 0, k)`. -/
theorem col_apply (k : Nat) (hk : S16x128.Slices ![0, k] S16x1) (hl : k < 128) (A : S16x1x128.Idx → α) (b : Fin 16) :
    col k hk A (ix1 b) = A (ix3 b 0 ⟨k, hl⟩) := by
  unfold col
  rw [shapeCast_apply _ shapeCasts_S16x1_S16 (ix1 b) (ix2 b (0 : Fin 1)) (by
        rw [Shape.rowMajor_val_two, Shape.rowMajor_val_one]
        show b.val * 1 + 0 = b.val
        omega),
    extractStridedSlice_apply _ _ hk (ix2 b (0 : Fin 1)) (ix2 b (⟨k, hl⟩ : Fin 128)) (fun a => by
        match a with
        | ⟨0, _⟩ => exact (Nat.zero_add _).symm
        | ⟨1, _⟩ => rfl),
    rows_apply]

/-- Sample `b`, place `c` of the three lanes from `k` is entry `(b, 0, k + c)`. -/
theorem blk_apply (k : Nat) (hk : S16x128.Slices ![0, k] S16x3) (hl : k + 3 ≤ 128) (A : S16x1x128.Idx → α)
    (b : Fin 16) (c : Fin 3) : blk k hk A (ix2 b c) = A (ix3 b 0 ⟨k + c.val, by omega⟩) := by
  unfold blk
  rw [extractStridedSlice_apply _ _ hk (ix2 b c) (ix2 b (⟨k + c.val, by omega⟩ : Fin 128)) (fun a => by
        match a with
        | ⟨0, _⟩ => exact (Nat.zero_add _).symm
        | ⟨1, _⟩ => rfl),
    rows_apply]

end Columns

section
variable {F : FTy → Type} [FloatOps F]

set_option maxHeartbeats 4000000 in
/-- The operations after the region, on any contents: the loss of the six column cuts of the accumulated array. -/
theorem after_cols (W : Valuation τ sig (Elt F)) :
    StableHlo.after (List.flatten [hostOps1 (F := F), hostOps1_1, hostOps1_2, hostOps1_3, hostOps1_4, hostOps1_5, hostOps1_6,
        hostOps1_7, hostOps1_8]) W (Proc.devRef .tc main_v57)
      = Cert.Loss.lossF (F := F)
          (col 0 slices_S16x128_S16x1_0_0 (W (Proc.devRef .tc main_v0)))
          (col 1 slices_S16x128_S16x1_0_1 (W (Proc.devRef .tc main_v0)))
          (col 2 slices_S16x128_S16x1_0_2 (W (Proc.devRef .tc main_v0)))
          (col 3 slices_S16x128_S16x1_0_3 (W (Proc.devRef .tc main_v0)))
          (blk 4 slices_S16x128_S16x3_0_4 (W (Proc.devRef .tc main_v0)))
          (blk 7 slices_S16x128_S16x3_0_7 (W (Proc.devRef .tc main_v0))) := by
  simp only [hostOps1, hostOps1_1, hostOps1_2, hostOps1_3, hostOps1_4, hostOps1_5, hostOps1_6, hostOps1_7, hostOps1_8,
    List.flatten_cons, List.flatten_nil, List.append_nil, List.cons_append, List.nil_append]
  after_results_simp
  simp only [TRef.ofBuf, TRef.toBuf, cast_eq]
  rfl

end

/-- The operations after the region, on any contents `W` at the exact reading: the loss of lanes 0 to 9 of the accumulated
    array `A` — lanes 0, 1 the two huber sums, 2, 3 the two counts, 4 to 6 and 7 to 9 the per-channel sums. -/
theorem after_tail (W : Valuation τ sig (Elt Ideal)) :
    StableHlo.after (List.flatten [hostOps1 (F := Ideal), hostOps1_1, hostOps1_2, hostOps1_3, hostOps1_4, hostOps1_5,
        hostOps1_6, hostOps1_7, hostOps1_8]) W (Proc.devRef .tc main_v57)
      = Cert.Loss.loss
          (fun i => (W (Proc.devRef .tc main_v0) : S16x1x128.Idx → EReal) (ix3 (i 0) 0 0))
          (fun i => (W (Proc.devRef .tc main_v0) : S16x1x128.Idx → EReal) (ix3 (i 0) 0 1))
          (fun i => (W (Proc.devRef .tc main_v0) : S16x1x128.Idx → EReal) (ix3 (i 0) 0 2))
          (fun i => (W (Proc.devRef .tc main_v0) : S16x1x128.Idx → EReal) (ix3 (i 0) 0 3))
          (fun i => (W (Proc.devRef .tc main_v0) : S16x1x128.Idx → EReal)
            (ix3 (i 0) 0 ⟨4 + (i 1).val, by have := (i 1).isLt; change _ < 3 at this; omega⟩))
          (fun i => (W (Proc.devRef .tc main_v0) : S16x1x128.Idx → EReal)
            (ix3 (i 0) 0 ⟨7 + (i 1).val, by have := (i 1).isLt; change _ < 3 at this; omega⟩)) := by
  rw [after_cols W, Cert.Loss.loss_eq]
  generalize (W (Proc.devRef .tc main_v0) : S16x1x128.Idx → EReal) = A
  have c0 : col 0 slices_S16x128_S16x1_0_0 A = fun i => A (ix3 (i 0) 0 0) :=
    funext fun i => by rw [eq_ix1 i]; exact col_apply 0 _ (by omega) A _
  have c1 : col 1 slices_S16x128_S16x1_0_1 A = fun i => A (ix3 (i 0) 0 1) :=
    funext fun i => by rw [eq_ix1 i]; exact col_apply 1 _ (by omega) A _
  have c2 : col 2 slices_S16x128_S16x1_0_2 A = fun i => A (ix3 (i 0) 0 2) :=
    funext fun i => by rw [eq_ix1 i]; exact col_apply 2 _ (by omega) A _
  have c3 : col 3 slices_S16x128_S16x1_0_3 A = fun i => A (ix3 (i 0) 0 3) :=
    funext fun i => by rw [eq_ix1 i]; exact col_apply 3 _ (by omega) A _
  have b4 : blk 4 slices_S16x128_S16x3_0_4 A
      = fun i => A (ix3 (i 0) 0 ⟨4 + (i 1).val, by have := (i 1).isLt; change _ < 3 at this; omega⟩) :=
    funext fun i => by rw [eq_ix2 i]; exact blk_apply 4 _ (by omega) A _ _
  have b7 : blk 7 slices_S16x128_S16x3_0_7 A
      = fun i => A (ix3 (i 0) 0 ⟨7 + (i 1).val, by have := (i 1).isLt; change _ < 3 at this; omega⟩) :=
    funext fun i => by rw [eq_ix2 i]; exact blk_apply 7 _ (by omega) A _ _
  rw [c0, c1, c2, c3, b4, b7]

end Cert.KernelIdeal.Tail

end
-- ==== Proof.LossOf.lean ====
/-
  The loss as ONE function of the two input arrays: the six per-sample statistics of the specification, fed to the
  host tail both programs share. Both runs are stated with this term as their result.
-/
import proofs.«145242_j47090021433737_1_alg».proof.Proof.Loss
import proofs.«145242_j47090021433737_1_alg».proof.Proof.Spec

noncomputable section

namespace Cert.Loss

open Idealize.ShloMosaic Cert.Spec

/-- The scalar loss of a prediction `p` and a target `t`. -/
def lossOf (p t : SImg.Idx → EReal) : FVec Ideal S0 .f32 :=
  loss (fun i => sBg p t (i 0)) (fun i => sFg p t (i 0)) (fun i => nBg t (i 0)) (fun i => nFg t (i 0))
    (fun i => pBg p t (i 0) (i 1)) (fun i => pFg p t (i 0) (i 1))

end Cert.Loss

end
-- ==== Proof.KiValue.lean ====
/-
  The kernel's run with its result named.

  The run of the whole program ends with every array of the pipeline at what the grid points left in it and every other
  buffer at what the 82 host operations after the region make of those. The output array of the region holds, sample by
  sample, the row of ten statistics of the whole image (lane `k` of sample `b`: `sampleLane … b k`); the host
  operations read lanes 0..3 as the two huber sums and the two counts, lanes 4..6 and 7..9 as the per-channel sums, and
  apply the shared last stage to them. So the program's result is the loss of the two input arrays, and the two inputs
  end as they began.
-/
import proofs.«145242_j47090021433737_1_alg».proof.Proof.KiFrame
import proofs.«145242_j47090021433737_1_alg».proof.Proof.KiAcc
import proofs.«145242_j47090021433737_1_alg».proof.Proof.KiTail
import proofs.«145242_j47090021433737_1_alg».proof.Proof.LossOf
import Idealize.ShloMosaic.Lib.ValueIdx

noncomputable section

namespace Cert.KernelIdeal.Result

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

/-! ## The lanes of a sample's row -/

section Lanes
variable (p t : Cert.Spec.SImg.Idx → EReal) (b : Fin 16)

theorem sampleLane_sBg (k : Fin 128) (hk : k.val = 0) : Cert.Spec.sampleLane p t b k = Cert.Spec.sBg p t b := by
  unfold Cert.Spec.sampleLane
  rw [if_pos hk]

theorem sampleLane_sFg (k : Fin 128) (hk : k.val = 1) : Cert.Spec.sampleLane p t b k = Cert.Spec.sFg p t b := by
  unfold Cert.Spec.sampleLane
  rw [if_neg (by omega), if_pos hk]

theorem sampleLane_nBg (k : Fin 128) (hk : k.val = 2) : Cert.Spec.sampleLane p t b k = Cert.Spec.nBg t b := by
  unfold Cert.Spec.sampleLane
  rw [if_neg (by omega), if_neg (by omega), if_pos hk]

theorem sampleLane_nFg (k : Fin 128) (hk : k.val = 3) : Cert.Spec.sampleLane p t b k = Cert.Spec.nFg t b := by
  unfold Cert.Spec.sampleLane
  rw [if_neg (by omega), if_neg (by omega), if_neg (by omega), if_pos hk]

/-- Lanes 4, 5, 6: the background sums of channels 0, 1, 2. -/
theorem sampleLane_pBg (c : Fin 3) (k : Fin 128) (hk : k.val = 4 + c.val) :
    Cert.Spec.sampleLane p t b k = Cert.Spec.pBg p t b c := by
  unfold Cert.Spec.sampleLane
  obtain ⟨cv, hc⟩ := c
  have hk' : k.val = 4 + cv := hk
  have h3 : cv = 0 ∨ cv = 1 ∨ cv = 2 := by omega
  rcases h3 with rfl | rfl | rfl
  · rw [if_neg (by omega), if_neg (by omega), if_neg (by omega), if_neg (by omega), if_pos (by omega)]; rfl
  · rw [if_neg (by omega), if_neg (by omega), if_neg (by omega), if_neg (by omega), if_neg (by omega),
      if_pos (by omega)]; rfl
  · rw [if_neg (by omega), if_neg (by omega), if_neg (by omega), if_neg (by omega), if_neg (by omega),
      if_neg (by omega), if_pos (by omega)]; rfl

/-- Lanes 7, 8, 9: the foreground sums of channels 0, 1, 2. -/
theorem sampleLane_pFg (c : Fin 3) (k : Fin 128) (hk : k.val = 7 + c.val) :
    Cert.Spec.sampleLane p t b k = Cert.Spec.pFg p t b c := by
  unfold Cert.Spec.sampleLane
  obtain ⟨cv, hc⟩ := c
  have hk' : k.val = 7 + cv := hk
  have h3 : cv = 0 ∨ cv = 1 ∨ cv = 2 := by omega
  rcases h3 with rfl | rfl | rfl
  · rw [if_neg (by omega), if_neg (by omega), if_neg (by omega), if_neg (by omega), if_neg (by omega),
      if_neg (by omega), if_neg (by omega), if_pos (by omega)]; rfl
  · rw [if_neg (by omega), if_neg (by omega), if_neg (by omega), if_neg (by omega), if_neg (by omega),
      if_neg (by omega), if_neg (by omega), if_neg (by omega), if_pos (by omega)]; rfl
  · rw [if_neg (by omega), if_neg (by omega), if_neg (by omega), if_neg (by omega), if_neg (by omega),
      if_neg (by omega), if_neg (by omega), if_neg (by omega), if_neg (by omega), if_pos (by omega)]; rfl

end Lanes

/-- The last stage at equal statistics. -/
theorem loss_congr {a a' b b' c c' d d' : FVec Ideal Cert.Spec.S16 .f32} {e e' f f' : FVec Ideal Cert.Spec.S16x3 .f32}
    (h1 : a = a') (h2 : b = b') (h3 : c = c') (h4 : d = d') (h5 : e = e') (h6 : f = f') :
    Cert.Loss.loss a b c d e f = Cert.Loss.loss a' b' c' d' e' f' := by
  rw [h1, h2, h3, h4, h5, h6]

/-! ## From a frame run to the named result -/

section Run
variable (m : (ℓ : Loc nD τ sig) → Buf (Elt Ideal) ℓ) (ρ : Dev nD → PrngReg)

/-- For any proof data whose arrays are the region-entry contents and whose output array ends at the samples' rows, and
    the host operations read as the last stage over that array's lanes: a run that ends in the frame post ends with the
    result at the loss of the two inputs, and the inputs unchanged. -/
theorem run_value_of
    (dats : (p : Fin 1) → (c : Dev nD) → Dat τ (Elt Ideal) Unit ℕ (UR sig nD τ) ℕ (cfgs p) c)
    (hA : ∀ c w, (dats 0 c).A w = Hand.V m c (Pipeline.arrRef spec0 w))
    (hfinal : ∀ (c : Dev nD) (b : Fin 16) (k : Fin 128),
      (dats 0 c).arrAt 2 cfg0.N (ix3 b 0 k)
        = Cert.Spec.sampleLane (m ((c.tc : Thread nD τ).loc main_arg0)) (m ((c.tc : Thread nD τ).loc main_arg1)) b k)
    (htail : ∀ W : Valuation τ sig (Elt Ideal),
      StableHlo.after (List.flatten [hostOps1, hostOps1_1, hostOps1_2, hostOps1_3, hostOps1_4, hostOps1_5, hostOps1_6, hostOps1_7, hostOps1_8]) W (Proc.devRef .tc main_v57)
        = Cert.Loss.loss (fun i => W (Proc.devRef .tc main_v0) (ix3 (i 0) 0 0)) (fun i => W (Proc.devRef .tc main_v0) (ix3 (i 0) 0 1))
        (fun i => W (Proc.devRef .tc main_v0) (ix3 (i 0) 0 2)) (fun i => W (Proc.devRef .tc main_v0) (ix3 (i 0) 0 3))
        (fun i => W (Proc.devRef .tc main_v0) (ix3 (i 0) 0 ⟨4 + (i 1).val, by have h : (i 1).val < 3 := (i 1).isLt; omega⟩))
        (fun i => W (Proc.devRef .tc main_v0) (ix3 (i 0) 0 ⟨7 + (i 1).val, by have h : (i 1).val < 3 := (i 1).isLt; omega⟩)))
    (h : θ_run defs (onTc (τ := τ) (main (F := Ideal))) (s₀ m ρ)
      (Pipeline.FramePost cfgs dats 0 (Pipeline.afterTail₀ cfgs dats 0 (Hand.V0 m) [hostOps1, hostOps1_1, hostOps1_2, hostOps1_3, hostOps1_4, hostOps1_5, hostOps1_6, hostOps1_7, hostOps1_8]))) :
    θ_run (defs (F := Ideal)) (onTc (τ := τ) (main (F := Ideal))) ⟨m, fun _ => 0, ρ⟩ (fun r => ∀ c : Dev nD,
      r.2.mem ((c.tc : Thread nD τ).loc main_v57) = Cert.Loss.lossOf (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ⟨?_, ?_, ?_⟩) h
  · refine ((h c).2 main_v57 (Pipeline.mem_restRefs_of main_v57 (by decide) (by decide))).trans ?_
    unfold Pipeline.afterTail₀
    refine (htail _).trans ?_
    have hG : ∀ (b : Fin 16) (k : Fin 128),
        Pipeline.withArrays (cfgs 0).spec c (Hand.V0 m c) (fun w => (dats 0 c).arrAt w (cfgs 0).N)
            (Proc.devRef .tc main_v0) (ix3 b 0 k)
          = Cert.Spec.sampleLane (m ((c.tc : Thread nD τ).loc main_arg0)) (m ((c.tc : Thread nD τ).loc main_arg1)) b k :=
      fun b k => (congrFun (Pipeline.withArrays_arr spec0 launch0.win.arr_inj c _ _ 2) (ix3 b 0 k)).trans (hfinal c b k)
    unfold Cert.Loss.lossOf
    refine loss_congr ?_ ?_ ?_ ?_ ?_ ?_
    · exact funext fun i => (hG (i 0) 0).trans (sampleLane_sBg _ _ _ _ rfl)
    · exact funext fun i => (hG (i 0) 1).trans (sampleLane_sFg _ _ _ _ rfl)
    · exact funext fun i => (hG (i 0) 2).trans (sampleLane_nBg _ _ _ _ rfl)
    · exact funext fun i => (hG (i 0) 3).trans (sampleLane_nFg _ _ _ _ rfl)
    · exact funext fun i => (hG (i 0) _).trans (sampleLane_pBg _ _ _ (i 1) _ rfl)
    · exact funext fun i => (hG (i 0) _).trans (sampleLane_pFg _ _ _ (i 1) _ rfl)
  · exact ((h c).1 0).trans (((dats 0 c).arrAt_in 0 rfl _).trans ((hA c 0).trans (Hand.V_main_arg0 m c)))
  · exact ((h c).1 1).trans (((dats 0 c).arrAt_in 1 rfl _).trans ((hA c 1).trans (Hand.V_main_arg1 m c)))

/-- THE KERNEL'S RUN: from any memory with zero counters every weakly fair execution terminates with the result at the loss
    of the two input arrays, and both inputs unchanged, on every core. -/
theorem run_value :
    θ_run (defs (F := Ideal)) (onTc (τ := τ) (main (F := Ideal))) ⟨m, fun _ => 0, ρ⟩ (fun r => ∀ c : Dev nD,
      r.2.mem ((c.tc : Thread nD τ).loc main_v57) = Cert.Loss.lossOf (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_value_of m ρ (Hand.dats m) (Hand.A_eq m)
    (fun c b k => congrFun (Acc.final2 m c) (ix3 b 0 k))
    Tail.after_tail (Hand.run_main m ρ)

end Run

end Cert.KernelIdeal.Result

end
-- ==== Proof.Count.lean ====
/-
  The pixel count, over no program.

  The reference counts a sample's mask pixels with integer words: each one-bit mask element is widened to a 32-bit word
  (1 or 0), the words of the sample's 1024 × 1024 pixels are added, and the total is converted to a number. The words'
  values sum to at most 2^20, which is below 2^31, so word addition never wraps and the total reads the same signed and
  unsigned; the three casts from the naturals to the extended reals are additive. So the converted total is the sum over
  rows and lanes of the bits' indicators: the same number the float sums of the indicator produce.
-/
import proofs.«145242_j47090021433737_1_alg».proof.Proof.Sums
import Idealize.ShloMosaic.Lib.StableHlo.Predicate
import Idealize.ShloMosaic.Lib.ReduceAll
import Idealize.ShloMosaic.PureOps
import Idealize.ShloMosaic.PureOps.Ideal

noncomputable section

open scoped BigOperators

namespace Cert.Spec

open Idealize.ShloMosaic Idealize.ShloMosaic.ValueIdx

/-- A natural-number sum read as an extended real is the sum of the terms read so: the three casts are additive and
    send zero to zero. -/
private theorem cast_sum_nat {ι : Type*} (S : Finset ι) (n : ι → ℕ) :
    ((((∑ i ∈ S, n i : ℕ) : ℤ) : ℝ) : EReal) = ∑ i ∈ S, ((((n i : ℕ) : ℤ) : ℝ) : EReal) := by
  induction S using Finset.cons_induction with
  | empty => simp
  | cons a S ha ih =>
    rw [Finset.sum_cons, Finset.sum_cons, Nat.cast_add, Int.cast_add, EReal.coe_add, ih]

/-- The value of a widened mask bit, read as an extended real, is the bit's indicator. -/
private theorem cast_bit (b : BitVec 1) : (((((if b = 1#1 then 1 else 0 : ℕ)) : ℤ) : ℝ) : EReal) = ind b := by
  unfold ind
  split <;> simp

/-- THE PIXEL COUNT. Widen each mask bit to a 32-bit word, add the words of a sample's 2^20 pixels (no wrap: the sum is
    at most 2^20, below 2^31, so it reads the same signed and unsigned), and convert to a number: that number is the sum
    over rows and lanes of the bits' indicators. -/
theorem count_eq (mask : IVec SCnt 1) (hlt : 1 < 32) (h : SCnt.ReducesTo [1, 2] S16) (h0 : 0 < S0.numel) (j : S16.Idx) :
    (sitofp (F := Ideal) .f32 (Host.reduce IntOp.addi (extui 32 mask hlt) (constantI S0 32 0#32) h h0)) j
      = ∑ H : Fin 1024, ∑ W : Fin 1024, ind (mask (ix3 (j 0) H W)) := by
  have hval : ∀ i, (extui 32 mask hlt i).toNat = if mask i = 1#1 then 1 else 0 :=
    fun i => StableHlo.Predicate.toNat_setWidth_bit (mask i)
  -- the words' values sum to at most the number of pixels of the sample
  have hle : ∑ i ∈ Finset.univ.filter (fun i : SCnt.Idx => h.drop i = j), (extui 32 mask hlt i).toNat ≤ 2 ^ 20 := by
    calc ∑ i ∈ Finset.univ.filter (fun i : SCnt.Idx => h.drop i = j), (extui 32 mask hlt i).toNat
        ≤ ∑ _i ∈ Finset.univ.filter (fun i : SCnt.Idx => h.drop i = j), 1 :=
          Finset.sum_le_sum fun i _ => by rw [hval]; split <;> omega
      _ = 2 ^ 20 := by rw [Finset.sum_const, filter_card_cnt h j]; rfl
  -- so the fold of word addition does not wrap
  have hfold : (Host.reduce IntOp.addi (extui 32 mask hlt) (constantI S0 32 0#32) h h0 j).toNat
      = ∑ i ∈ Finset.univ.filter (fun i : SCnt.Idx => h.drop i = j), (extui 32 mask hlt i).toNat := by
    rw [Host.reduce_eq_fold]
    exact StableHlo.Predicate.toNat_fold_addi _ _ (by omega)
  show (((Host.reduce IntOp.addi (extui 32 mask hlt) (constantI S0 32 0#32) h h0 j).toInt : ℝ) : EReal) = _
  rw [StableHlo.Predicate.toInt_eq_toNat_of_lt (by rw [hfold]; omega), hfold, cast_sum_nat, filter_sum_cnt h _ j]
  refine Finset.sum_congr rfl fun H _ => Finset.sum_congr rfl fun W _ => ?_
  rw [hval]; exact cast_bit _

end Cert.Spec

end
-- ==== Proof.RefStats.lean ====
/-
  The reference's run read back, one operation at a time, and from it the six per-sample statistics of the reference
  as the plain sums over channel, row and lane of the specification.

  A pixel's mask bit is the conjunction over the three channels of the compares of the target against 0 (background)
  or 255 (foreground): a reduction by and, from 1, over the channel axis, which is 1 exactly when each of the three
  compares is. Converted to a number the bit is its indicator; laid over the channels it multiplies the huber term of
  the prediction (against 0, or against 255), or the prediction itself. The float sums over (channel,) row and lane,
  from the word 0, are the iterated sums of these products; the integer counts of the masks are the sums of the
  indicators. The last stage, from the six statistics to the loss, is the one both programs share.
-/
import proofs.«145242_j47090021433737_1_alg».proof.Proof.RefRead
import proofs.«145242_j47090021433737_1_alg».proof.Proof.Spec
import proofs.«145242_j47090021433737_1_alg».proof.Proof.Sums
import proofs.«145242_j47090021433737_1_alg».proof.Proof.Count
import proofs.«145242_j47090021433737_1_alg».proof.Proof.Loss
import proofs.«145242_j47090021433737_1_alg».proof.Proof.LossOf
import Idealize.ShloMosaic.Lib.ReduceAll
import Idealize.ShloMosaic.Lib.ValueIdx
import Idealize.ShloMosaic.PureOps.Ideal.Laws

noncomputable section

open scoped BigOperators

namespace Cert.ReferenceIdeal.RefStats

open Cert.ReferenceIdeal Cert.ReferenceIdeal.Gen Cert.ReferenceIdeal.ReadP Cert.Spec Idealize.ShloMosaic Idealize.ShloMosaic.ValueIdx
  Idealize.ShloMosaic.TcCoe Idealize.SL.Sem Idealize.ShloMosaic.StableHlo

/-- The arrays the reference reads: prediction and target. -/
abbrev Img : Type := (⟨S16x3x1024x1024, .f32⟩ : BufTy).Contents (Elt Ideal)

/-! ## Bits: a conjunction of three compares, the indicator of a bit -/

theorem and_eq_one (c d : BitVec 1) : c &&& d = 1#1 ↔ c = 1#1 ∧ d = 1#1 := by revert c d; decide

/-- The three-channel conjunction is 1 exactly when each channel's compare is. -/
theorem allEq_eq_one (w a b c : EReal) :
    allEq w a b c = 1#1 ↔ Ideal.cmp .oeq a w = 1#1 ∧ Ideal.cmp .oeq b w = 1#1 ∧ Ideal.cmp .oeq c w = 1#1 := by
  unfold allEq
  rw [and_eq_one, and_eq_one, and_assoc]

/-- The indicator only asks whether the bit is 1. -/
theorem ind_congr {m m' : BitVec 1} (h : m = 1#1 ↔ m' = 1#1) : ind m = ind m' := by
  unfold ind; exact if_congr h rfl rfl

/-- A bit converted to a number is its indicator. -/
theorem uitofp_bit (m : BitVec 1) : FloatOps.uitofp (F := Ideal) .f32 m = ind m := by
  rcases BitVec.eq_zero_or_eq_one m with rfl | rfl
  · show (((0#1 : BitVec 1).toNat : ℝ) : EReal) = ind 0#1
    simp [ind]
  · show (((1#1 : BitVec 1).toNat : ℝ) : EReal) = ind 1#1
    simp [ind]

/-! ## The conjunction over the channel axis -/

/-- A left fold by and, from 1, over bits that are all 1, is 1. -/
theorem foldl_andi_of_all {ι : Type} (f : ι → BitVec 1) :
    ∀ (l : List ι) (init : BitVec 1), init = 1#1 → (∀ n ∈ l, f n = 1#1) →
      l.foldl (fun r n => IntOp.andi r (f n)) init = 1#1
  | [], _, h, _ => h
  | a :: l, _, h, hl =>
    foldl_andi_of_all f l _ (IntOp.andi_eq_one.2 ⟨h, hl a (List.mem_cons_self ..)⟩)
      (fun n hn => hl n (List.mem_cons_of_mem _ hn))

/-- A reduction by and from 1 is 1 at a result index exactly when every element reducing into it is 1. -/
theorem reduce_andi_iff {s t u : Shape} {axes : List (Fin s.rank)} (x : s.Idx → BitVec 1) (init : u.Idx → BitVec 1)
    (h : s.ReducesTo axes t) (hu : 0 < u.numel) (j : t.Idx) (hinit : init (Shape.Idx.first hu) = 1#1) :
    Host.reduce IntOp.andi x init h hu j = 1#1 ↔ ∀ i, h.drop i = j → x i = 1#1 := by
  constructor
  · intro e i hi; exact Host.reduce_andi_eq_one x init h hu j e i hi
  · intro hall
    rw [Host.reduce_eq_foldl]
    exact foldl_andi_of_all x _ _ hinit (fun i hi => hall i (of_decide_eq_true (List.mem_filter.1 hi).2))

/-- Dropping the channel of (b, c, H, W) leaves the pixel (b, H, W). -/
theorem drop_ch_ix4 (h : SImg.ReducesTo [1] SCnt) (b : Fin 16) (c : Fin 3) (H W : Fin 1024) :
    h.drop (ix4 b c H W) = ix3 b H W := by
  funext a
  match a with
  | ⟨0, _⟩ => exact Fin.ext (Shape.ReducesTo.drop_apply_val_of_eq h _ 0 0)
  | ⟨1, _⟩ => exact Fin.ext (Shape.ReducesTo.drop_apply_val_of_eq h _ 1 2)
  | ⟨2, _⟩ => exact Fin.ext (Shape.ReducesTo.drop_apply_val_of_eq h _ 2 3)

/-- An index whose channel-dropped pixel is (b, H, W) is (b, its channel, H, W). -/
theorem of_drop_ch (h : SImg.ReducesTo [1] SCnt) (i : SImg.Idx) (b : Fin 16) (H W : Fin 1024)
    (e : h.drop i = ix3 b H W) : i = ix4 b (i 1) H W := by
  have h0 : (h.drop i 0 : Nat) = i 0 := Shape.ReducesTo.drop_apply_val_of_eq h i 0 0
  have h1 : (h.drop i 1 : Nat) = i 2 := Shape.ReducesTo.drop_apply_val_of_eq h i 1 2
  have h2 : (h.drop i 2 : Nat) = i 3 := Shape.ReducesTo.drop_apply_val_of_eq h i 2 3
  rw [e] at h0 h1 h2
  funext a
  match a with
  | ⟨0, _⟩ => exact Fin.ext h0.symm
  | ⟨1, _⟩ => rfl
  | ⟨2, _⟩ => exact Fin.ext h1.symm
  | ⟨3, _⟩ => exact Fin.ext h2.symm

/-- The and over the three channels at a pixel is 1 exactly when each channel's bit is. -/
theorem reduce_ch_iff {u : Shape} (x : SImg.Idx → BitVec 1) (init : u.Idx → BitVec 1) (h : SImg.ReducesTo [1] SCnt)
    (hu : 0 < u.numel) (hinit : init (Shape.Idx.first hu) = 1#1) (b : Fin 16) (H W : Fin 1024) :
    Host.reduce IntOp.andi x init h hu (ix3 b H W) = 1#1
      ↔ x (ix4 b 0 H W) = 1#1 ∧ x (ix4 b 1 H W) = 1#1 ∧ x (ix4 b 2 H W) = 1#1 := by
  rw [reduce_andi_iff x init h hu _ hinit]
  constructor
  · intro hall
    exact ⟨hall _ (drop_ch_ix4 h b 0 H W), hall _ (drop_ch_ix4 h b 1 H W), hall _ (drop_ch_ix4 h b 2 H W)⟩
  · rintro ⟨e0, e1, e2⟩ i hi
    rw [of_drop_ch h i b H W hi]
    have hc : ∀ c : Fin 3, x (ix4 b c H W) = 1#1 := fun c => by
      match c with
      | ⟨0, _⟩ => exact e0
      | ⟨1, _⟩ => exact e1
      | ⟨2, _⟩ => exact e2
    exact hc (i 1)

/-! ## The two masks at a pixel -/

/-- The compare against 0, and against 255, at an index. -/
theorem v1_at (x1 : Img) (i : SImg.Idx) : val_main_v1 (F := Ideal) x1 i = Ideal.cmp .oeq (x1 i) zeroV := by
  rw [val_main_v1_apply, val_main_v0_apply, val_main_cst_apply] <;> rfl

theorem v4_at (x1 : Img) (i : SImg.Idx) : val_main_v4 (F := Ideal) x1 i = Ideal.cmp .oeq (x1 i) v255 := by
  rw [val_main_v4_apply, val_main_v3_apply, val_main_cst_0_apply] <;> rfl

/-- The background bit of pixel (b, H, W) is the specification's conjunction. -/
theorem v2_bit (x1 : Img) (b : Fin 16) (H W : Fin 1024) :
    val_main_v2 (F := Ideal) x1 (ix3 b H W) = 1#1
      ↔ allEq zeroV (x1 (ix4 b 0 H W)) (x1 (ix4 b 1 H W)) (x1 (ix4 b 2 H W)) = 1#1 := by
  unfold val_main_v2
  refine (reduce_ch_iff (val_main_v1 (F := Ideal) x1) (val_main_c (F := Ideal))
    reducesTo_S16x3x1024x1024_S16x1024x1024_d1 h_S_ rfl b H W).trans ?_
  rw [allEq_eq_one, v1_at, v1_at, v1_at]

theorem v5_bit (x1 : Img) (b : Fin 16) (H W : Fin 1024) :
    val_main_v5 (F := Ideal) x1 (ix3 b H W) = 1#1
      ↔ allEq v255 (x1 (ix4 b 0 H W)) (x1 (ix4 b 1 H W)) (x1 (ix4 b 2 H W)) = 1#1 := by
  unfold val_main_v5
  refine (reduce_ch_iff (val_main_v4 (F := Ideal) x1) (val_main_c_1 (F := Ideal))
    reducesTo_S16x3x1024x1024_S16x1024x1024_d1 h_S_ rfl b H W).trans ?_
  rw [allEq_eq_one, v4_at, v4_at, v4_at]

theorem v2_ind (x1 : Img) (b : Fin 16) (H W : Fin 1024) :
    ind (val_main_v2 (F := Ideal) x1 (ix3 b H W)) = bgAt x1 b H W := ind_congr (v2_bit x1 b H W)

theorem v5_ind (x1 : Img) (b : Fin 16) (H W : Fin 1024) :
    ind (val_main_v5 (F := Ideal) x1 (ix3 b H W)) = fgAt x1 b H W := ind_congr (v5_bit x1 b H W)

/-! ## The masks as numbers, laid over the three channels -/

theorem idx6_ix4 (b : Fin 16) (H W : Fin 1024) : idx_main_v6 (ix4 b (0 : Fin 1) H W) = ix3 b H W := by
  funext a; match a with | ⟨0, _⟩ => rfl | ⟨1, _⟩ => rfl | ⟨2, _⟩ => rfl
theorem idx8_ix4 (b : Fin 16) (H W : Fin 1024) : idx_main_v8 (ix4 b (0 : Fin 1) H W) = ix3 b H W := by
  funext a; match a with | ⟨0, _⟩ => rfl | ⟨1, _⟩ => rfl | ⟨2, _⟩ => rfl
theorem idx34_ix4 (b : Fin 16) (c : Fin 3) (H W : Fin 1024) : idx_main_v34 (ix4 b c H W) = ix4 b (0 : Fin 1) H W := by
  funext a; match a with | ⟨0, _⟩ => rfl | ⟨1, _⟩ => rfl | ⟨2, _⟩ => rfl | ⟨3, _⟩ => rfl
theorem idx51_ix4 (b : Fin 16) (c : Fin 3) (H W : Fin 1024) : idx_main_v51 (ix4 b c H W) = ix4 b (0 : Fin 1) H W := by
  funext a; match a with | ⟨0, _⟩ => rfl | ⟨1, _⟩ => rfl | ⟨2, _⟩ => rfl | ⟨3, _⟩ => rfl
theorem idx57_ix4 (b : Fin 16) (c : Fin 3) (H W : Fin 1024) : idx_main_v57 (ix4 b c H W) = ix4 b (0 : Fin 1) H W := by
  funext a; match a with | ⟨0, _⟩ => rfl | ⟨1, _⟩ => rfl | ⟨2, _⟩ => rfl | ⟨3, _⟩ => rfl
theorem idx63_ix4 (b : Fin 16) (c : Fin 3) (H W : Fin 1024) : idx_main_v63 (ix4 b c H W) = ix4 b (0 : Fin 1) H W := by
  funext a; match a with | ⟨0, _⟩ => rfl | ⟨1, _⟩ => rfl | ⟨2, _⟩ => rfl | ⟨3, _⟩ => rfl

/-- The background mask as a number at (b, 0, H, W), and the foreground one. -/
theorem v7_at (x1 : Img) (b : Fin 16) (H W : Fin 1024) :
    val_main_v7 (F := Ideal) x1 (ix4 b (0 : Fin 1) H W) = bgAt x1 b H W := by
  rw [val_main_v7_apply, val_main_v6_apply, idx6_ix4, uitofp_bit, v2_ind]

theorem v9_at (x1 : Img) (b : Fin 16) (H W : Fin 1024) :
    val_main_v9 (F := Ideal) x1 (ix4 b (0 : Fin 1) H W) = fgAt x1 b H W := by
  rw [val_main_v9_apply, val_main_v8_apply, idx8_ix4, uitofp_bit, v5_ind]

/-- Laid over the channels, each of the four broadcasts reads the pixel's indicator. -/
theorem v34_at (x1 : Img) (b : Fin 16) (c : Fin 3) (H W : Fin 1024) :
    val_main_v34 (F := Ideal) x1 (ix4 b c H W) = bgAt x1 b H W := by
  rw [val_main_v34_apply, idx34_ix4, v7_at]
theorem v57_at (x1 : Img) (b : Fin 16) (c : Fin 3) (H W : Fin 1024) :
    val_main_v57 (F := Ideal) x1 (ix4 b c H W) = bgAt x1 b H W := by
  rw [val_main_v57_apply, idx57_ix4, v7_at]
theorem v51_at (x1 : Img) (b : Fin 16) (c : Fin 3) (H W : Fin 1024) :
    val_main_v51 (F := Ideal) x1 (ix4 b c H W) = fgAt x1 b H W := by
  rw [val_main_v51_apply, idx51_ix4, v9_at]
theorem v63_at (x1 : Img) (b : Fin 16) (c : Fin 3) (H W : Fin 1024) :
    val_main_v63 (F := Ideal) x1 (ix4 b c H W) = fgAt x1 b H W := by
  rw [val_main_v63_apply, idx63_ix4, v9_at]

/-! ## The huber terms at an index -/

theorem v26_at (i : SImg.Idx) : val_main_v26 (F := Ideal) i = oneV := by
  rw [val_main_v26_apply] <;> rfl
theorem v28_at (i : SImg.Idx) : val_main_v28 (F := Ideal) i = halfV := by
  rw [val_main_v28_apply] <;> rfl
theorem v31_at (i : SImg.Idx) : val_main_v31 (F := Ideal) i = halfV := by
  rw [val_main_v31_apply] <;> rfl
theorem v40_at (i : SImg.Idx) : val_main_v40 (F := Ideal) i = v255 := by
  rw [val_main_v40_apply] <;> rfl
theorem v43_at (i : SImg.Idx) : val_main_v43 (F := Ideal) i = oneV := by
  rw [val_main_v43_apply] <;> rfl
theorem v45_at (i : SImg.Idx) : val_main_v45 (F := Ideal) i = halfV := by
  rw [val_main_v45_apply] <;> rfl
theorem v48_at (i : SImg.Idx) : val_main_v48 (F := Ideal) i = halfV := by
  rw [val_main_v48_apply] <;> rfl

/-- The select between the quadratic and the linear branch is the huber term of the prediction … -/
theorem v33_at (x0 : Img) (i : SImg.Idx) : val_main_v33 (F := Ideal) x0 i = huber (x0 i) := by
  show Scalar.select (Ideal.cmp .olt (max (x0 i) (-(x0 i))) (val_main_v26 (F := Ideal) i))
      ((val_main_v28 (F := Ideal) i * x0 i) * x0 i) (max (x0 i) (-(x0 i)) - val_main_v31 (F := Ideal) i) = _
  rw [v26_at, v28_at, v31_at] <;> rfl

/-- … and of the prediction less 255. -/
theorem v50_at (x0 : Img) (i : SImg.Idx) : val_main_v50 (F := Ideal) x0 i = huber (x0 i - v255) := by
  show Scalar.select (Ideal.cmp .olt (max (x0 i - val_main_v40 (F := Ideal) i) (-(x0 i - val_main_v40 (F := Ideal) i)))
        (val_main_v43 (F := Ideal) i))
      ((val_main_v45 (F := Ideal) i * (x0 i - val_main_v40 (F := Ideal) i)) * (x0 i - val_main_v40 (F := Ideal) i))
      (max (x0 i - val_main_v40 (F := Ideal) i) (-(x0 i - val_main_v40 (F := Ideal) i)) - val_main_v48 (F := Ideal) i) = _
  rw [v40_at, v43_at, v45_at, v48_at] <;> rfl

/-! ## The four summands at (b, c, H, W) -/

theorem v35_at (x0 x1 : Img) (b : Fin 16) (c : Fin 3) (H W : Fin 1024) :
    val_main_v35 (F := Ideal) x0 x1 (ix4 b c H W) = huber (x0 (ix4 b c H W)) * bgAt x1 b H W := by
  show val_main_v33 (F := Ideal) x0 (ix4 b c H W) * val_main_v34 (F := Ideal) x1 (ix4 b c H W) = _
  rw [v33_at, v34_at]

theorem v52_at (x0 x1 : Img) (b : Fin 16) (c : Fin 3) (H W : Fin 1024) :
    val_main_v52 (F := Ideal) x0 x1 (ix4 b c H W) = huber (x0 (ix4 b c H W) - v255) * fgAt x1 b H W := by
  show val_main_v50 (F := Ideal) x0 (ix4 b c H W) * val_main_v51 (F := Ideal) x1 (ix4 b c H W) = _
  rw [v50_at, v51_at]

theorem v58_at (x0 x1 : Img) (b : Fin 16) (c : Fin 3) (H W : Fin 1024) :
    val_main_v58 (F := Ideal) x0 x1 (ix4 b c H W) = x0 (ix4 b c H W) * bgAt x1 b H W := by
  show x0 (ix4 b c H W) * val_main_v57 (F := Ideal) x1 (ix4 b c H W) = _
  rw [v57_at]

theorem v64_at (x0 x1 : Img) (b : Fin 16) (c : Fin 3) (H W : Fin 1024) :
    val_main_v64 (F := Ideal) x0 x1 (ix4 b c H W) = x0 (ix4 b c H W) * fgAt x1 b H W := by
  show x0 (ix4 b c H W) * val_main_v63 (F := Ideal) x1 (ix4 b c H W) = _
  rw [v63_at]

/-! ## The six statistics -/

/-- A float sum over channel, row and lane from the word 0 is the triple sum. -/
theorem sum_b (x : SImg.Idx → EReal) (h : SImg.ReducesTo [1, 2, 3] S16) (j : S16.Idx) :
    Ideal.hostReduceAdd h x (Ideal.ofBits .f32 0x00000000#32) j
      = ∑ c : Fin 3, ∑ H : Fin 1024, ∑ W : Fin 1024, x (ix4 (j 0) c H W) := by
  unfold Ideal.hostReduceAdd
  rw [Ideal.ofBits_zero_f32, zero_add, filter_sum_b]

/-- A float sum over row and lane from the word 0 is the double sum. -/
theorem sum_bc (x : SImg.Idx → EReal) (h : SImg.ReducesTo [2, 3] S16x3) (j : S16x3.Idx) :
    Ideal.hostReduceAdd h x (Ideal.ofBits .f32 0x00000000#32) j
      = ∑ H : Fin 1024, ∑ W : Fin 1024, x (ix4 (j 0) (j 1) H W) := by
  unfold Ideal.hostReduceAdd
  rw [Ideal.ofBits_zero_f32, zero_add, filter_sum_bc]

theorem v36_eq (x0 x1 : Img) (i : S16.Idx) : val_main_v36 (F := Ideal) x0 x1 i = sBg x0 x1 (i 0) :=
  (sum_b (val_main_v35 (F := Ideal) x0 x1) reducesTo_S16x3x1024x1024_S16_d1_2_3 i).trans
    (Finset.sum_congr rfl fun c _ => Finset.sum_congr rfl fun H _ => Finset.sum_congr rfl fun W _ =>
      v35_at x0 x1 (i 0) c H W)

theorem v53_eq (x0 x1 : Img) (i : S16.Idx) : val_main_v53 (F := Ideal) x0 x1 i = sFg x0 x1 (i 0) :=
  (sum_b (val_main_v52 (F := Ideal) x0 x1) reducesTo_S16x3x1024x1024_S16_d1_2_3 i).trans
    (Finset.sum_congr rfl fun c _ => Finset.sum_congr rfl fun H _ => Finset.sum_congr rfl fun W _ =>
      v52_at x0 x1 (i 0) c H W)

theorem v59_eq (x0 x1 : Img) (i : S16x3.Idx) : val_main_v59 (F := Ideal) x0 x1 i = pBg x0 x1 (i 0) (i 1) :=
  (sum_bc (val_main_v58 (F := Ideal) x0 x1) reducesTo_S16x3x1024x1024_S16x3_d2_3 i).trans
    (Finset.sum_congr rfl fun H _ => Finset.sum_congr rfl fun W _ => v58_at x0 x1 (i 0) (i 1) H W)

theorem v65_eq (x0 x1 : Img) (i : S16x3.Idx) : val_main_v65 (F := Ideal) x0 x1 i = pFg x0 x1 (i 0) (i 1) :=
  (sum_bc (val_main_v64 (F := Ideal) x0 x1) reducesTo_S16x3x1024x1024_S16x3_d2_3 i).trans
    (Finset.sum_congr rfl fun H _ => Finset.sum_congr rfl fun W _ => v64_at x0 x1 (i 0) (i 1) H W)

/-- The two counts: the integer count of the mask is the sum of its indicators. -/
theorem v12_eq (x1 : Img) (i : S16.Idx) : val_main_v12 (F := Ideal) x1 i = nBg x1 (i 0) :=
  (count_eq (val_main_v2 (F := Ideal) x1) natLt_1_32 reducesTo_S16x1024x1024_S16_d1_2 h_S_ i).trans
    (Finset.sum_congr rfl fun H _ => Finset.sum_congr rfl fun W _ => v2_ind x1 (i 0) H W)

theorem v15_eq (x1 : Img) (i : S16.Idx) : val_main_v15 (F := Ideal) x1 i = nFg x1 (i 0) :=
  (count_eq (val_main_v5 (F := Ideal) x1) natLt_1_32 reducesTo_S16x1024x1024_S16_d1_2 h_S_ i).trans
    (Finset.sum_congr rfl fun H _ => Finset.sum_congr rfl fun W _ => v5_ind x1 (i 0) H W)

/-! ## The result: the shared last stage of the six statistics -/

/-- The reference's last stage is the shared one, at any reading of the floats. -/
theorem tail_eq {F : FTy → Type} [FloatOps F] (x0 x1 : (⟨S16x3x1024x1024, .f32⟩ : BufTy).Contents (Elt F)) :
    val_main_v93 (F := F) x0 x1
      = Cert.Loss.lossF (val_main_v36 (F := F) x0 x1) (val_main_v53 (F := F) x0 x1) (val_main_v12 (F := F) x1)
          (val_main_v15 (F := F) x1) (val_main_v59 (F := F) x0 x1) (val_main_v65 (F := F) x0 x1) := rfl

theorem result_eq (x0 x1 : Img) :
    val_main_v93 (F := Ideal) x0 x1
      = Cert.Loss.loss (fun i => sBg x0 x1 (i 0)) (fun i => sFg x0 x1 (i 0)) (fun i => nBg x1 (i 0))
          (fun i => nFg x1 (i 0)) (fun i => pBg x0 x1 (i 0) (i 1)) (fun i => pFg x0 x1 (i 0) (i 1)) := by
  rw [tail_eq, Cert.Loss.loss_eq,
    show val_main_v36 (F := Ideal) x0 x1 = (fun i => sBg x0 x1 (i 0)) from funext (v36_eq x0 x1),
    show val_main_v53 (F := Ideal) x0 x1 = (fun i => sFg x0 x1 (i 0)) from funext (v53_eq x0 x1),
    show val_main_v12 (F := Ideal) x1 = (fun i => nBg x1 (i 0)) from funext (v12_eq x1),
    show val_main_v15 (F := Ideal) x1 = (fun i => nFg x1 (i 0)) from funext (v15_eq x1),
    show val_main_v59 (F := Ideal) x0 x1 = (fun i => pBg x0 x1 (i 0) (i 1)) from funext (v59_eq x0 x1),
    show val_main_v65 (F := Ideal) x0 x1 = (fun i => pFg x0 x1 (i 0) (i 1)) from funext (v65_eq x0 x1)]

/-- The same with the loss named as one function of prediction and target. -/
theorem result_lossOf (x0 x1 : Img) : val_main_v93 (F := Ideal) x0 x1 = Cert.Loss.lossOf x0 x1 := result_eq x0 x1

/-! ## The reference's run, its result named -/

/-- Every execution of the reference ends with its result the loss of its two arguments, and the arguments unchanged. -/
theorem run_value (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩
      (fun r => ∀ c : Dev nD,
        r.2.mem ((c.tc : Thread nD τ).loc main_v93)
          = Cert.Loss.lossOf (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  (θ_run _ _ _).mono
    (fun _ h c => ⟨((h c).1.trans (ReadP.val_main_v93_eq m c)).trans (result_lossOf _ _), (h c).2⟩)
    (Cert.ReferenceIdeal.ValueP.run (F := Ideal) m ρ)

end Cert.ReferenceIdeal.RefStats

end
-- ==== Proof.lean ====
/-
  The certificate of the masked huber / mean-separation loss kernel against its jnp reference.

  Both programs compute, per sample, six statistics of the prediction under two masks read off the target — the masked
  sums of the huber term against 0 and against 255, the two pixel counts, and per channel the two masked sums of the
  prediction — and then the same scalar tail. The reference takes each statistic by one whole-image reduction (the counts
  as integer sums converted to float). The kernel walks a sample in four tiles of 256 rows: at each tile it computes the
  tile's ten numbers lane by lane and row by row, packs them into lanes 0..9 of a 128-lane row and adds that row to an
  accumulator it carries from tile to tile (reset at the sample's first tile, copied out at its last). Over the extended
  reals the two are the same sums regrouped — by tile, by channel, with zero seeds — and a count of at most 2^20 ones
  taken in 32-bit integers is the same number as the float sum of the ones; no step needs the inputs finite.

  Spec.lean states the statistics once; Sums.lean and Count.lean hold the regrouping and the count; Tile.lean reads what
  one grid point stores; KiKit, KiRunA–C and KiFrame are the kernel's frame (its runs case by case, the accumulator's
  contents point by point, the launch), KKit … KFrame the same text for the word-level program; KiAcc reads the output
  array off that frame, KiTail and Loss.lean the host tail, KiValue the kernel's run with its result named; RefStats reads
  the reference's run as the same function.
-/
import proofs.«145242_j47090021433737_1_alg».proof.Defs
import proofs.«145242_j47090021433737_1_alg».proof.Proof.Gen.Kernel
import proofs.«145242_j47090021433737_1_alg».proof.Proof.Gen.KernelIdeal
import proofs.«145242_j47090021433737_1_alg».proof.Proof.Gen.ReferenceIdeal
import proofs.«145242_j47090021433737_1_alg».proof.Proof.Gen.Pre_finite_inputs
import proofs.«145242_j47090021433737_1_alg».proof.Proof.KFrame
import proofs.«145242_j47090021433737_1_alg».proof.Proof.KiValue
import proofs.«145242_j47090021433737_1_alg».proof.Proof.RefStats
import Idealize.ShloMosaic.Adequacy
import Idealize.ShloMosaic.Init

noncomputable section

namespace Cert.Proof

open Idealize.ShloMosaic Idealize.ShloMosaic.TcCoe Idealize.SL.Sem

/-- The word-level kernel runs, faults nowhere and leaves its two inputs as they were. -/
theorem frame_k : Cert.frame_Kernel := fun m ρ _ => Cert.Kernel.Hand.frame m ρ

/-- So does the kernel read over the extended reals. -/
theorem frame_ki : Cert.frame_KernelIdeal := fun m ρ _ => Cert.KernelIdeal.Hand.frame m ρ

/-- The reference is host operations only: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Nothing was rewritten in the idealization: the claim is trivial. -/
theorem preserves : Cert.preserves_Kernel_KernelIdeal := trivial

/-- From memories that agree on the two inputs both programs end at the loss of those inputs: the kernel by its run with
    the result named, the reference by its run read back and the statistics identified with the specification's. -/
theorem algebraic : Cert.algebraic_KernelIdeal_ReferenceIdeal := by
  intro m ρ m' ρ' _ hagree
  refine ⟨fun c => Cert.Loss.lossOf (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Result.run_value m ρ, ?_⟩
  exact (θ_run Cert.ReferenceIdeal.defs _ _).mono
    (fun _ h c => ⟨by rw [(h c).1, (hagree c).1, (hagree c).2], (h c).2⟩)
    (Cert.ReferenceIdeal.RefStats.run_value m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
